-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 512, 64, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 512, 64, 128]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x64x64x64 .f32) (main_arg1 : FVec F S64x128 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Pre_finite_inputs_ReferenceIdeal.lean ====
abbrev S2x512x64x64 : Shape := ⟨4, ![2, 512, 64, 64]⟩
abbrev S64x128 : Shape := ⟨2, ![64, 128]⟩
abbrev S_ : Shape := ⟨0, ![]⟩

class Facts : Prop where
  bcast_S_S2x512x64x64 : S_.BroadcastsInDim S2x512x64x64 (![] : Fin 0 → Fin S2x512x64x64.rank)
  reducesTo_S2x512x64x64_S_d0_1_2_3 : S2x512x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x512x64x64 .f32) (main_arg1 : FVec F S64x128 .f32) : IVec S_ 1 :=
  let main_v0 : FVec F S2x512x64x64 .f32 := Host.absf main_arg0
  let main_cst : FVec F S_ .f32 := constant S_ .f32 0x7F800000#32
  let main_v1 : FVec F S2x512x64x64 .f32 := broadcastInDim S2x512x64x64 ![] bcast_S_S2x512x64x64 main_cst
  let main_v2 : IVec S2x512x64x64 1 := cmpf .olt main_v0 main_v1
  let main_c : IVec S_ 1 := constantI S_ 1 1#1
  let main_v3 : IVec S_ 1 := (fun x v => Host.reduce IntOp.andi x v reducesTo_S2x512x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S8x4x64 : Shape := ⟨3, ![8, 4, 64]⟩
abbrev S8 : Shape := ⟨1, ![8]⟩
abbrev S_ : Shape := ⟨0, ![]⟩
abbrev S2x4096x64 : Shape := ⟨3, ![2, 4096, 64]⟩
abbrev S2x64 : Shape := ⟨2, ![2, 64]⟩
abbrev S1x2x64 : Shape := ⟨3, ![1, 2, 64]⟩
abbrev S1 : Shape := ⟨1, ![1]⟩
abbrev S1x4x64 : Shape := ⟨3, ![1, 4, 64]⟩
abbrev S4x64 : Shape := ⟨2, ![4, 64]⟩
abbrev S2x1x64 : Shape := ⟨3, ![2, 1, 64]⟩
abbrev S8192x64 : Shape := ⟨2, ![8192, 64]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .f32⟩
  | .local _ .vmem, ⟨0, _⟩ => ⟨S2x64x64x64, .f32⟩
  | .local _ .vmem, ⟨1, _⟩ => ⟨S64x128, .f32⟩
  | .local _ .vmem, ⟨2, _⟩ => ⟨S2x64x64x128, .f32⟩
  | .local _ .vmem, ⟨3, _⟩ => ⟨S8x4x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : Index := Scalar.indexCast v2
  let c0_32 : Index := 0#32
  let c0_33 : Index := 0#32
  ![v39.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : Index := Scalar.indexCast v2
  let c2 : Index := 2#32
  let c0_34 : Index := 0#32
  ![v44.toNat, 2, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_41 : BitVec 32 := 0#32
  let c0_i32_42 : BitVec 32 := 0#32
  ![v2.toNat, 0, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v48 : BitVec 32 := Scalar.addi v2 c1_i32_36
  let c8_i32_37 : BitVec 32 := 8#32
  let v49 : BitVec 32 := Scalar.remsi v48 c8_i32_37
  let c1_i32_39 : BitVec 32 := 1#32
  let v50 : BitVec 32 := Scalar.muli v49 c1_i32_39
  let v51 : BitVec 32 := Scalar.addi c0_i32_40 v50
  v51.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v58 : BitVec 32 := Scalar.addi v2 c2_i32_45
  let c8_i32_46 : BitVec 32 := 8#32
  let v59 : BitVec 32 := Scalar.remsi v58 c8_i32_46
  let c1_i32_48 : BitVec 32 := 1#32
  let v60 : BitVec 32 := Scalar.muli v59 c1_i32_48
  let v61 : BitVec 32 := Scalar.addi c0_i32_49 v60
  v61.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v68 : BitVec 32 := Scalar.addi v2 c3_i32_54
  let c8_i32_55 : BitVec 32 := 8#32
  let v69 : BitVec 32 := Scalar.remsi v68 c8_i32_55
  let c1_i32_57 : BitVec 32 := 1#32
  let v70 : BitVec 32 := Scalar.muli v69 c1_i32_57
  let v71 : BitVec 32 := Scalar.addi c0_i32_58 v70
  v71.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v78 : BitVec 32 := Scalar.addi v2 c4_i32_63
  let c8_i32_64 : BitVec 32 := 8#32
  let v79 : BitVec 32 := Scalar.remsi v78 c8_i32_64
  let c1_i32_66 : BitVec 32 := 1#32
  let v80 : BitVec 32 := Scalar.muli v79 c1_i32_66
  let v81 : BitVec 32 := Scalar.addi c0_i32_67 v80
  v81.toNat
def k0_dev12 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v88 : BitVec 32 := Scalar.addi v2 c5_i32_72
  let c8_i32_73 : BitVec 32 := 8#32
  let v89 : BitVec 32 := Scalar.remsi v88 c8_i32_73
  let c1_i32_75 : BitVec 32 := 1#32
  let v90 : BitVec 32 := Scalar.muli v89 c1_i32_75
  let v91 : BitVec 32 := Scalar.addi c0_i32_76 v90
  v91.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_81 : BitVec 32 := 6#32
  let v98 : BitVec 32 := Scalar.addi v2 c6_i32_81
  let c8_i32_82 : BitVec 32 := 8#32
  let v99 : BitVec 32 := Scalar.remsi v98 c8_i32_82
  let c1_i32_84 : BitVec 32 := 1#32
  let v100 : BitVec 32 := Scalar.muli v99 c1_i32_84
  let v101 : BitVec 32 := Scalar.addi c0_i32_85 v100
  v101.toNat
def k0_dev14 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_90 : BitVec 32 := 7#32
  let v108 : BitVec 32 := Scalar.addi v2 c7_i32_90
  let c8_i32_91 : BitVec 32 := 8#32
  let v109 : BitVec 32 := Scalar.remsi v108 c8_i32_91
  let c1_i32_93 : BitVec 32 := 1#32
  let v110 : BitVec 32 := Scalar.muli v109 c1_i32_93
  let v111 : BitVec 32 := Scalar.addi c0_i32_94 v110
  v111.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2x64x64x64_S2x64x64x64_0_0_0_0 : ∀ a, (![0, 0, 0, 0] : Fin 4 → Nat) a + S2x64x64x64.size a ≤ S2x64x64x64.size a
  h_S2x64x64x64 : 0 < S2x64x64x64.numel
  shapeCasts_S2x64x64x64_S2x64x64x64 : S2x64x64x64.ShapeCasts S2x64x64x64
  shapeCasts_S2x64x64x64_S2x4096x64 : S2x64x64x64.ShapeCasts S2x4096x64
  reduces_S2x4096x64_S2x64 : S2x4096x64.Reduces [1] S2x64
  shapeCasts_S2x64_S1x2x64 : S2x64.ShapeCasts S1x2x64
  h_S1x2x64 : 0 < S1x2x64.numel
  shapeCasts_S1x2x64_S1x2x64 : S1x2x64.ShapeCasts S1x2x64
  hamt_7 : (7#32 : BitVec 32).msb = false
  inb_S8_S1_1 : ∀ a, (![1] : Fin 1 → Nat) a + S1.size a ≤ S8.size a
  squeezes_S1_S_ : S1.Squeezes S_
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8_S1_0 : ∀ a, (![0] : Fin 1 → Nat) a + S1.size a ≤ S8.size a
  inb_S8x4x64_S1x4x64_0_0_0 : ∀ a, (![0, 0, 0] : Fin 3 → Nat) a + S1x4x64.size a ≤ S8x4x64.size a
  inb_S8x4x64_S1x4x64_1_0_0 : ∀ a, (![1, 0, 0] : Fin 3 → Nat) a + S1x4x64.size a ≤ S8x4x64.size a
  inb_S8x4x64_S1x4x64_2_0_0 : ∀ a, (![2, 0, 0] : Fin 3 → Nat) a + S1x4x64.size a ≤ S8x4x64.size a
  inb_S8x4x64_S1x4x64_3_0_0 : ∀ a, (![3, 0, 0] : Fin 3 → Nat) a + S1x4x64.size a ≤ S8x4x64.size a
  inb_S8x4x64_S1x4x64_4_0_0 : ∀ a, (![4, 0, 0] : Fin 3 → Nat) a + S1x4x64.size a ≤ S8x4x64.size a
  inb_S8x4x64_S1x4x64_5_0_0 : ∀ a, (![5, 0, 0] : Fin 3 → Nat) a + S1x4x64.size a ≤ S8x4x64.size a
  inb_S8x4x64_S1x4x64_6_0_0 : ∀ a, (![6, 0, 0] : Fin 3 → Nat) a + S1x4x64.size a ≤ S8x4x64.size a
  inb_S8x4x64_S1x4x64_7_0_0 : ∀ a, (![7, 0, 0] : Fin 3 → Nat) a + S1x4x64.size a ≤ S8x4x64.size a
  inb_S8x4x64_S8x4x64_0_0_0 : ∀ a, (![0, 0, 0] : Fin 3 → Nat) a + S8x4x64.size a ≤ S8x4x64.size a
  h_S8x4x64 : 0 < S8x4x64.numel
  reduces_S8x4x64_S4x64 : S8x4x64.Reduces [0] S4x64
  slices_S4x64_o0_0_S2x64 : S4x64.Slices ![0, 0] S2x64
  slices_S4x64_o2_0_S2x64 : S4x64.Slices ![2, 0] S2x64
  shapeCasts_S2x64_S2x1x64 : S2x64.ShapeCasts S2x1x64
  broadcasts_S2x1x64_S2x4096x64 : S2x1x64.Broadcasts S2x4096x64
  shapeCasts_S2x4096x64_S8192x64 : S2x4096x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S8192x128_S2x64x64x128 : S8192x128.ShapeCasts S2x64x64x128
  inb_S2x64x64x128_S2x64x64x128_0_0_0_0 : ∀ a, (![0, 0, 0, 0] : Fin 4 → Nat) a + S2x64x64x128.size a ≤ S2x64x64x128.size a
  h_S2x64x64x128 : 0 < S2x64x64x128.numel
  dot_S8192x64_S64x128_S8192x128_1_0_0_1_n_n_wf : DotDims.WF S8192x64 S64x128 S8192x128 [1] [0] [0] [1] [] []
  hcc0_scratch1 : 3 + S8.numel ≤ 19
  hcc0_scratch2 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x2x64.size a ≤ S8x4x64.size a
  k0_off2_inb : ∀ d0 : Dev nD, ∀ a, (k0_off2 d0) a + S1x2x64.size a ≤ S8x4x64.size a
  k0_off3_inb : ∀ d0 : Dev nD, ∀ a, (k0_off3 d0) a + S1.size a ≤ S8.size a
  k0_off4_inb : ∀ d0 : Dev nD, ∀ a, (k0_off4 d0) a + S1x4x64.size a ≤ S8x4x64.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S8 := SemArray.consecutive 3 S8 hcc0_scratch1
abbrev cc0_scratch2 : DmaSems sig S8 := SemArray.consecutive 11 S8 hcc0_scratch2
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x64x64 : Shape := ⟨4, ![2, 512, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S65536x64 : Shape := ⟨2, ![65536, 64]⟩
abbrev S65536x128 : Shape := ⟨2, ![65536, 128]⟩
abbrev S2x512x64x128 : Shape := ⟨4, ![2, 512, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x512x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x512x64x64, .f32⟩
  | .hbm, ⟨16, _⟩ => ⟨S2x512x64x64, .f32⟩
  | .hbm, ⟨17, _⟩ => ⟨S2x512x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x512x64x64, .f32⟩
  | .hbm, ⟨33, _⟩ => ⟨S2x512x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x512x64x64, .f32⟩
  | .hbm, ⟨39, _⟩ => ⟨S2x512x64x64, .f32⟩
  | .hbm, ⟨40, _⟩ => ⟨S2x512x64x64, .f32⟩
  | .hbm, ⟨41, _⟩ => ⟨S2x512x64x64, .f32⟩
  | .hbm, ⟨42, _⟩ => ⟨S_, .f32⟩
  | .hbm, ⟨43, _⟩ => ⟨S2x512x64x64, .f32⟩
  | .hbm, ⟨44, _⟩ => ⟨S2x512x64x64, .f32⟩
  | .hbm, ⟨45, _⟩ => ⟨S2x512x64x64, .f32⟩
  | .hbm, ⟨46, _⟩ => ⟨S65536x64, .f32⟩
  | .hbm, ⟨47, _⟩ => ⟨S65536x128, .f32⟩
  | .hbm, ⟨48, _⟩ => ⟨S2x512x64x128, .f32⟩
  | _, _ => ⟨S2x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  reducesTo_S2x512x64x64_S2x64_d1_2 : S2x512x64x64.ReducesTo [1, 2] S2x64
  h_S_ : 0 < S_.numel
  bcast_S2x64_S2x1x1x64_0_3 : S2x64.BroadcastsInDim S2x1x1x64 (![0, 3] : Fin 2 → Fin S2x1x1x64.rank)
  bcast_S_S2x1x1x64 : S_.BroadcastsInDim S2x1x1x64 (![] : Fin 0 → Fin S2x1x1x64.rank)
  bcast_S2x1x1x64_S2x512x64x64_0_1_2_3 : S2x1x1x64.BroadcastsInDim S2x512x64x64 (![0, 1, 2, 3] : Fin 4 → Fin S2x512x64x64.rank)
  bcast_S_S2x512x64x64 : S_.BroadcastsInDim S2x512x64x64 (![] : Fin 0 → Fin S2x512x64x64.rank)
  shapeCasts_S2x512x64x64_S65536x64 : S2x512x64x64.ShapeCasts S65536x64
  shapeCasts_S65536x128_S2x512x64x128 : S65536x128.ShapeCasts S2x512x64x128
  dot_S65536x64_S64x128_S65536x128_1_0_0_1_n_n_wf : DotDims.WF S65536x64 S64x128 S65536x128 [1] [0] [0] [1] [] []

variable [Facts₀]

def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.Spec.lean ====
/-
  The mathematics of the claim, over the reals.

  For an array `x[b, h, v, ch]` (2 × 512 × 64 × 64) and a matrix `w[ch, j]` (64 × 128):
  `mean x b ch` is the mean of `x` over the 512 · 64 = 32768 positions `(h, v)` of batch `b` and channel `ch`,
  `var x b ch` the mean squared deviation from it, `hid` the normalised value `(x − mean) / √(var + ε)`,
  `act` the sigmoid-weighted unit `y / (1 + e^{−y})` of it, and `out` the projection
  `∑ ch, act[b, h, v, ch] · w[ch, j]`. Both programs compute `out`: the reference in exactly these steps on the
  whole array, the kernel from per-device partial sums `∑ x` and `∑ x²` exchanged between the eight devices
  (`var = E[x²] − mean²`), a reciprocal square root, and the unit written as `y · (1 / (1 + e^{0 − y}))`.
-/
import Idealize.ShloMosaic.PureOps.Ideal
import Idealize.ShloMosaic.Lib.ValueIdx

noncomputable section

namespace Cert.Spec

open Idealize.ShloMosaic Idealize.ShloMosaic.ValueIdx

/-- The whole input array over the reals, by coordinates (batch, row, column, channel). -/
abbrev Arr : Type := Fin 2 → Fin 512 → Fin 64 → Fin 64 → ℝ
/-- The projection matrix over the reals (channel, output channel). -/
abbrev Mat : Type := Fin 64 → Fin 128 → ℝ

/-- The sum over the 32768 positions of one batch entry and channel; -/
def sum1 (x : Arr) (b : Fin 2) (ch : Fin 64) : ℝ := ∑ h : Fin 512, ∑ v : Fin 64, x b h v ch

/-- and the sum of the squares over them. -/
def sum2 (x : Arr) (b : Fin 2) (ch : Fin 64) : ℝ := ∑ h : Fin 512, ∑ v : Fin 64, x b h v ch * x b h v ch

/-- The mean over the 32768 positions of one batch entry and channel. -/
def mean (x : Arr) (b : Fin 2) (ch : Fin 64) : ℝ := (∑ h : Fin 512, ∑ v : Fin 64, x b h v ch) / 32768

/-- The mean squared deviation from `mean` over the same positions. -/
def var (x : Arr) (b : Fin 2) (ch : Fin 64) : ℝ :=
  (∑ h : Fin 512, ∑ v : Fin 64, (x b h v ch - mean x b ch) * (x b h v ch - mean x b ch)) / 32768

/-- The normalised value. -/
def hid (ε : ℝ) (x : Arr) (b : Fin 2) (h : Fin 512) (v : Fin 64) (ch : Fin 64) : ℝ :=
  (x b h v ch - mean x b ch) / Real.sqrt (var x b ch + ε)

/-- The sigmoid-weighted unit of the normalised value. -/
def act (ε : ℝ) (x : Arr) (b : Fin 2) (h : Fin 512) (v : Fin 64) (ch : Fin 64) : ℝ :=
  hid ε x b h v ch / (1 + Real.exp (-(hid ε x b h v ch)))

/-- The projection of the units onto the 128 output channels. -/
def out (ε : ℝ) (x : Arr) (w : Mat) (b : Fin 2) (h : Fin 512) (v : Fin 64) (j : Fin 128) : ℝ :=
  ∑ ch : Fin 64, act ε x b h v ch * w ch j

/-- An array of extended reals of the whole input's shape holds the reals `x`. -/
def HoldsArr (xe : (⟨4, ![2, 512, 64, 64]⟩ : Shape).Idx → EReal) (x : Arr) : Prop :=
  ∀ b h v ch, xe (ix4 b h v ch) = ((x b h v ch : ℝ) : EReal)

/-- An array of extended reals of the matrix's shape holds the reals `w`. -/
def HoldsMat (we : (⟨2, ![64, 128]⟩ : Shape).Idx → EReal) (w : Mat) : Prop :=
  ∀ ch j, we (ix2 ch j) = ((w ch j : ℝ) : EReal)

/-- Row `h'` of device `c`'s block is row `64 · c + h'` of the whole array. -/
def rowOf (c : Fin 8) (h' : Fin 64) : Fin 512 := ⟨c.val * 64 + h'.val, by have := c.isLt; have := h'.isLt; omega⟩

end Cert.Spec

end
-- ==== Proof.KerTerm.lean ====
/-
  The kernel's result on one device as ONE term of what the devices were given.

  Each device reduces its block of the input to a row of statistics — per batch entry and channel the sum of
  its 4096 values (rows 0–1 of the row) and the sum of their squares (rows 2–3) — and the eight rows, exchanged
  between the devices, fill the 8 × 4 × 64 statistics buffer identically on every device. A device's result is
  the body's last stored value of its own block, that buffer and the projection matrix.
-/
import proofs.«900777_g7700000000000778_dist_diff_noisepred_hshard_i_b2_h64_w64_c64_v7x_i8_f32_1_alg».proof.Proof.Gen.KernelIdeal.Skeleton
import Idealize.ShloMosaic.Lib.ValueIdx
import proofs.«900777_g7700000000000778_dist_diff_noisepred_hshard_i_b2_h64_w64_c64_v7x_i8_f32_1_alg».proof.Proof.Spec

noncomputable section

namespace Cert.KernelIdeal.Hand

open Cert.KernelIdeal Cert.KernelIdeal.Gen
open Idealize.ShloMosaic Idealize.ShloMosaic.ValueIdx Idealize.SL.Sem

variable {F : FTy → Type} [FloatOps F]

/-- One device's row of the statistics buffer, from its block `X` of the input: rows 0–1 the per-channel
    sums, rows 2–3 the per-channel sums of squares. -/
def statRow (X : Vec F S2x64x64x64 .f32) : Vec F S1x4x64 .f32 := fun i =>
  if h : (i 1).val < 2 then
    k0_pay2 X (ix3 (0 : Fin 1) (⟨(i 1).val, h⟩ : Fin 2) (⟨(i 2).val, (i 2).isLt⟩ : Fin 64))
  else
    k0_pay3 X (ix3 (0 : Fin 1) (⟨(i 1).val - 2, by have h4 : (i 1).val < 4 := (i 1).isLt; omega⟩ : Fin 2)
      (⟨(i 2).val, (i 2).isLt⟩ : Fin 64))

/-- The statistics buffer once every device's row has arrived: row `d` is device `d`'s. -/
def gathered (X : Dev nD → Vec F S2x64x64x64 .f32) : Vec F S8x4x64 .f32 := fun i =>
  statRow (X ⟨(i 0).val, (i 0).isLt⟩)
    (ix3 (0 : Fin 1) (⟨(i 1).val, (i 1).isLt⟩ : Fin 4) (⟨(i 2).val, (i 2).isLt⟩ : Fin 64))

/-- Device `c`'s result: the body's stored value of its own block, the gathered statistics and the matrix. -/
def result (X : Dev nD → Vec F S2x64x64x64 .f32) (W : Vec F S64x128 .f32) (c : Dev nD) : Vec F S2x64x64x128 .f32 :=
  k0_pay4 (k0_pay1 (X c)) (gathered X) W

/-- Rows 0–1 of a statistics row hold the sums, -/
def loRow (b : Fin 2) : Fin 4 := ⟨b.val, Nat.lt_of_lt_of_le b.isLt (by decide)⟩
/-- rows 2–3 the sums of squares. -/
def hiRow (b : Fin 2) : Fin 4 := ⟨b.val + 2, Nat.add_lt_add_right b.isLt 2⟩

/-- The devices' blocks hold the reals `x`: row `h'` of device `d`'s block is row `64 · d + h'` of the whole array. -/
def HoldsBlocks (X : Dev nD → Vec Ideal S2x64x64x64 .f32) (x : Cert.Spec.Arr) : Prop :=
  ∀ (d : Dev nD) (b : Fin 2) (h' : Fin 64) (v : Fin 64) (ch : Fin 64),
    X d (ix4 b h' v ch) = ((x b (Cert.Spec.rowOf d h') v ch : ℝ) : EReal)

end Cert.KernelIdeal.Hand

end
-- ==== Proof.Proto.lean ====
/-
  The exchange of statistics rows between the eight devices, as a schedule of signals and copies.

  Device `c` owns row `c` of every device's 8 × 4 × 64 statistics buffer as soon as that device has told it so:
  at entry every device signals the barrier semaphore of each of the seven others (`peer c k`, `k = 1 … 7`), and
  the signal to device `n` hands `n` row `n` of the signaller's buffer. A device that has waited for its seven
  signals therefore holds its own row on all seven peers, and copies its row of statistics into each; the copy
  to `peer c k` completes on send semaphore `k` of the sender and on receive semaphore `c` of the receiver, and
  its landing hands the receiver row `c` of its buffer holding the sender's statistics. A device waits for the
  seven rows of the others, reads the whole buffer, and last waits for its seven copies to have left.
  Cells: one barrier cell (seven duties of one unit, named by the signalling device), seven send cells and seven
  receive cells (one duty each, of the row's transfer credit) per device; every duty is of round 0.
-/
import proofs.«900777_g7700000000000778_dist_diff_noisepred_hshard_i_b2_h64_w64_c64_v7x_i8_f32_1_alg».proof.Proof.KerTerm
import proofs.«900777_g7700000000000778_dist_diff_noisepred_hshard_i_b2_h64_w64_c64_v7x_i8_f32_1_alg».proof.Proof.Gen.KernelIdeal.Skeleton
import proofs.«900777_g7700000000000778_dist_diff_noisepred_hshard_i_b2_h64_w64_c64_v7x_i8_f32_1_alg».proof.Proof.Gen.KernelIdeal.Launch
import proofs.«900777_g7700000000000778_dist_diff_noisepred_hshard_i_b2_h64_w64_c64_v7x_i8_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The resource algebra: the pipeline's copy and the exchange's (duties named by a device or `0`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the mesh -/

/-- The device `k` places after `c`, -/
def peer (c : Dev nD) (k : Fin 8) : Dev nD := ⟨(c.val + k.val) % 8, Nat.mod_lt _ (by decide)⟩
/-- and the one `k` places before it. -/
def back (c : Dev nD) (k : Fin 8) : Dev nD := ⟨(c.val + (8 - k.val)) % 8, Nat.mod_lt _ (by decide)⟩
/-- The offset that undoes `k`. -/
def opp (k : Fin 8) : Fin 8 := ⟨(8 - k.val) % 8, Nat.mod_lt _ (by decide)⟩

theorem peer_back (c : Dev nD) (k : Fin 8) : peer (back c k) k = c := by revert c k; decide
theorem back_peer (c : Dev nD) (k : Fin 8) : back (peer c k) k = c := by revert c k; decide
theorem peer_eq_back (c : Dev nD) (k : Fin 8) : peer c k = back c (opp k) := by revert c k; decide
theorem back_eq_peer (c : Dev nD) (k : Fin 8) : back c k = peer c (opp k) := by revert c k; decide
theorem peer_ne (c : Dev nD) (k : Fin 8) (hk : k ≠ 0) : peer c k ≠ c := by revert c k; decide
theorem back_ne (c : Dev nD) (k : Fin 8) (hk : k ≠ 0) : back c k ≠ c := by revert c k; decide
theorem opp_ne (k : Fin 8) (hk : k ≠ 0) : opp k ≠ 0 := by revert k; decide
theorem opp_opp (k : Fin 8) : opp (opp k) = k := by revert k; decide

/-- The offsets 1 … 7. -/
def off (j : Fin 7) : Fin 8 := ⟨j.val + 1, Nat.succ_lt_succ j.isLt⟩
theorem off_ne (j : Fin 7) : off j ≠ 0 := by revert j; decide

/-- The kernel's `device_id` chains: signal `k` and copy `k` both name `peer c k`. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 2 := Fin.ext (k0_dev9_eq c)
theorem dev10_eq (c : Dev nD) : (⟨k0_dev10 c, k0_dev10_lt c⟩ : Dev nD) = peer c 3 := Fin.ext (k0_dev10_eq c)
theorem dev11_eq (c : Dev nD) : (⟨k0_dev11 c, k0_dev11_lt c⟩ : Dev nD) = peer c 4 := Fin.ext (k0_dev11_eq c)
theorem dev12_eq (c : Dev nD) : (⟨k0_dev12 c, k0_dev12_lt c⟩ : Dev nD) = peer c 5 := Fin.ext (k0_dev12_eq c)
theorem dev13_eq (c : Dev nD) : (⟨k0_dev13 c, k0_dev13_lt c⟩ : Dev nD) = peer c 6 := Fin.ext (k0_dev13_eq c)
theorem dev14_eq (c : Dev nD) : (⟨k0_dev14 c, k0_dev14_lt c⟩ : Dev nD) = peer c 7 := Fin.ext (k0_dev14_eq c)

/-! ## The semaphores, the cells, the rows -/

/-- The runtime's barrier semaphore of collective id 0 (not scoped to the launch). -/
abbrev barS : Sem sig := (SemArray.scalar (sig.barrier 0 rfl) : Sems sig S_).sem
/-- Send semaphore `k` and receive semaphore `s` of the kernel's two arrays of eight DMA semaphores. -/
def sendSem (k : Fin 8) : DmaSem sig := ⟨3 + k.val, by have := k.isLt; show 3 + k.val < 19; omega⟩
def recvSem (s : Fin 8) : DmaSem sig := ⟨11 + s.val, by have := s.isLt; show 11 + s.val < 19; omega⟩

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (s : Fin 8) : GSem nD τ sig := ((c : Thread nD τ), .dma (recvSem s))

/-- The statistics buffer, and its row `s` as the kernel slices it. -/
abbrev commM : Memref sig .tc .vmem S8x4x64 .f32 := Memref.whole cc0_scratch0
def rowOff (s : Fin 8) : Fin 3 → Nat := ![s.val, 0, 0]
theorem rowOff_inb (s : Fin 8) : ∀ a, rowOff s a + S1x4x64.size a ≤ S8x4x64.size a := by revert s; decide
def rowM (s : Fin 8) : Memref sig .tc .vmem S1x4x64 .f32 :=
  commM.slice (Rect.unit (s := S8x4x64) (rowOff s) S1x4x64.size (rowOff_inb s)) (fun _ => rfl)

/-- The transfer credit of one row. -/
abbrev N : ℕ := (rowM 0).view.dmaCredit

/-! ## Shares of a device's own row: one kept for reading, one lent to each of the seven copies -/

def restSh : ℕ → PosShare TreeShare
  | 0 => fullShare.right
  | n + 1 => (restSh n).right
/-- The share a device keeps of its own row while its copies are under way. -/
def keepSh : PosShare TreeShare := fullShare.left
/-- The share copy `k` (1 … 7) holds of the source row. -/
def sendSh (k : Fin 8) : PosShare TreeShare := if k.val = 7 then restSh 6 else (restSh (k.val - 1)).left

theorem full_split : fullShare ∈ keepSh ·? restSh 0 := PosShare.mem_left_op_right fullShare
theorem rest_split (n : ℕ) : restSh n ∈ (restSh n).left ·? restSh (n + 1) := PosShare.mem_left_op_right (restSh n)

/-! ## Contents -/

/-- Device `c`'s block of the input and its copy of the matrix, as launched. -/
abbrev Xc (c : Dev nD) : Vec F S2x64x64x64 .f32 := m ((c : Thread nD τ).loc main_arg0)
abbrev Wc (c : Dev nD) : Vec F S64x128 .f32 := m ((c : Thread nD τ).loc main_arg1)

/-- Row `s` of device `c`'s statistics buffer held at share `q` with the buffer's contents `f`. -/
def rowPts (c : Dev nD) (s : Fin 8) (q : PosShare TreeShare) (f : Buf (Elt F) ((rowM s).view.loc (c : Thread nD τ))) : sProp 𝕄 :=
  (rowM s).view.loc (c : Thread nD τ) ↦[(rowM s).view.set]{q} f
/-- The row held whole, whatever it holds. -/
def rowAny (c : Dev nD) (s : Fin 8) : sProp 𝕄 := iprop(∃ f, rowPts (F := F) c s fullShare f)
/-- The row held at share `q`, holding device `d`'s statistics. -/
def rowHas (c : Dev nD) (s : Fin 8) (q : PosShare TreeShare) (d : Dev nD) : sProp 𝕄 :=
  iprop(∃ f, ⌜(rowM s).view.read (Elt F) f = statRow (Xc m d)⌝ ∗ rowPts (F := F) c s q f)

/-! ## The schedule -/

/-- A DMA semaphore is one of the seven send semaphores in use, -/
def IsSend (q : DmaSem sig) : Prop := 4 ≤ q.val ∧ q.val ≤ 10
/-- or a receive semaphore; -/
def IsRecv (q : DmaSem sig) : Prop := 11 ≤ q.val
instance (q : DmaSem sig) : Decidable (IsSend q) := by unfold IsSend; infer_instance
instance (q : DmaSem sig) : Decidable (IsRecv q) := by unfold IsRecv; infer_instance
/-- which offset a send semaphore serves, which row a receive semaphore. -/
def offOf (q : DmaSem sig) : Fin 8 := ⟨(q.val - 3) % 8, Nat.mod_lt _ (by decide)⟩
def slotOf (q : DmaSem sig) : Fin 8 := ⟨(q.val - 11) % 8, Nat.mod_lt _ (by decide)⟩

theorem isSend_sendSem (k : Fin 8) (hk : k ≠ 0) : IsSend (sendSem k) := by revert k; decide
theorem not_isSend_recvSem (s : Fin 8) : ¬ IsSend (recvSem s) := by revert s; decide
theorem isRecv_recvSem (s : Fin 8) : IsRecv (recvSem s) := by revert s; decide
theorem offOf_sendSem (k : Fin 8) : offOf (sendSem k) = k := by revert k; decide
theorem slotOf_recvSem (s : Fin 8) : slotOf (recvSem s) = s := by revert s; decide

/-- Round 0 only. A barrier cell: one duty per OTHER device, one unit each, the payer handing the owner the owner's
    row of the payer's buffer. A send cell (offsets 1 … 7): one duty of the row's credit, giving the sender its
    lent share of its own row back. A receive cell (rows other than the owner's): one duty of the row's credit,
    handing the owner that row of its buffer holding the sender's statistics. -/
def Rd : Rounds.Schedule (GSem nD τ sig) (Fin 8) 𝕄 where
  duties g r :=
    if r = 0 ∧ g.1.2 = .tc then
      match g.2 with
      | .reg s => if s = barS then Finset.univ.erase g.1.1 else ∅
      | .dma q => if IsSend q then {0} else if IsRecv q ∧ slotOf q ≠ g.1.1 then {0} else ∅
    else ∅
  unitless _ := False
  amount g _ _ := match g.2 with
    | .reg _ => 1
    | .dma _ => N
  payload g _ d := match g.2 with
    | .reg _ => rowAny (F := F) d g.1.1
    | .dma q => if IsSend q then rowHas m g.1.1 g.1.1 (sendSh (offOf q)) g.1.1 else rowHas m g.1.1 (slotOf q) fullShare (slotOf q)
  amount_pos g _ _ _ := by
    rcases g with ⟨t, sm⟩
    cases sm with
    | reg s => exact Nat.one_pos
    | dma q => exact View.dmaCredit_pos _ (by decide)

/-! ## The staged contents -/

/-- What device `c`'s staging buffers of the input block and of the matrix hold: the arrays as launched. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The kernel's result on device `c`. -/
def outAt (c : Dev nD) : (cc0_stg2_0 : Ref sig .tc).ty.Contents (Elt F) :=
  k0_pay4 (k0_pay1 (xstg m c)) (gathered (fun d => xstg m d)) (wstg m c)

/-! ## The schedule's tables -/

section Sched
variable (c : Dev nD)

theorem duties_bar : (Rd (F := F) m).duties (barCell c) 0 = Finset.univ.erase c := by
  dsimp only [Rd]; rw [if_pos ⟨rfl, rfl⟩]; exact if_pos rfl
theorem duties_send (k : Fin 8) (hk : k ≠ 0) : (Rd (F := F) m).duties (sendCell c k) 0 = {0} := by
  dsimp only [Rd]; rw [if_pos ⟨rfl, rfl⟩]; exact if_pos (isSend_sendSem k hk)
theorem duties_recv (s : Fin 8) (hs : s ≠ c) : (Rd (F := F) m).duties (recvCell c s) 0 = {0} := by
  dsimp only [Rd]; rw [if_pos ⟨rfl, rfl⟩, if_neg (not_isSend_recvSem s)]
  exact if_pos ⟨isRecv_recvSem s, by rw [slotOf_recvSem]; exact hs⟩
theorem duties_later (g : GSem nD τ sig) : ∀ r, 1 ≤ r → (Rd (F := F) m).duties g r = ∅ :=
  fun r hr => by dsimp only [Rd]; exact if_neg fun h => by have := h.1; omega

theorem amount_bar (d : Fin 8) : (Rd (F := F) m).amount (barCell c) 0 d = 1 := rfl
theorem amount_send (k : Fin 8) (d : Fin 8) : (Rd (F := F) m).amount (sendCell c k) 0 d = N := rfl
theorem amount_recv (s : Fin 8) (d : Fin 8) : (Rd (F := F) m).amount (recvCell c s) 0 d = N := rfl

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ c),
    Finset.card_univ, Fintype.card_fin, smul_eq_mul]
  rfl
theorem expect_send (k : Fin 8) (hk : k ≠ 0) : (Rd (F := F) m).expect (sendCell c k) 0 = N := by
  unfold Schedule.expect Schedule.amountOf; rw [duties_send m c k hk, Finset.sum_singleton, amount_send]
theorem expect_recv (s : Fin 8) (hs : s ≠ c) : (Rd (F := F) m).expect (recvCell c s) 0 = N := by
  unfold Schedule.expect Schedule.amountOf; rw [duties_recv m c s hs, Finset.sum_singleton, amount_recv]

theorem payload_bar (d : Fin 8) : (Rd (F := F) m).payload (barCell c) 0 d = rowAny (F := F) d c := rfl
theorem payload_send (k : Fin 8) (hk : k ≠ 0) (d : Fin 8) :
    (Rd (F := F) m).payload (sendCell c k) 0 d = rowHas m c c (sendSh k) c := by
  dsimp only [Rd]; rw [if_pos (isSend_sendSem k hk), offOf_sendSem]
theorem payload_recv (s : Fin 8) (d : Fin 8) :
    (Rd (F := F) m).payload (recvCell c s) 0 d = rowHas m c s fullShare s := by
  dsimp only [Rd]; rw [if_neg (not_isSend_recvSem s), slotOf_recvSem]

/-- The whole of a barrier cell's round: from each other device, the owner's row of that device's buffer —
    listed by the offset `k` at which the owner will copy into it. -/
theorem rest_bar :
    bigSep ((Rd (F := F) m).duties (barCell c) 0 \ ∅) (fun d => (Rd (F := F) m).payload (barCell c) 0 d)
      ⊣⊢ bigSep Finset.univ (fun j : Fin 7 => rowAny (F := F) (peer c (off j)) c) := by
  -- the seven other devices are the devices 1 … 7 places after `c`, each once
  have hinj : Function.Injective (fun j : Fin 7 => peer c (off j)) := by
    intro a b h; revert h; revert a b; revert c; decide
  have hset : (Finset.univ.erase c : Finset (Fin 8)) = Finset.univ.map ⟨fun j : Fin 7 => peer c (off j), hinj⟩ := by
    ext d
    rw [Finset.mem_erase, Finset.mem_map]
    simp only [Finset.mem_univ, and_true, true_and, Function.Embedding.coeFn_mk]
    revert d; revert c; decide
  rw [Finset.sdiff_empty, duties_bar, hset, bigSep_map]
  exact ⟨.refl, .refl⟩
theorem rest_send (k : Fin 8) (hk : k ≠ 0) :
    bigSep ((Rd (F := F) m).duties (sendCell c k) 0 \ ∅) (fun d => (Rd (F := F) m).payload (sendCell c k) 0 d)
      = rowHas m c c (sendSh k) c := by
  rw [Finset.sdiff_empty, duties_send m c k hk, bigSep_singleton, payload_send m c k hk]
theorem rest_recv (s : Fin 8) (hs : s ≠ c) :
    bigSep ((Rd (F := F) m).duties (recvCell c s) 0 \ ∅) (fun d => (Rd (F := F) m).payload (recvCell c s) 0 d)
      = rowHas m c s fullShare s := by
  rw [Finset.sdiff_empty, duties_recv m c s hs, bigSep_singleton, payload_recv]

end Sched

/-! ## What each device owes at launch; the levels -/

/-- The units device `c` still owes the barrier cells of the peers at offsets beyond `i`, -/
def barTail (c : Dev nD) (i : ℕ) : CellTallies nD τ sig Unit :=
  ∑ j : Fin 7, if i ≤ j.val then tallyAt (barCell (peer c (off j))) () 1 else 0
/-- and the row credits it still owes their receive cells (its own row `c` there). -/
def recvTail (c : Dev nD) (i : ℕ) : CellTallies nD τ sig Unit :=
  ∑ j : Fin 7, if i ≤ j.val then tallyAt (recvCell (peer c (off j)) c) () N else 0
/-- At launch: all of both. -/
def O₀ (c : Dev nD) : CellTallies nD τ sig Unit := recvTail c 0 + barTail c 0

/-- A sum over the offsets from `j` on is the sum over the offsets beyond `j` and the term at `j`. -/
theorem tail_step {M : Type*} [AddCommMonoid M] (f : Fin 7 → M) (j : Fin 7) :
    (∑ k : Fin 7, if j.val ≤ k.val then f k else 0) = (∑ k : Fin 7, if j.val + 1 ≤ k.val then f k else 0) + f j := by
  have h : ∀ k : Fin 7, (if j.val ≤ k.val then f k else 0)
      = (if j.val + 1 ≤ k.val then f k else 0) + (if k = j then f k else 0) := by
    intro k
    by_cases h1 : j.val + 1 ≤ k.val
    · rw [if_pos h1, if_pos (by omega), if_neg (fun h => by rw [h] at h1; omega), add_zero]
    · by_cases h2 : k = j
      · rw [if_neg h1, if_pos h2, if_pos (by rw [h2]), zero_add]
      · rw [if_neg h1, if_neg h2, if_neg (fun h => h2 (Fin.ext (by omega))), add_zero]
  rw [Finset.sum_congr rfl (fun k _ => h k), Finset.sum_add_distrib, Finset.sum_ite_eq' Finset.univ j f, if_pos (Finset.mem_univ j)]

/-- No offset is 7 or more: the sum from there on is empty. -/
theorem tail_end {M : Type*} [AddCommMonoid M] (f : Fin 7 → M) :
    (∑ k : Fin 7, if 7 ≤ k.val then f k else 0) = 0 :=
  Finset.sum_eq_zero fun k _ => if_neg (by have := k.isLt; omega)

theorem barTail_step (c : Dev nD) (j : Fin 7) :
    barTail c j.val = barTail c (j.val + 1) + tallyAt (barCell (peer c (off j))) () 1 :=
  tail_step (fun k => tallyAt (barCell (peer c (off k))) () 1) j
theorem recvTail_step (c : Dev nD) (j : Fin 7) :
    recvTail c j.val = recvTail c (j.val + 1) + tallyAt (recvCell (peer c (off j)) c) () N :=
  tail_step (fun k => tallyAt (recvCell (peer c (off k)) c) () N) j
theorem barTail_end (c : Dev nD) : barTail c 7 = 0 := tail_end _
theorem recvTail_end (c : Dev nD) : recvTail c 7 = 0 := tail_end _

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if IsRecv q then 2 else 0

theorem L_of_ne (g : GSem nD τ sig) (h : g.1.2 ≠ .tc) : L g = ∅ := if_neg h
theorem L_tc (c : Dev nD) (sm : SemLoc sig) : L ((c : Thread nD τ), sm) = {()} := if_pos rfl

/-- A positive entry of a tail is a positive entry of one of its terms. -/
theorem tail_pos {f : Fin 7 → CellTallies nD τ sig Unit} {i : ℕ} {g : GSem nD τ sig} {u : Unit}
    (h : 0 < (∑ j : Fin 7, if i ≤ j.val then f j else 0) g u) : ∃ j : Fin 7, 0 < f j g u := by
  by_contra hn
  rw [not_exists] at hn
  have h0 : (∑ j : Fin 7, if i ≤ j.val then f j else 0) g u = 0 := by
    rw [Finset.sum_apply, Finsupp.finset_sum_apply]
    refine Finset.sum_eq_zero fun j _ => ?_
    by_cases hi : i ≤ j.val
    · rw [if_pos hi]; exact Nat.le_zero.mp (Nat.not_lt.mp (hn j))
    · rw [if_neg hi]; rfl
  rw [h0] at h; exact Nat.lt_irrefl 0 h

/-- What is owed in row credits is owed to a receive cell of a peer, -/
theorem recvTail_pos {c : Dev nD} {i : ℕ} {g : GSem nD τ sig} {u : Unit} (h : 0 < recvTail c i g u) :
    ∃ j : Fin 7, g = recvCell (peer c (off j)) c := by
  obtain ⟨j, hj⟩ := tail_pos h
  rw [tallyAt_apply] at hj
  by_cases hg : g = recvCell (peer c (off j)) c ∧ u = ()
  · exact ⟨j, hg.1⟩
  · rw [if_neg hg] at hj; exact absurd hj (Nat.lt_irrefl 0)

/-- and what is owed in units to a barrier cell of a peer. -/
theorem barTail_pos {c : Dev nD} {i : ℕ} {g : GSem nD τ sig} {u : Unit} (h : 0 < barTail c i g u) :
    ∃ j : Fin 7, g = barCell (peer c (off j)) := by
  obtain ⟨j, hj⟩ := tail_pos h
  rw [tallyAt_apply] at hj
  by_cases hg : g = barCell (peer c (off j)) ∧ u = ()
  · exact ⟨j, hg.1⟩
  · rw [if_neg hg] at hj; exact absurd hj (Nat.lt_irrefl 0)

theorem O₀_pos {c : Dev nD} {g : GSem nD τ sig} {u : Unit} (h : 0 < O₀ c g u) :
    (∃ j : Fin 7, g = recvCell (peer c (off j)) c) ∨ ∃ j : Fin 7, g = barCell (peer c (off j)) := by
  unfold O₀ at h
  rw [Pi.add_apply, Finsupp.add_apply] at h
  have h' : 0 < recvTail c 0 g u ∨ 0 < barTail c 0 g u := by omega
  exact h'.imp recvTail_pos barTail_pos

theorem lv_recv (d : Dev nD) (s : Fin 8) (u : Unit) : lv (recvCell d s) u = 2 := by
  dsimp only [lv]; exact if_pos (isRecv_recvSem s)
theorem lv_bar (d : Dev nD) (u : Unit) : lv (barCell d) u = 1 := rfl

omit [FloatOps F] in
/-- A wait on a semaphore that is no receive semaphore (staging, send), owing all or nothing. -/
theorem mayWait_low (c : Dev nD) (q : DmaSem sig) (hq : ¬ IsRecv q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ <;> exact Finset.mem_singleton_self _)
      (fun p hp => by rw [Finset.mem_singleton.mp hp]; dsimp only [lv]; rw [if_neg hq])
      (fun g u hg => by
        rcases O₀_pos hg with ⟨j, rfl⟩ | ⟨j, rfl⟩
        · rw [lv_recv]; decide
        · rw [lv_bar]; decide)
  · rw [MayWait_zero]; iintro -; iempintro
omit [FloatOps F] in
/-- At its barrier wait a device owes row credits only: receive cells, above its barrier cell. -/
theorem mayWait_bar (c : Dev nD) :
    (levAts L lv : sProp 𝕄) ⊢ MayWait (c : Thread nD τ) (.reg barS) () (recvTail c 0) :=
  MayOwe.of_cut (L := L) (lev := lv) 1 (fun p hp => by rw [Finset.mem_singleton.mp hp, L_tc]; exact Finset.mem_singleton_self _)
    (fun g u hg => by obtain ⟨j, rfl⟩ := recvTail_pos hg; exact Finset.mem_singleton_self _)
    (fun p hp => by rw [Finset.mem_singleton.mp hp]; exact Nat.le_refl 1)
    (fun g u hg => by obtain ⟨j, rfl⟩ := recvTail_pos hg; rw [lv_recv]; decide)

end Cert.KernelIdeal.Proto

end
-- ==== Proof.Data.lean ====
/-
  What a device's body starts from and ends with, and the pipeline's proof data around it.

  At launch device `c` holds: the invariants of the cells it touches (its own fifteen, the barrier and its row's
  receive cell on each of the seven peers); its position at round 0 of its own cells; the duty tokens it pays
  with — on each peer's barrier cell the duty named `c`, on each peer's receive cell of row `c` the one duty, on
  its own send cells the one duty —; the launch credit of its barrier cell (seven units) and of its seven receive
  cells (a row's credit each); and its statistics buffer, whole, at arbitrary contents. At the end it holds the
  buffer whole again and its sixteen own semaphores at zero.
-/
import proofs.«900777_g7700000000000778_dist_diff_noisepred_hshard_i_b2_h64_w64_c64_v7x_i8_f32_1_alg».proof.Proof.Proto

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The whole statistics buffer of device `c` at contents `f`. -/
def commPts (c : Dev nD) (f : Buf (Elt F) ((c : Thread nD τ).loc cc0_scratch0)) : sProp 𝕄 :=
  (((c : Thread nD τ).loc cc0_scratch0) ↦{fullShare} f)

/-- The invariants of the cells device `c`'s body opens, under the names `K` the launch allocated them at. -/
def invs (K : GSem nD τ sig → ℕ) (c : Dev nD) : sProp 𝕄 :=
  iprop(cellInv ER (Rd m) (K (barCell c)) (barCell c)
    ∗ (bigSep Finset.univ fun j : Fin 7 => cellInv ER (Rd m) (K (sendCell c (off j))) (sendCell c (off j)))
    ∗ (bigSep Finset.univ fun j : Fin 7 => cellInv ER (Rd m) (K (recvCell c (peer c (off j)))) (recvCell c (peer c (off j))))
    ∗ (bigSep Finset.univ fun j : Fin 7 => cellInv ER (Rd m) (K (barCell (peer c (off j)))) (barCell (peer c (off j))))
    ∗ (bigSep Finset.univ fun j : Fin 7 => cellInv ER (Rd m) (K (recvCell (peer c (off j)) c)) (recvCell (peer c (off j)) c)))

instance invs_persistent (K : GSem nD τ sig → ℕ) (c : Dev nD) : BI.Persistent (invs m K c) := by unfold invs; infer_instance

/-- That round 0 of each of those cells is reached. -/
def reacheds (c : Dev nD) : sProp 𝕄 :=
  iprop(reached ER (barCell c) 0
    ∗ (bigSep Finset.univ fun j : Fin 7 => reached ER (sendCell c (off j)) 0)
    ∗ (bigSep Finset.univ fun j : Fin 7 => reached ER (recvCell c (peer c (off j))) 0)
    ∗ (bigSep Finset.univ fun j : Fin 7 => reached ER (barCell (peer c (off j))) 0)
    ∗ (bigSep Finset.univ fun j : Fin 7 => reached ER (recvCell (peer c (off j)) c) 0))

instance reacheds_persistent (c : Dev nD) : BI.Persistent (reacheds (F := F) c) := by unfold reacheds; infer_instance

/-- The exchange's ghost state device `c` starts from. -/
def ghost (K : GSem nD τ sig → ℕ) (c : Dev nD) : sProp 𝕄 :=
  iprop(invs m K c ∗ reacheds c
    ∗ atPos ER (barCell c) 0 ∅ 0
    ∗ (bigSep Finset.univ fun j : Fin 7 => atPos ER (sendCell c (off j)) 0 ∅ 0)
    ∗ (bigSep Finset.univ fun j : Fin 7 => atPos ER (recvCell c (peer c (off j))) 0 ∅ 0)
    ∗ (bigSep Finset.univ fun j : Fin 7 => dutyTok ER (barCell (peer c (off j))) 0 c)
    ∗ (bigSep Finset.univ fun j : Fin 7 => dutyTok ER (recvCell (peer c (off j)) c) 0 (0 : Fin 8))
    ∗ (bigSep Finset.univ fun j : Fin 7 => dutyTok ER (sendCell c (off j)) 0 (0 : Fin 8)))

/-- What device `c`'s body starts from besides its buffers: that at some names, its launch credit, the level facts, and
    the two own semaphores the exchange never uses (send semaphore 0, receive semaphore `c`) at zero. -/
def start (c : Dev nD) : sProp 𝕄 :=
  iprop((∃ K, ghost m K c) ∗ cred (tallyAt (barCell c) () 7)
    ∗ (bigSep Finset.univ fun j : Fin 7 => cred (tallyAt (recvCell c (peer c (off j))) () N))
    ∗ levAts L lv ∗ semVal (sendCell c 0) 0 ∗ semVal (recvCell c c) 0)

def Φ₀ (c : Dev nD) : sProp 𝕄 := iprop(start m c ∗ ∃ f, commPts c f)
/-- After the point: the statistics buffer whole, and all sixteen own semaphores at zero, closed. -/
def Φ₁ (c : Dev nD) : sProp 𝕄 :=
  iprop((∃ f, commPts (F := F) c f) ∗ (bigSep Finset.univ fun k : Fin 8 => semVal (sendCell c k) 0)
    ∗ (bigSep Finset.univ fun s : Fin 8 => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer of device `c` held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at its one point, the names `K` fixed. -/
def bodyPre (K : GSem nD τ sig → ℕ) (c : Dev nD) : sProp 𝕄 :=
  iprop((ghost m K c ∗ cred (tallyAt (barCell c) () 7)
      ∗ (bigSep Finset.univ fun j : Fin 7 => cred (tallyAt (recvCell c (peer c (off j))) () N))
      ∗ levAts L lv ∗ semVal (sendCell c 0) 0 ∗ semVal (recvCell c c) 0 ∗ ∃ f, commPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with. -/
def bodyPost (c : Dev nD) : sProp 𝕄 :=
  iprop(Φ₁ (F := F) c ∗ (dats m ρ 0 c).owesAt () t₀.succ
    ∗ stg c cc0_stg0_0 (xstg m c) ∗ stg c cc0_stg1_0 (wstg m c) ∗ stg c cc0_stg2_0 (outAt m c))

end Cert.KernelIdeal.Proto

end
-- ==== Proof.Creds.lean ====
/-
  The launch credit of the exchange: what the eight devices together owe a device's cells when the kernel starts.

  Device `d` owes one unit to the barrier cell of each of the seven devices 1 … 7 places after it, and a row's
  transfer credit to the receive cell of row `d` on each of them. Summed over `d`, the barrier cell of device `c`
  is owed seven units (one from each device other than `c`), and its receive cell of row `s ≠ c` one row credit
  (from device `s`): the launch deals device `c` exactly these tokens.
-/
import proofs.«900777_g7700000000000778_dist_diff_noisepred_hshard_i_b2_h64_w64_c64_v7x_i8_f32_1_alg».proof.Proof.Proto

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Which cell is which -/

theorem bar_eq_iff {a b : Dev nD} : Iff (barCell a = barCell b) (a = b) :=
  ⟨fun h => congrArg (fun g : GSem nD τ sig => g.1.1) h, fun h => h ▸ rfl⟩

theorem recvSem_inj {s t : Fin 8} (h : recvSem s = recvSem t) : s = t := by
  rw [← slotOf_recvSem s, ← slotOf_recvSem t, h]

theorem recv_eq_iff {a b : Dev nD} {s t : Fin 8} : Iff (recvCell a s = recvCell b t) (a = b ∧ s = t) :=
  ⟨fun h => ⟨congrArg (fun g : GSem nD τ sig => g.1.1) h, recvSem_inj (SemLoc.dma.inj (congrArg Prod.snd h))⟩,
    fun h => by rw [h.1, h.2]⟩

theorem recv_ne_bar (a b : Dev nD) (s : Fin 8) : recvCell a s ≠ barCell b :=
  fun h => by cases congrArg Prod.snd h

/-- The devices 1 … 7 places after `c` are seven different devices. -/
theorem peer_off_inj (c : Dev nD) : Function.Injective (fun j : Fin 7 => peer c (off j)) := by
  intro a b h; revert h; revert a b; revert c; decide

/-! ## One tally read at a cell -/

theorem tally_bar (a c : Dev nD) (k : ℕ) : tallyAt (barCell a) () k (barCell c) () = if a = c then k else 0 := by
  rw [tallyAt_apply]
  by_cases h : a = c
  · subst h; rw [if_pos ⟨rfl, rfl⟩, if_pos rfl]
  · rw [if_neg (fun h' => h (bar_eq_iff.mp h'.1).symm), if_neg h]

theorem tally_recv (a c : Dev nD) (s t : Fin 8) (k : ℕ) :
    tallyAt (recvCell a s) () k (recvCell c t) () = if a = c ∧ s = t then k else 0 := by
  rw [tallyAt_apply]
  by_cases h : a = c ∧ s = t
  · rw [if_pos ⟨by rw [h.1, h.2], rfl⟩, if_pos h]
  · rw [if_neg (fun h' => h ⟨(recv_eq_iff.mp h'.1).1.symm, (recv_eq_iff.mp h'.1).2.symm⟩), if_neg h]

/-! ## What one device owes one cell -/

/-- Row credits are owed to receive cells only, -/
theorem recvTail_bar (d c : Dev nD) (i : ℕ) : recvTail d i (barCell c) () = 0 := by
  by_contra h
  obtain ⟨j, hj⟩ := recvTail_pos (Nat.pos_of_ne_zero h)
  exact recv_ne_bar _ _ _ hj.symm

/-- and units to barrier cells only. -/
theorem barTail_recv (d c : Dev nD) (s : Fin 8) (i : ℕ) : barTail d i (recvCell c s) () = 0 := by
  by_contra h
  obtain ⟨j, hj⟩ := barTail_pos (Nat.pos_of_ne_zero h)
  exact recv_ne_bar _ _ _ hj

/-- Device `d` owes the barrier cell of `c` one unit per offset that leads from `d` to `c`. -/
theorem barTail_bar (d c : Dev nD) : barTail d 0 (barCell c) () = ∑ j : Fin 7, if peer d (off j) = c then 1 else 0 := by
  unfold barTail
  rw [Finset.sum_apply, Finsupp.finset_sum_apply]
  refine Finset.sum_congr rfl fun j _ => ?_
  rw [if_pos (Nat.zero_le _), tally_bar]

/-- Device `d` owes the receive cell of row `s` on `c` a row credit per offset that leads from `d` to `c`, if `s` is its own row. -/
theorem recvTail_recv (d c : Dev nD) (s : Fin 8) :
    recvTail d 0 (recvCell c s) () = ∑ j : Fin 7, if peer d (off j) = c ∧ d = s then N else 0 := by
  unfold recvTail
  rw [Finset.sum_apply, Finsupp.finset_sum_apply]
  refine Finset.sum_congr rfl fun j _ => ?_
  rw [if_pos (Nat.zero_le _), tally_recv]

/-- Exactly seven pairs (device, offset) lead to `c`: one from each other device. -/
theorem count_bar (c : Dev nD) : (∑ d : Dev nD, ∑ j : Fin 7, if peer d (off j) = c then 1 else 0) = 7 := by
  revert c; decide

/-- Exactly one pair (device, offset) leads to `c` from device `s ≠ c`. -/
theorem count_recv (c : Dev nD) (s : Fin 8) (hs : s ≠ c) :
    (∑ d : Dev nD, ∑ j : Fin 7, if peer d (off j) = c ∧ d = s then 1 else 0) = 1 := by
  revert hs; revert s; revert c; decide

/-! ## The launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  unfold O₀
  rw [Pi.add_apply, Finsupp.add_apply, recvTail_bar, barTail_bar, Nat.zero_add]

theorem launch_recv (c : Dev nD) (s : Fin 8) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  have h : ∀ d : Dev nD, O₀ d (recvCell c s) () = (∑ j : Fin 7, if peer d (off j) = c ∧ d = s then 1 else 0) * N := by
    intro d
    unfold O₀
    rw [Pi.add_apply, Finsupp.add_apply, barTail_recv, recvTail_recv, Nat.add_zero, Finset.sum_mul]
    refine Finset.sum_congr rfl fun j _ => ?_
    by_cases hp : peer d (off j) = c ∧ d = s
    · rw [if_pos hp, if_pos hp, Nat.one_mul]
    · rw [if_neg hp, if_neg hp, Nat.zero_mul]
  rw [Finset.sum_congr rfl fun d _ => h d, ← Finset.sum_mul, count_recv c s hs, Nat.one_mul]

omit [FloatOps F] in
/-- Of device `c`'s launch credit: the seven units of its barrier cell, and a row credit on the receive cell of each
    other device's row. -/
theorem creds (c : Dev nD) :
    (Pipeline.launchCred O₀ c : sProp 𝕄) ⊢ iprop(cred (tallyAt (barCell c) () 7)
      ∗ bigSep Finset.univ fun j : Fin 7 => cred (tallyAt (recvCell c (peer c (off j))) () N)) := by
  unfold Pipeline.launchCred
  rw [bigSep_univ_at _ (SemLoc.reg barS), launch_bar]
  refine sep_mono_right ?_
  have hinj : Function.Injective (fun j : Fin 7 => (SemLoc.dma (recvSem (peer c (off j))) : SemLoc sig)) :=
    fun a b h => peer_off_inj c (recvSem_inj (SemLoc.dma.inj h))
  have hre : (bigSep Finset.univ fun j : Fin 7 => cred (tallyAt (recvCell c (peer c (off j))) () N) : sProp 𝕄)
      = bigSep (Finset.univ.map ⟨_, hinj⟩) fun sm : SemLoc sig =>
          cred (tallyOn (((c.tc : Thread nD τ)), sm) (launchCredit (Pipeline.owing O₀) 0 ((c.tc : Thread nD τ), sm))) := by
    rw [bigSep_map]
    refine bigSep_congr fun j _ => ?_
    rw [← launch_recv c _ (peer_ne c (off j) (off_ne j))]
    rfl
  rw [hre]
  refine bigSep_subset fun sm hsm => ?_
  obtain ⟨j, _, rfl⟩ := Finset.mem_map.mp hsm
  exact Finset.mem_erase.mpr ⟨fun h => (by cases h), Finset.mem_univ _⟩

end Cert.KernelIdeal.Proto

end
-- ==== Proof.Rows.lean ====
/-
  The statistics buffer by rows.

  The 8 × 4 × 64 buffer is eight rows of 4 × 64, row `s` the elements at leading coordinate `s`. The slices,
  stores and loads the program makes of it are these rows or parts of one of them: the two stores of a device's
  sums (rows 0–1 of its row) and sums of squares (rows 2–3) fill its row with its statistics; a landing copy puts
  what the source row reads into the destination row; the rows are pairwise disjoint and make up the buffer, so
  that the buffer read whole, every row holding some device's statistics, is the gathered statistics.
-/
import proofs.«900777_g7700000000000778_dist_diff_noisepred_hshard_i_b2_h64_w64_c64_v7x_i8_f32_1_alg».proof.Proof.Data

noncomputable section

namespace Cert.KernelIdeal.Proto

open Cert.KernelIdeal Cert.KernelIdeal.Gen Cert.KernelIdeal.Hand

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## The program's slices are the rows; its semaphore slices the send and receive semaphores -/

/-- The slice at a device's own offsets is its row. -/
theorem row_slice (c : Dev nD) :
    commM.slice (Rect.unit (s := S8x4x64) (k0_off4 c) S1x4x64.size (k0_off4_inb c)) (fun _ => rfl) = rowM c :=
  Memref.slice_unit_congr commM (k0_off4_eq c : k0_off4 c = rowOff c) (k0_off4_inb c) (rowOff_inb c) (fun _ => rfl) (fun _ => rfl)

theorem row_slice_lit0 :
    commM.slice (Rect.unit (s := S8x4x64) ![0, 0, 0] S1x4x64.size inb_S8x4x64_S1x4x64_0_0_0) (fun _ => rfl) = rowM 0 := rfl
theorem row_slice_lit1 :
    commM.slice (Rect.unit (s := S8x4x64) ![1, 0, 0] S1x4x64.size inb_S8x4x64_S1x4x64_1_0_0) (fun _ => rfl) = rowM 1 := rfl
theorem row_slice_lit2 :
    commM.slice (Rect.unit (s := S8x4x64) ![2, 0, 0] S1x4x64.size inb_S8x4x64_S1x4x64_2_0_0) (fun _ => rfl) = rowM 2 := rfl
theorem row_slice_lit3 :
    commM.slice (Rect.unit (s := S8x4x64) ![3, 0, 0] S1x4x64.size inb_S8x4x64_S1x4x64_3_0_0) (fun _ => rfl) = rowM 3 := rfl
theorem row_slice_lit4 :
    commM.slice (Rect.unit (s := S8x4x64) ![4, 0, 0] S1x4x64.size inb_S8x4x64_S1x4x64_4_0_0) (fun _ => rfl) = rowM 4 := rfl
theorem row_slice_lit5 :
    commM.slice (Rect.unit (s := S8x4x64) ![5, 0, 0] S1x4x64.size inb_S8x4x64_S1x4x64_5_0_0) (fun _ => rfl) = rowM 5 := rfl
theorem row_slice_lit6 :
    commM.slice (Rect.unit (s := S8x4x64) ![6, 0, 0] S1x4x64.size inb_S8x4x64_S1x4x64_6_0_0) (fun _ => rfl) = rowM 6 := rfl
theorem row_slice_lit7 :
    commM.slice (Rect.unit (s := S8x4x64) ![7, 0, 0] S1x4x64.size inb_S8x4x64_S1x4x64_7_0_0) (fun _ => rfl) = rowM 7 := rfl

theorem send_sem1 :
    ((cc0_scratch1.slice (Rect.unit (s := S8) ![1] S1.size inb_S8_S1_1)).squeeze S_ squeezes_S1_S_).sem = sendSem 1 := rfl
theorem send_sem2 :
    ((cc0_scratch1.slice (Rect.unit (s := S8) ![2] S1.size inb_S8_S1_2)).squeeze S_ squeezes_S1_S_).sem = sendSem 2 := rfl
theorem send_sem3 :
    ((cc0_scratch1.slice (Rect.unit (s := S8) ![3] S1.size inb_S8_S1_3)).squeeze S_ squeezes_S1_S_).sem = sendSem 3 := rfl
theorem send_sem4 :
    ((cc0_scratch1.slice (Rect.unit (s := S8) ![4] S1.size inb_S8_S1_4)).squeeze S_ squeezes_S1_S_).sem = sendSem 4 := rfl
theorem send_sem5 :
    ((cc0_scratch1.slice (Rect.unit (s := S8) ![5] S1.size inb_S8_S1_5)).squeeze S_ squeezes_S1_S_).sem = sendSem 5 := rfl
theorem send_sem6 :
    ((cc0_scratch1.slice (Rect.unit (s := S8) ![6] S1.size inb_S8_S1_6)).squeeze S_ squeezes_S1_S_).sem = sendSem 6 := rfl
theorem send_sem7 :
    ((cc0_scratch1.slice (Rect.unit (s := S8) ![7] S1.size inb_S8_S1_7)).squeeze S_ squeezes_S1_S_).sem = sendSem 7 := rfl

theorem recv_sem0 :
    ((cc0_scratch2.slice (Rect.unit (s := S8) ![0] S1.size inb_S8_S1_0)).squeeze S_ squeezes_S1_S_).sem = recvSem 0 := rfl
theorem recv_sem1 :
    ((cc0_scratch2.slice (Rect.unit (s := S8) ![1] S1.size inb_S8_S1_1)).squeeze S_ squeezes_S1_S_).sem = recvSem 1 := rfl
theorem recv_sem2 :
    ((cc0_scratch2.slice (Rect.unit (s := S8) ![2] S1.size inb_S8_S1_2)).squeeze S_ squeezes_S1_S_).sem = recvSem 2 := rfl
theorem recv_sem3 :
    ((cc0_scratch2.slice (Rect.unit (s := S8) ![3] S1.size inb_S8_S1_3)).squeeze S_ squeezes_S1_S_).sem = recvSem 3 := rfl
theorem recv_sem4 :
    ((cc0_scratch2.slice (Rect.unit (s := S8) ![4] S1.size inb_S8_S1_4)).squeeze S_ squeezes_S1_S_).sem = recvSem 4 := rfl
theorem recv_sem5 :
    ((cc0_scratch2.slice (Rect.unit (s := S8) ![5] S1.size inb_S8_S1_5)).squeeze S_ squeezes_S1_S_).sem = recvSem 5 := rfl
theorem recv_sem6 :
    ((cc0_scratch2.slice (Rect.unit (s := S8) ![6] S1.size inb_S8_S1_6)).squeeze S_ squeezes_S1_S_).sem = recvSem 6 := rfl
theorem recv_sem7 :
    ((cc0_scratch2.slice (Rect.unit (s := S8) ![7] S1.size inb_S8_S1_7)).squeeze S_ squeezes_S1_S_).sem = recvSem 7 := rfl

/-- The receive semaphore a device slices at its own offset is its own. -/
theorem recv_sem (c : Dev nD) :
    ((cc0_scratch2.slice (Rect.unit (s := S8) (k0_off3 c) S1.size (k0_off3_inb c))).squeeze S_ squeezes_S1_S_).sem = recvSem c := by
  have hp : ∀ i, (![c.val] : Fin 1 → Nat) i + S1.size i ≤ S8.size i := by revert c; decide
  refine (congrArg (fun A : DmaSems sig S1 => (A.squeeze S_ squeezes_S1_S_).sem)
    (SemArray.slice_unit_congr cc0_scratch2 (k0_off3_eq c) (k0_off3_inb c) hp)).trans ?_
  fin_cases c <;> rfl

/-! ## Credits -/

/-- Every row has the one transfer credit, -/
theorem row_credit (s : Fin 8) : (rowM s).view.dmaCredit = N := rfl
/-- which is what a copy into it adds to a DMA semaphore. -/
theorem row_amount (s : Fin 8) (q : DmaSem sig) : (rowM s).view.amount (.dma q) = N := rfl

/-! ## The staged contents -/

/-- The block a gridless window reads of the whole array is the array. -/
theorem xstg_eq (c : Dev nD) : xstg m c = m ((c : Thread nD τ).loc main_arg0) :=
  Memref.read_access_unit_zero (Elt F) main_arg0 (off := fun a => win0_0.index (0 : Fin 1) a * win0_0.size a)
    (funext fun a => Nat.zero_mul _) _ _
theorem wstg_eq (c : Dev nD) : wstg m c = m ((c : Thread nD τ).loc main_arg1) :=
  Memref.read_access_unit_zero (Elt F) main_arg1 (off := fun a => win0_1.index (0 : Fin 1) a * win0_1.size a)
    (funext fun a => Nat.zero_mul _) _ _

/-! ## The elements of a row -/

/-- The contents of a statistics buffer (on whatever device). -/
abbrev CommBuf (F : FTy → Type) : Type := commM.view.ty.Contents (Elt F)

/-- The rectangle of the buffer that is row `s`. -/
abbrev rowRect (s : Fin 8) : Rect S8x4x64 := Rect.unit (s := S8x4x64) (rowOff s) S1x4x64.size (rowOff_inb s)

/-- A row's view is the buffer's, restricted to the row's rectangle. -/
theorem rowM_view (s : Fin 8) : (rowM s).view = commM.view.slice (rowRect s) := rfl

/-- Row `s` is the elements at leading coordinate `s`. -/
theorem mem_row_set (s : Fin 8) (i : commM.view.ty.Idx) : i ∈ (rowM s).view.set ↔ (i 0).val = s.val := by
  show i ∈ ((View.whole cc0_scratch0 : View sig .tc _ _ _).slice (rowRect s)).set ↔ _
  rw [View.set_slice_whole, Rect.mem_set_unit]
  constructor
  · intro h
    have h0 := h (0 : Fin 3)
    have e0 : rowOff s (0 : Fin 3) = s.val := rfl
    have e1 : S1x4x64.size (0 : Fin 3) = 1 := rfl
    rw [e0, e1] at h0
    omega
  · intro h a
    match a with
    | ⟨0, _⟩ =>
      show s.val ≤ (i 0).val ∧ (i 0).val < s.val + 1
      omega
    | ⟨1, _⟩ =>
      have := (i 1).isLt
      show 0 ≤ (i 1).val ∧ (i 1).val < 0 + 4
      exact ⟨Nat.zero_le _, by rw [Nat.zero_add]; exact this⟩
    | ⟨2, _⟩ =>
      have := (i 2).isLt
      show 0 ≤ (i 2).val ∧ (i 2).val < 0 + 64
      exact ⟨Nat.zero_le _, by rw [Nat.zero_add]; exact this⟩

/-- Different rows share no element, -/
theorem row_disjoint {s s' : Fin 8} (h : s ≠ s') : Disjoint (rowM s).view.set (rowM s').view.set :=
  Finset.disjoint_left.mpr fun i hi hi' =>
    h (Fin.ext (((mem_row_set s i).mp hi).symm.trans ((mem_row_set s' i).mp hi')))
/-- the rows make up the buffer, -/
theorem row_union : (Finset.univ : Finset (Fin 8)).biUnion (fun s => (rowM s).view.set) = commM.view.set := by
  refine Eq.trans ?_ (View.set_whole _).symm
  exact Finset.eq_univ_iff_forall.mpr fun i =>
    Finset.mem_biUnion.mpr ⟨⟨(i 0).val, (i 0).isLt⟩, Finset.mem_univ _, (mem_row_set _ i).mpr rfl⟩
/-- which is all its elements. -/
theorem comm_set : commM.view.set = Finset.univ := View.set_whole _

/-- The element of the buffer under a row's index. -/
theorem row_emb (s : Fin 8) (u : Fin 1) (r : Fin 4) (ch : Fin 64) :
    (commM.view.slice (rowRect s)).emb (ix3 u r ch) = (ix3 s r ch : S8x4x64.Idx) := by
  funext a
  match a with
  | ⟨0, _⟩ => exact Fin.ext (show s.val + 1 * u.val = s.val by have := u.isLt; omega)
  | ⟨1, _⟩ => exact Fin.ext (show 0 + 1 * r.val = r.val by omega)
  | ⟨2, _⟩ => exact Fin.ext (show 0 + 1 * ch.val = ch.val by omega)

/-- Row `s` reads, at `(u, r, ch)`, the buffer's element `(s, r, ch)`. -/
theorem row_read_apply (s : Fin 8) (f : CommBuf F) (u : Fin 1) (r : Fin 4) (ch : Fin 64) :
    (rowM s).view.read (Elt F) f (ix3 u r ch) = f (ix3 s r ch) := by
  show (commM.view.slice (rowRect s)).read (Elt F) f (ix3 u r ch) = f (ix3 s r ch)
  rw [View.read_apply, row_emb]
  rfl

/-- Contents that agree on a row's elements read the same through it, -/
theorem row_read_congr (s : Fin 8) {f g : CommBuf F} (h : ∀ i ∈ (rowM s).view.set, f i = g i) :
    (rowM s).view.read (Elt F) f = (rowM s).view.read (Elt F) g := View.read_congr h
/-- and conversely. -/
theorem row_agree_of_read (s : Fin 8) {f g : CommBuf F} (h : (rowM s).view.read (Elt F) f = (rowM s).view.read (Elt F) g) :
    ∀ i ∈ (rowM s).view.set, f i = g i := by
  intro i hi
  obtain ⟨x, -, rfl⟩ := Finset.mem_map.mp hi
  have hx : (commM.view.slice (rowRect s)).read (Elt F) f x = (commM.view.slice (rowRect s)).read (Elt F) g x := congrFun h x
  rw [View.read_apply, View.read_apply] at hx
  exact (cast_inj _).mp hx

/-! ## The two stores fill a device's row; the two dead loads read inside it -/

/-- A rectangle of the buffer at leading offset `c` and leading extent one lies in row `c`. -/
theorem rect_subset_row (c : Dev nD) (off size : Fin 3 → Nat) (inb : ∀ a, off a + size a ≤ S8x4x64.size a)
    (h0 : off 0 = c.val) (h1 : size 0 = 1) :
    (Rect.unit (s := S8x4x64) off size inb).set ⊆ (rowM c).view.set := by
  intro i hi
  have h := (Rect.mem_set_unit.mp hi) (0 : Fin 3)
  rw [h0, h1] at h
  exact (mem_row_set c i).mpr (by omega)

/-- The store of the sums (rows 0–1 of the row) writes inside the row, -/
theorem store1_subset (c : Dev nD) :
    (commM.access (Rect.unit (s := S8x4x64) (k0_off1 c) S1x2x64.size (k0_off1_inb c))).setOn Finset.univ ⊆ (rowM c).view.set := by
  rw [View.setOn_univ]
  show ((View.whole cc0_scratch0 : View sig .tc _ _ _).slice _).set ⊆ _
  rw [View.set_slice_whole]
  exact rect_subset_row c _ _ _ (by rw [k0_off1_eq]; rfl) rfl
/-- the store of the sums of squares (rows 2–3) likewise, -/
theorem store2_subset (c : Dev nD) :
    (commM.access (Rect.unit (s := S8x4x64) (k0_off2 c) S1x2x64.size (k0_off2_inb c))).setOn Finset.univ ⊆ (rowM c).view.set := by
  rw [View.setOn_univ]
  show ((View.whole cc0_scratch0 : View sig .tc _ _ _).slice _).set ⊆ _
  rw [View.set_slice_whole]
  exact rect_subset_row c _ _ _ (by rw [k0_off2_eq]; rfl) rfl
/-- and the loads at the same coordinates read inside it. -/
theorem load1_subset (c : Dev nD) :
    commM.view.setOn (Rect.unit (s := S8x4x64) (k0_off1 c) S1x2x64.size (k0_off1_inb c)).toLoadRect.set ⊆ (rowM c).view.set := by
  intro i hi
  obtain ⟨x, hx, rfl⟩ := Finset.mem_map.mp hi
  exact rect_subset_row c _ _ _ (by rw [k0_off1_eq]; rfl) rfl hx
theorem load2_subset (c : Dev nD) :
    commM.view.setOn (Rect.unit (s := S8x4x64) (k0_off2 c) S1x2x64.size (k0_off2_inb c)).toLoadRect.set ⊆ (rowM c).view.set := by
  intro i hi
  obtain ⟨x, hx, rfl⟩ := Finset.mem_map.mp hi
  exact rect_subset_row c _ _ _ (by rw [k0_off2_eq]; rfl) rfl hx

/-- The two stores at the offsets in closed form. -/
theorem stores_row_at (c : Dev nD) (o1 o2 : Fin 3 → Nat) (h1 : o1 = ![c.val, 0, 0]) (h2 : o2 = ![c.val, 2, 0])
    (i1 : ∀ a, o1 a + S1x2x64.size a ≤ S8x4x64.size a) (i2 : ∀ a, o2 a + S1x2x64.size a ≤ S8x4x64.size a)
    (f0 : CommBuf F) (X : Vec F S2x64x64x64 .f32) :
    (rowM c).view.read (Elt F)
      ((commM.access (Rect.unit (s := S8x4x64) o2 S1x2x64.size i2)).write (Elt F)
        ((commM.access (Rect.unit (s := S8x4x64) o1 S1x2x64.size i1)).write (Elt F) f0 (k0_pay2 X) Finset.univ)
        (k0_pay3 X) Finset.univ)
      = statRow X := by
  subst h1 h2
  funext i
  obtain ⟨u, r, ch, rfl⟩ : ∃ u r ch, i = ix3 u r ch := ⟨i 0, i 1, i 2, eq_ix3 i⟩
  rw [row_read_apply]
  by_cases hr : r.val < 2
  · -- element (c, r, ch) is the first store's (0, r, ch), and none of the second's
    have e1 : (ix3 c r ch : S8x4x64.Idx)
        = (Rect.unit (s := S8x4x64) ![c.val, 0, 0] S1x2x64.size i1).emb (ix3 (0 : Fin 1) (⟨r.val, hr⟩ : Fin 2) ch) := by
      funext a
      match a with
      | ⟨0, _⟩ => exact Fin.ext (show c.val = c.val + 1 * 0 by omega)
      | ⟨1, _⟩ => exact Fin.ext (show r.val = 0 + 1 * r.val by omega)
      | ⟨2, _⟩ => exact Fin.ext (show ch.val = 0 + 1 * ch.val by omega)
    have hn : (ix3 c r ch : S8x4x64.Idx)
        ∉ Finset.univ.map (Rect.unit (s := S8x4x64) ![c.val, 2, 0] S1x2x64.size i2).emb := by
      rw [Rect.map_emb_univ, Rect.mem_set_unit]
      intro h
      have h1 := (h (1 : Fin 3)).1
      have : (2 : ℕ) ≤ r.val := h1
      omega
    show commM.view.read (Elt F) ((commM.view.slice (Rect.unit (s := S8x4x64) ![c.val, 2, 0] S1x2x64.size i2)).write (Elt F) _ (k0_pay3 X) Finset.univ) (ix3 c r ch) = _
    rw [View.read_slice_write_of_not_mem _ _ _ _ hn, e1, View.read_slice_write_emb _ _ _ (Finset.mem_univ _)]
    unfold statRow
    symm
    exact dif_pos (show ((ix3 u r ch : S1x4x64.Idx) 1).val < 2 from hr)
  · -- element (c, r, ch) is the second store's (0, r − 2, ch)
    have hr4 : r.val < 4 := r.isLt
    have e2 : (ix3 c r ch : S8x4x64.Idx)
        = (Rect.unit (s := S8x4x64) ![c.val, 2, 0] S1x2x64.size i2).emb
            (ix3 (0 : Fin 1) (⟨r.val - 2, by omega⟩ : Fin 2) ch) := by
      funext a
      match a with
      | ⟨0, _⟩ => exact Fin.ext (show c.val = c.val + 1 * 0 by omega)
      | ⟨1, _⟩ => exact Fin.ext (show r.val = 2 + 1 * (r.val - 2) by omega)
      | ⟨2, _⟩ => exact Fin.ext (show ch.val = 0 + 1 * ch.val by omega)
    show commM.view.read (Elt F) ((commM.view.slice (Rect.unit (s := S8x4x64) ![c.val, 2, 0] S1x2x64.size i2)).write (Elt F) _ (k0_pay3 X) Finset.univ) (ix3 c r ch) = _
    rw [e2, View.read_slice_write_emb _ _ _ (Finset.mem_univ _)]
    unfold statRow
    symm
    exact dif_neg (show ¬ ((ix3 u r ch : S1x4x64.Idx) 1).val < 2 from hr)

/-- After the two stores the device's row holds its statistics, whatever the buffer held. -/
theorem stores_row (c : Dev nD) (f0 : CommBuf F) (X : Vec F S2x64x64x64 .f32) :
    (rowM c).view.read (Elt F)
      ((commM.access (Rect.unit (s := S8x4x64) (k0_off2 c) S1x2x64.size (k0_off2_inb c))).write (Elt F)
        ((commM.access (Rect.unit (s := S8x4x64) (k0_off1 c) S1x2x64.size (k0_off1_inb c))).write (Elt F) f0 (k0_pay2 X) Finset.univ)
        (k0_pay3 X) Finset.univ)
      = statRow X :=
  stores_row_at c (k0_off1 c) (k0_off2 c) (k0_off1_eq c) (k0_off2_eq c) (k0_off1_inb c) (k0_off2_inb c) f0 X

/-! ## A landing; the whole buffer from its rows -/

/-- A copy's landing: the destination row then reads what the source row read. -/
theorem landing_read (s : Fin 8) (fd fs : CommBuf F) :
    (rowM s).view.read (Elt F) ((rowM s).view.write (Elt F) fd ((rowM s).view.read (Elt F) fs) Finset.univ)
      = (rowM s).view.read (Elt F) fs := View.read_write_univ _ _

/-- Every row holding some device's statistics, the buffer read whole is the gathered statistics. -/
theorem whole_of_rows (f : CommBuf F) (X : Dev nD → Vec F S2x64x64x64 .f32)
    (h : ∀ s : Fin 8, (rowM s).view.read (Elt F) f = statRow (X s)) :
    commM.view.readAt (Elt F) (Rect.unit (s := S8x4x64) ![0, 0, 0] S8x4x64.size inb_S8x4x64_S8x4x64_0_0_0).toLoadRect f = gathered X := by
  refine (Memref.readAt_unit_zero (Elt F) cc0_scratch0 (off := ![0, 0, 0])
    (funext fun a => by match a with | ⟨0, _⟩ => rfl | ⟨1, _⟩ => rfl | ⟨2, _⟩ => rfl) inb_S8x4x64_S8x4x64_0_0_0 f).trans ?_
  funext i
  obtain ⟨d, r, ch, rfl⟩ : ∃ d r ch, i = ix3 d r ch := ⟨i 0, i 1, i 2, eq_ix3 i⟩
  -- element (d, r, ch) is what row d reads at (0, r, ch): device d's statistics there
  have hd := congrFun (h d) (ix3 (0 : Fin 1) r ch)
  rw [row_read_apply] at hd
  exact hd

/-! ## The row's place -/

/-- A row lives in the statistics buffer of its device, -/
theorem row_loc (c : Dev nD) (s : Fin 8) :
    (rowM s).view.loc (c : Thread nD τ) = (c : Thread nD τ).loc cc0_scratch0 := rfl
/-- on the elements of its rectangle. -/
theorem row_set (s : Fin 8) : (rowM s).view.set = (rowRect s).set :=
  View.set_slice_whole cc0_scratch0 (rowRect s)

end Cert.KernelIdeal.Proto

end
-- ==== Proof.Launch.lean ====
/-
  The launch of the exchange: every device's ghost state allocated under one update, the launch credit, what a
  device's body is handed and hands back, and the run of @main with each device's result array read off.
-/
import proofs.«900777_g7700000000000778_dist_diff_noisepred_hshard_i_b2_h64_w64_c64_v7x_i8_f32_1_alg».proof.Proof.Data
import proofs.«900777_g7700000000000778_dist_diff_noisepred_hshard_i_b2_h64_w64_c64_v7x_i8_f32_1_alg».proof.Proof.Creds
import proofs.«900777_g7700000000000778_dist_diff_noisepred_hshard_i_b2_h64_w64_c64_v7x_i8_f32_1_alg».proof.Proof.Rows

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own sixteen DMA semaphores: the eight send semaphores, then the eight receive semaphores. -/
abbrev osem : Fin 16 → SemLoc sig := fun i => .dma ⟨3 + i.val, by have := i.isLt; show 3 + i.val < 19; omega⟩

theorem ownSemFacts : Pipeline.OwnSemFacts cfg0.spec osem := by decide

theorem share_eq (c : Dev nD) (w : Fin cfg0.W) : (dats m ρ 0 c).share w = fullShare := by unfold Dat.share; split <;> rfl

/-! ### Products over a device's seven peers -/

/-- The offset, among 1 … 7, that leads back. -/
def oppJ (j : Fin 7) : Fin 7 := ⟨6 - j.val, by omega⟩

theorem peer_peer_opp (c : Dev nD) (j : Fin 7) : peer (peer c (off j)) (off (oppJ j)) = c := by revert c j; decide
theorem others_eq (c : Dev nD) :
    (Finset.univ.erase c : Finset (Fin 8)) = (Finset.univ : Finset (Fin 7)).image (fun j => peer c (off j)) := by revert c; decide
theorem peer_off_inj' (c : Dev nD) : ∀ a b : Fin 7, peer c (off a) = peer c (off b) → a = b := by revert c; decide

/-- (device, offset) ↦ (the peer at that offset, the offset back): its own inverse. -/
def flipE : Dev nD × Fin 7 ≃ Dev nD × Fin 7 where
  toFun cj := (peer cj.1 (off cj.2), oppJ cj.2)
  invFun cj := (peer cj.1 (off cj.2), oppJ cj.2)
  left_inv := by intro ⟨c, j⟩; revert c j; decide
  right_inv := by intro ⟨c, j⟩; revert c j; decide

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- Over the eight offsets: offset 0 first, then the seven in use. -/
theorem bigSep_off (Φ : Fin 8 → sProp 𝕄) :
    bigSep Finset.univ Φ = iprop(Φ 0 ∗ bigSep Finset.univ fun j : Fin 7 => Φ (off j)) := by
  rw [bigSep_fin8, bigSep_fin7]; rfl

omit [FloatOps F] in
/-- Over the devices other than `c`: its seven peers by offset. -/
theorem bigSep_others (c : Dev nD) (Φ : Fin 8 → sProp 𝕄) :
    bigSep (Finset.univ.erase c) Φ = bigSep Finset.univ fun j : Fin 7 => Φ (peer c (off j)) := by
  rw [others_eq, bigSep_image_of_injOn (fun a _ b _ h => peer_off_inj' c a b h)]

omit [FloatOps F] in
/-- Over the eight devices: `c` first, then its seven peers. -/
theorem bigSep_peers (c : Dev nD) (Φ : Fin 8 → sProp 𝕄) :
    bigSep Finset.univ Φ = iprop(Φ c ∗ bigSep Finset.univ fun j : Fin 7 => Φ (peer c (off j))) := by
  rw [bigSep_univ_at Φ c, bigSep_others]

omit [FloatOps F] in
/-- What every device holds towards each of its peers is what every device is held towards by each of its peers. -/
theorem around (Φ : Dev nD → Dev nD → sProp 𝕄) :
    (bigSep Finset.univ fun o : Dev nD => bigSep Finset.univ fun j : Fin 7 => Φ o (peer o (off j)))
      = bigSep Finset.univ fun c : Dev nD => bigSep Finset.univ fun j : Fin 7 => Φ (peer c (off j)) c := by
  rw [← bigSep_univ_prod (fun oj : Dev nD × Fin 7 => Φ oj.1 (peer oj.1 (off oj.2))), bigSep_univ_equiv flipE, bigSep_univ_prod]
  exact bigSep_congr fun c _ => bigSep_congr fun j _ => by
    show Φ (peer c (off j)) (peer (peer c (off j)) (off (oppJ j))) = _
    rw [peer_peer_opp]

/-! ### The cells and the duty tokens of the exchange -/

/-- A device's fifteen cells: its barrier cell, its seven send cells, its seven receive cells. -/
abbrev CI : Type := Unit ⊕ (Fin 7 ⊕ Fin 7)
def kcell (ck : Dev nD × CI) : GSem nD τ sig := match ck.2 with
  | .inl _ => barCell ck.1
  | .inr (.inl j) => sendCell ck.1 (off j)
  | .inr (.inr j) => recvCell ck.1 (peer ck.1 (off j))

theorem kcell_sem_inj : ∀ (c : Dev nD) (i i' : CI), (kcell (c, i)).2 = (kcell (c, i')).2 → i = i' := by decide

theorem kcell_injective : Function.Injective (kcell : Dev nD × CI → GSem nD τ sig) := by
  rintro ⟨c, i⟩ ⟨c', i'⟩ h
  have h1 : c = c' := by
    have := congrArg (fun g : GSem nD τ sig => g.1.1) h
    rcases i with _ | _ | _ <;> rcases i' with _ | _ | _ <;> exact this
  subst h1
  rw [kcell_sem_inj c i i' (congrArg Prod.snd h)]
def ringCells : Finset (GSem nD τ sig) := Finset.univ.map ⟨kcell, kcell_injective⟩

theorem mem_ring (ck : Dev nD × CI) : kcell ck ∈ ringCells := Finset.mem_map_of_mem _ (Finset.mem_univ _)
theorem mem_bar (c : Dev nD) : barCell c ∈ ringCells := mem_ring (c, .inl ())
theorem mem_send (c : Dev nD) (j : Fin 7) : sendCell c (off j) ∈ ringCells := mem_ring (c, .inr (.inl j))
theorem mem_recv (c : Dev nD) (j : Fin 7) : recvCell c (peer c (off j)) ∈ ringCells := mem_ring (c, .inr (.inr j))
theorem mem_recv_peer (c : Dev nD) (j : Fin 7) : recvCell (peer c (off j)) c ∈ ringCells := by
  have h := mem_recv (peer c (off j)) (oppJ j)
  rwa [peer_peer_opp] at h

omit [FloatOps F] in
theorem bigSep_CI (Φ : CI → sProp 𝕄) :
    bigSep Finset.univ Φ = iprop(Φ (.inl ()) ∗ (bigSep Finset.univ fun j : Fin 7 => Φ (.inr (.inl j)))
      ∗ bigSep Finset.univ fun j : Fin 7 => Φ (.inr (.inr j))) := by
  rw [bigSep_univ_sum, bigSep_univ_sum, bigSep_univ_of_subsingleton ()]; rfl

omit [FloatOps F] in
theorem bigSep_ring (Φ : GSem nD τ sig → sProp 𝕄) :
    bigSep ringCells Φ = bigSep Finset.univ fun c : Dev nD => bigSep Finset.univ fun i : CI => Φ (kcell (c, i)) := by
  unfold ringCells; rw [bigSep_map, bigSep_univ_prod]; rfl

/-- The duty tokens as minted, at the owner of the cell: a barrier cell's seven duties named by the other devices,
    each send cell's and each receive cell's one duty. -/
abbrev TI : Type := Fin 7 ⊕ (Fin 7 ⊕ Fin 7)
def tokOf (cj : Dev nD × TI) : GSem nD τ sig × ℕ × Fin 8 := match cj.2 with
  | .inl j => (barCell cj.1, 0, peer cj.1 (off j))
  | .inr (.inl j) => (sendCell cj.1 (off j), 0, 0)
  | .inr (.inr j) => (recvCell cj.1 (peer cj.1 (off j)), 0, 0)

theorem tokOf_sem_inj : ∀ (c : Dev nD) (i i' : TI),
    ((tokOf (c, i)).1.2, (tokOf (c, i)).2.2) = ((tokOf (c, i')).1.2, (tokOf (c, i')).2.2) → i = i' := by decide

theorem tokOf_injective : Function.Injective (tokOf : Dev nD × TI → GSem nD τ sig × ℕ × Fin 8) := by
  rintro ⟨c, i⟩ ⟨c', i'⟩ h
  have h1 : c = c' := by
    have := congrArg (fun x : GSem nD τ sig × ℕ × Fin 8 => x.1.1.1) h
    rcases i with _ | _ | _ <;> rcases i' with _ | _ | _ <;> exact this
  subst h1
  rw [tokOf_sem_inj c i i' (congrArg (fun x : GSem nD τ sig × ℕ × Fin 8 => (x.1.2, x.2.2)) h)]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 7 => dutyTok ER (barCell c) 0 (peer c (off j)))
    ∗ (bigSep Finset.univ fun j : Fin 7 => dutyTok ER (sendCell c (off j)) 0 (0 : Fin 8))
    ∗ (bigSep Finset.univ fun j : Fin 7 => dutyTok ER (recvCell c (peer c (off j))) 0 (0 : Fin 8)))

/-- What the launch element deals device `c`. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)

/-- What the global step makes of it: the ghost state at some names, and the two own semaphores no cell is made of. -/
def G' (c : Dev nD) : sProp 𝕄 := iprop((∃ K, ghost m K c) ∗ semVal (sendCell c 0) 0 ∗ semVal (recvCell c c) 0)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (bigSep_ring fun g => roundState ER (Rd m) g 0)) $$ Hst
  ihave Hat' := (Entails.of_eq (bigSep_ring fun g => atPos ER g 0 ∅ 0)) $$ Hat
  ihave Hr' := (Entails.of_eq (bigSep_ring fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores at zero: which become cells, which stay -/

omit [FloatOps F] in
/-- The sixteen own semaphores are the eight send and the eight receive semaphores; -/
theorem ownSems0_split (c : Dev nD) : (Pipeline.ownSems0 (Ix := Unit) (Name := ℕ) (U := UU) (Lvl := ℕ) (Val := Elt F) (τ := τ) osem c : sProp 𝕄)
    ⊢ iprop((bigSep Finset.univ fun k : Fin 8 => semVal (sendCell c k) 0) ∗ bigSep Finset.univ fun s : Fin 8 => semVal (recvCell c s) 0) := by
  unfold Pipeline.ownSems0
  rw [bigSep_fin16, bigSep_fin8, bigSep_fin8]
  iintro ⟨H0, H1, H2, H3, H4, H5, H6, H7, H8, H9, H10, H11, H12, H13, H14, H15⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

omit [FloatOps F] in
theorem ownSems0_join (c : Dev nD) :
    iprop((bigSep Finset.univ fun k : Fin 8 => semVal (sendCell c k) 0) ∗ bigSep Finset.univ fun s : Fin 8 => semVal (recvCell c s) 0)
      ⊢ (Pipeline.ownSems0 (Ix := Unit) (Name := ℕ) (U := UU) (Lvl := ℕ) (Val := Elt F) (τ := τ) osem c : sProp 𝕄) := by
  unfold Pipeline.ownSems0
  rw [bigSep_fin16, bigSep_fin8, bigSep_fin8]
  iintro ⟨⟨H0, H1, H2, H3, H4, H5, H6, H7⟩, H8, H9, H10, H11, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Of a device's seventeen semaphores at zero, fifteen are its cells' counters; send semaphore 0 and receive
    semaphore `c` serve no copy. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ semVal (sendCell c 0) 0 ∗ semVal (recvCell c c) 0) : sProp 𝕄) := by
  have h := ownSems0_split (F := F) c
  rw [bigSep_off (fun k => semVal (sendCell c k) 0), bigSep_peers c (fun s => semVal (recvCell c s) 0)] at h
  rw [unscopedSems0_eq, bigSep_CI]
  iintro ⟨Hos, HB⟩
  ihave H := h $$ Hos
  icases H with ⟨⟨Hs0, Hs⟩, Hrc, Hr⟩
  isplitl [HB Hs Hr]
  · isplitl [HB]; · iexact HB
    isplitl [Hs]; · iexact Hs
    iexact Hr
  isplitl [Hs0]; · iexact Hs0
  iexact Hrc

omit [FloatOps F] in
instance rowPts_storable (c : Dev nD) (s : Fin 8) (q : PosShare TreeShare) (f) :
    BI.Storable (upEmb : UEmb _ 𝕄) (rowPts (F := F) c s q f) := by unfold rowPts; infer_instance
omit [FloatOps F] in
instance rowAny_storable (c : Dev nD) (s : Fin 8) : BI.Storable (upEmb : UEmb _ 𝕄) (rowAny (F := F) c s) := by
  unfold rowAny; infer_instance
instance rowHas_storable (c : Dev nD) (s : Fin 8) (q : PosShare TreeShare) (d : Dev nD) :
    BI.Storable (upEmb : UEmb _ 𝕄) (rowHas (F := F) m c s q d) := by unfold rowHas; infer_instance
/-- Every payload of the schedule is a row of a statistics buffer held at some share: it can be kept in an invariant. -/
instance Rd_payload_storable (g : GSem nD τ sig) (r : ℕ) (d : Fin 8) :
    BI.Storable (upEmb : UEmb _ 𝕄) ((Rd (F := F) m).payload g r d) := by
  rcases g with ⟨t, sm⟩
  cases sm with
  | reg s => show BI.Storable upEmb (rowAny (F := F) d t.1); infer_instance
  | dma q =>
    show BI.Storable upEmb (if IsSend q then rowHas m t.1 t.1 (sendSh (offOf q)) t.1 else rowHas m t.1 (slotOf q) fullShare (slotOf q))
    split <;> infer_instance

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c
          ∗ iprop(semVal (sendCell c 0) 0 ∗ semVal (recvCell c c) 0)) := by
  unfold G
  iintro ⟨Hos, Hus, Hst, Hat, Htok⟩
  ihave Hv := (sems0_split (F := F) c) $$ [Hos Hus]
  · isplitl [Hos] <;> iassumption
  icases Hv with ⟨Hv, Hun⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hun

/-! ### The tokens travel to the payers; the records are shared -/

def records (K : GSem nD τ sig → ℕ) : sProp 𝕄 :=
  iprop((bigSep ringCells fun g => cellInv ER (Rd m) (K g) g) ∗ bigSep ringCells fun g => reached ER g 0)

instance records_persistent (K : GSem nD τ sig → ℕ) : BI.Persistent (records m K) := by unfold records; infer_instance

theorem inv_at (K : GSem nD τ sig → ℕ) {g : GSem nD τ sig} (hg : g ∈ ringCells) :
    (bigSep ringCells fun g => (cellInv ER (Rd m) (K g) g : sProp 𝕄)) ⊢ cellInv ER (Rd m) (K g) g := bigSep_elim hg
omit [FloatOps F] in
theorem reached_at {g : GSem nD τ sig} (hg : g ∈ ringCells) :
    (bigSep ringCells fun g => (reached ER g 0 : sProp 𝕄)) ⊢ reached ER g 0 := bigSep_elim hg
theorem inv_of (K : GSem nD τ sig → ℕ) {g : GSem nD τ sig} (hg : g ∈ ringCells) : records m K ⊢ cellInv ER (Rd m) (K g) g := by
  unfold records
  iintro ⟨HI, -⟩
  iapply (inv_at m K hg); iexact HI
theorem reached_of (K : GSem nD τ sig → ℕ) {g : GSem nD τ sig} (hg : g ∈ ringCells) : records m K ⊢ reached ER g 0 := by
  unfold records
  iintro ⟨-, HR⟩
  iapply (reached_at (F := F) hg); iexact HR

theorem invs_intro (K : GSem nD τ sig → ℕ) (c : Dev nD) : records m K ⊢ invs m K c := by
  unfold invs
  iintro #H
  isplitr; · iapply (inv_of m K (mem_bar c)); iexact H
  isplitr; · iapply (bigSep_intro_persistent fun j _ => inv_of m K (mem_send c j)); iexact H
  isplitr; · iapply (bigSep_intro_persistent fun j _ => inv_of m K (mem_recv c j)); iexact H
  isplitr; · iapply (bigSep_intro_persistent fun j _ => inv_of m K (mem_bar (peer c (off j)))); iexact H
  iapply (bigSep_intro_persistent fun j _ => inv_of m K (mem_recv_peer c j)); iexact H

theorem reacheds_intro (K : GSem nD τ sig → ℕ) (c : Dev nD) : records m K ⊢ reacheds (F := F) c := by
  unfold reacheds
  iintro #H
  isplitr; · iapply (reached_of m K (mem_bar c)); iexact H
  isplitr; · iapply (bigSep_intro_persistent fun j _ => reached_of m K (mem_send c j)); iexact H
  isplitr; · iapply (bigSep_intro_persistent fun j _ => reached_of m K (mem_recv c j)); iexact H
  isplitr; · iapply (bigSep_intro_persistent fun j _ => reached_of m K (mem_bar (peer c (off j)))); iexact H
  iapply (bigSep_intro_persistent fun j _ => reached_of m K (mem_recv_peer c j)); iexact H

/-- The tokens of the duties device `c` pays: on each peer's barrier cell the duty named `c`, on each peer's receive
    cell of row `c` and on each of its own send cells the one duty. -/
def payToks (c : Dev nD) : sProp 𝕄 :=
  iprop((bigSep Finset.univ fun j : Fin 7 => dutyTok ER (barCell (peer c (off j))) 0 c)
    ∗ (bigSep Finset.univ fun j : Fin 7 => dutyTok ER (recvCell (peer c (off j)) c) 0 (0 : Fin 8))
    ∗ (bigSep Finset.univ fun j : Fin 7 => dutyTok ER (sendCell c (off j)) 0 (0 : Fin 8)))

omit [FloatOps F] in
/-- The tokens dealt around: a barrier cell's token named `p` to device `p`, a receive cell's token to the device whose
    row it receives. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun o p => (dutyTok ER (barCell o) 0 p : sProp 𝕄)),
    around (fun o p => (dutyTok ER (recvCell o p) 0 (0 : Fin 8) : sProp 𝕄))]
  iintro ⟨H1, H2, H3⟩
  isplitl [H1]; · iexact H1
  isplitl [H3]; · iexact H3
  iexact H2

/-- What stays with device `c`: its positions, the tokens it pays with, and its two idle semaphores. -/
def dealt (c : Dev nD) : sProp 𝕄 :=
  iprop((bigSep Finset.univ fun i : CI => atPos ER (kcell (c, i)) 0 ∅ 0) ∗ payToks c
    ∗ iprop(semVal (sendCell c 0) 0 ∗ semVal (recvCell c c) 0))

theorem G'_intro (K : GSem nD τ sig → ℕ) (c : Dev nD) : iprop(records m K ∗ dealt c) ⊢ G' m c := by
  unfold dealt payToks G' ghost
  rw [bigSep_CI]
  iintro ⟨#HR, ⟨HaB, HaS, HaV⟩, ⟨HtB, HtV, HtS⟩, Hun⟩
  isplitr [Hun]
  · iexists K
    isplitr; · iapply (invs_intro m K c); iexact HR
    isplitr; · iapply (reacheds_intro m K c); iexact HR
    isplitl [HaB]; · iexact HaB
    isplitl [HaS]; · iexact HaS
    isplitl [HaV]; · iexact HaV
    isplitl [HtB]; · iexact HtB
    isplitl [HtV]; · iexact HtV
    iexact HtS
  iexact Hun

omit [FloatOps F] in
theorem dealt_join :
    iprop((bigSep Finset.univ fun c : Dev nD => bigSep Finset.univ fun i : CI => (atPos ER (kcell (c, i)) 0 ∅ 0 : sProp 𝕄))
        ∗ (bigSep Finset.univ fun c : Dev nD => (payToks c : sProp 𝕄))
        ∗ bigSep Finset.univ fun c : Dev nD => (iprop(semVal (sendCell c 0) 0 ∗ semVal (recvCell c c) 0) : sProp 𝕄))
      ⊢ bigSep Finset.univ fun c : Dev nD => (dealt c : sProp 𝕄) := by
  unfold dealt
  rw [bigSep_sep' Finset.univ (fun c : Dev nD => bigSep Finset.univ fun i : CI => (atPos ER (kcell (c, i)) 0 ∅ 0 : sProp 𝕄)),
    bigSep_sep' Finset.univ (fun c : Dev nD => (payToks c : sProp 𝕄))]

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c
          ∗ iprop(semVal (sendCell c 0) 0 ∗ semVal (recvCell c c) 0)) : sProp 𝕄)
      ⊢ bigSep Finset.univ (G' m) := by
  rw [bigSep_sep', bigSep_sep', bigSep_sep',
    ← bigSep_ring (fun g => iprop(∃ κ : ℕ, cellInv ER (Rd m) κ g)),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_ring (fun g => (reached ER g 0 : sProp 𝕄))]
  iintro ⟨HI, ⟨Hat, #HR⟩, Htok, Hun⟩
  ihave HK := (BI.bigSep_exists_pi ringCells (fun (g : GSem nD τ sig) (κ : ℕ) => (cellInv ER (Rd m) κ g : sProp 𝕄))) $$ HI
  icases HK with ⟨%K, #HI⟩
  ihave Htk := (toks_around (F := F)) $$ Htok
  iapply (bigSep_with_persistent (R := records m K) fun c _ => G'_intro m K c)
  isplitr
  · unfold records; isplitl; · iexact HI
    iexact HR
  · iapply (dealt_join (F := F))
    isplitl [Hat]; · iexact Hat
    isplitl [Htk]; · iexact Htk
    iexact Hun

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  icases HG with ⟨HG, Hs, Hr⟩
  isplitl
  · isplitl [HG]; · iexact HG
    isplitl [H1]; · iexact H1
    isplitl [HN]; · iexact HN
    isplitl [Hlev]; · iexact Hlev
    isplitl [Hs]; · iexact Hs
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; unfold commPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ commPts
  iintro ⟨⟨%f, Hr⟩, HzS, HzV⟩
  isplitr; · iempintro
  isplitl [HzS HzV]
  · iapply (ownSems0_join (F := F) c)
    isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

/-- An input array ends as launched. -/
theorem finalA_x (c : Dev nD) : (dats m ρ 0 c).arrAt (0 : Fin 3) cfg0.N = m ((c : Thread nD τ).loc main_arg0) :=
  (dats (F := F) m ρ 0 c).arrAt_in (0 : Fin 3) rfl _
theorem finalA_w (c : Dev nD) : (dats m ρ 0 c).arrAt (1 : Fin 3) cfg0.N = m ((c : Thread nD τ).loc main_arg1) :=
  (dats (F := F) m ρ 0 c).arrAt_in (1 : Fin 3) rfl _
/-- The body's stored value on device `c` is its result term of the arrays as launched. -/
theorem outAt_eq (c : Dev nD) : outAt m c
    = Hand.result (fun d : Dev nD => m ((d.tc : Thread nD τ).loc main_arg0)) (m ((c.tc : Thread nD τ).loc main_arg1)) c := by
  unfold outAt Hand.result
  rw [wstg_eq, show (fun d => xstg m d) = fun d : Dev nD => m ((d.tc : Thread nD τ).loc main_arg0) from funext fun d => xstg_eq m d, xstg_eq]

/-- The result array ends at the device's result term of what the devices were given: the one write-back writes the
    whole array, and read back whole it is what was written. -/
theorem finalA_out (c : Dev nD) : (dats m ρ 0 c).arrAt (2 : Fin 3) cfg0.N
    = Hand.result (fun d : Dev nD => m ((d.tc : Thread nD τ).loc main_arg0)) (m ((c.tc : Thread nD τ).loc main_arg1)) c := by
  rw [← outAt_eq]
  have hs := (dats (F := F) m ρ 0 c).arrAt_succ (2 : Fin 3) t₀
  rw [flush0_2 t₀, if_pos rfl] at hs
  have hN : cfg0.N = t₀.val + 1 := by decide
  rw [hN, hs]
  generalize (dats (F := F) m ρ 0 c).arrAt (2 : Fin 3) t₀.val = A0
  have h1 := View.read_write_univ (v := ((cfg0.win (2 : Fin 3)).blk t₀).view) (Val := Elt F) A0 ((dats (F := F) m ρ 0 c).flushed (2 : Fin 3) t₀)
  have h2 := Memref.read_access_unit_zero (Elt F) main_v1 (off := fun a => (cfg0.win (2 : Fin 3)).index t₀ a * (cfg0.win (2 : Fin 3)).size a)
    (by funext a; fin_cases a <;> rfl) (by decide)
    (((cfg0.win (2 : Fin 3)).blk t₀).view.write (Elt F) A0 ((dats (F := F) m ρ 0 c).flushed (2 : Fin 3) t₀) Finset.univ)
  exact h2.symm.trans h1

set_option maxRecDepth 8000 in
/-- From every device's body obligation: every weakly fair execution of @main on the eight devices terminates, each
    device's result array ends at its result term of what the devices were given, and the arguments end unchanged. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1)
          = Hand.result (fun d : Dev nD => m ((d.tc : Thread nD τ).loc main_arg0)) (m ((c.tc : Thread nD τ).loc main_arg1)) c
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (finalA_out m ρ c),
      ((h c).1 (0 : Fin 3)).trans (finalA_x m ρ c), ((h c).1 (1 : Fin 3)).trans (finalA_w m ρ c)⟩)

end Cert.KernelIdeal.Proto

end
-- ==== Proof.Shares.lean ====
/-
  Cutting a device's statistics buffer into its eight rows and a row's full share into the share a device keeps
  and the seven it lends to its copies, and back; every row is stated over ONE contents function, the gathered
  statistics, which agrees on row `s` with whatever holds device `s`'s statistics there.
-/
import proofs.«900777_g7700000000000778_dist_diff_noisepred_hshard_i_b2_h64_w64_c64_v7x_i8_f32_1_alg».proof.Proof.Rows

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The gathered statistics as the buffer's contents. -/
abbrev Gbuf : Vec F S8x4x64 .f32 := gathered (Xc m)

/-- A buffer held at a share is its eight rows held at that share, over the same contents: the rows are pairwise
    disjoint and make up the buffer. -/
theorem comm_rows (c : Dev nD) (q : PosShare TreeShare) (f : Buf (Elt F) ((c : Thread nD τ).loc cc0_scratch0)) :
    ((((c : Thread nD τ).loc cc0_scratch0) ↦{q} f) : sProp 𝕄) ⊣⊢ bigSep Finset.univ (fun s : Fin 8 => rowPts (F := F) c s q f) := by
  have hU : (Finset.univ : Finset (Fin 8)).biUnion (fun s => (rowM s).view.set)
      = (Finset.univ : Finset (Idx ((c : Thread nD τ).loc cc0_scratch0))) := row_union.trans comm_set
  have h := pointsTo_biUnion (nD := nD) (τ := τ) (sig := sig) (Ix := Unit) (Val := Elt F) (Name := ℕ) (U := UU) (Lvl := ℕ)
    (ℓ := (c : Thread nD τ).loc cc0_scratch0) (q := q) (f := f)
    (Finset.univ : Finset (Fin 8)) (fun s => (rowM s).view.set) (fun s _ s' _ hne => row_disjoint hne)
  rw [hU] at h
  rw [h]
  exact ⟨.refl, .refl⟩

/-- The share copy `k` holds: the left half of the rest after `k − 1` halvings, and for the last copy all that is left. -/
theorem sendSh_off0 : sendSh (off 0) = (restSh 0).left := rfl
theorem sendSh_off1 : sendSh (off 1) = (restSh 1).left := rfl
theorem sendSh_off2 : sendSh (off 2) = (restSh 2).left := rfl
theorem sendSh_off3 : sendSh (off 3) = (restSh 3).left := rfl
theorem sendSh_off4 : sendSh (off 4) = (restSh 4).left := rfl
theorem sendSh_off5 : sendSh (off 5) = (restSh 5).left := rfl
theorem sendSh_off6 : sendSh (off 6) = restSh 6 := rfl

omit [FloatOps F] in
/-- A row at a rest share is its left half and the next rest share. -/
theorem rest_eq (c : Dev nD) (s : Fin 8) (f : Buf (Elt F) ((rowM s).view.loc (c : Thread nD τ))) (n : ℕ) :
    rowPts (F := F) c s (restSh n) f
      = iprop(rowPts (F := F) c s (restSh n).left f ∗ rowPts (F := F) c s (restSh (n + 1)) f) := by
  unfold rowPts
  exact (pointsTo_share (rest_split n)).1.antisymm (pointsTo_share (rest_split n)).2

/-- A row held whole is the kept share and the seven lent ones: the full share is the kept half and the rest, and each
    rest its left half and the next. -/
theorem row_shares (c : Dev nD) (s : Fin 8) (f : Buf (Elt F) ((rowM s).view.loc (c : Thread nD τ))) :
    rowPts (F := F) c s fullShare f
      ⊣⊢ iprop(rowPts (F := F) c s keepSh f ∗ bigSep Finset.univ (fun j : Fin 7 => rowPts (F := F) c s (sendSh (off j)) f)) := by
  rw [bigSep_fin7, sendSh_off0, sendSh_off1, sendSh_off2, sendSh_off3, sendSh_off4, sendSh_off5, sendSh_off6,
    ← rest_eq c s f 5, ← rest_eq c s f 4, ← rest_eq c s f 3, ← rest_eq c s f 2, ← rest_eq c s f 1, ← rest_eq c s f 0]
  unfold rowPts; exact pointsTo_share full_split

/-- A row held whole is the kept share and all the rest. -/
theorem keep_rest (c : Dev nD) (s : Fin 8) (f : Buf (Elt F) ((rowM s).view.loc (c : Thread nD τ))) :
    rowPts (F := F) c s fullShare f ⊣⊢ iprop(rowPts (F := F) c s keepSh f ∗ rowPts (F := F) c s (restSh 0) f) := by
  unfold rowPts; exact pointsTo_share full_split

/-- Row `s` of the gathered statistics reads device `s`'s row of statistics. -/
theorem row_read_gathered (X : Dev nD → Vec F S2x64x64x64 .f32) (s : Fin 8) :
    (rowM s).view.read (Elt F) (gathered X) = statRow (X s) := by
  funext i
  obtain ⟨u, r, ch, rfl⟩ : ∃ (u : Fin 1) (r : Fin 4) (ch : Fin 64), i = Idealize.ShloMosaic.ValueIdx.ix3 u r ch :=
    ⟨i 0, i 1, i 2, Idealize.ShloMosaic.ValueIdx.eq_ix3 i⟩
  obtain rfl : u = 0 := Subsingleton.elim _ _
  rw [row_read_apply]
  rfl

/-- Row `s` of the gathered contents reads device `s`'s statistics. -/
theorem read_Gbuf (s : Fin 8) : (rowM s).view.read (Elt F) (Gbuf m) = statRow (Xc m s) := row_read_gathered (Xc m) s

/-- A row holding device `s`'s statistics is that row at the gathered contents: contents that read the same through
    the row agree on its elements. -/
theorem rowHas_canon (c : Dev nD) (s : Fin 8) (q : PosShare TreeShare) :
    rowHas (F := F) m c s q s ⊣⊢ rowPts (F := F) c s q (Gbuf m) := by
  have hG : (rowM s).view.read (Elt F) (Gbuf m) = statRow (Xc m s) := read_Gbuf m s
  unfold rowHas
  constructor
  · iintro ⟨%f, %hf, H⟩
    have e : rowPts (F := F) c s q f = rowPts (F := F) c s q (Gbuf m) := by
      unfold rowPts; exact pointsTo_congr (row_agree_of_read s (hf.trans hG.symm))
    rw [← e]; iexact H
  · iintro H
    iexists (Gbuf m)
    isplitr
    · ipureintro; exact hG
    · iexact H

/-- Over the eight rows: the device's own and the seven peers' (the seven other devices are the devices 1 … 7 places
    after `c`, each once). -/
theorem rows_peers (c : Dev nD) (Φ : Fin 8 → sProp 𝕄) :
    bigSep Finset.univ Φ ⊣⊢ iprop(Φ c ∗ bigSep Finset.univ (fun j : Fin 7 => Φ (peer c (off j)))) := by
  have hinj : Function.Injective (fun j : Fin 7 => peer c (off j)) := by
    intro a b h; revert h; revert a b; revert c; decide
  have hset : (Finset.univ.erase c : Finset (Fin 8)) = Finset.univ.map ⟨fun j : Fin 7 => peer c (off j), hinj⟩ := by
    ext d
    rw [Finset.mem_erase, Finset.mem_map]
    simp only [Finset.mem_univ, and_true, true_and, Function.Embedding.coeFn_mk]
    revert d; revert c; decide
  rw [bigSep_univ_at Φ c, hset, bigSep_map]
  exact ⟨.refl, .refl⟩

omit [FloatOps F] in
theorem rowAny_intro (c : Dev nD) (s : Fin 8) (f : Buf (Elt F) ((rowM s).view.loc (c : Thread nD τ))) :
    rowPts (F := F) c s fullShare f ⊢ rowAny (F := F) c s := by
  unfold rowAny; iintro H; iexists f; iexact H
/-- What a conditional receive wait on row `s` starts from: nothing for the device's own row, else the cell's
    invariant, its launch credit and the owner's position; -/
def recvRes (K : GSem nD τ sig → ℕ) (c : Dev nD) (s : Fin 8) : sProp 𝕄 :=
  if s = c then iprop(emp) else
    iprop(cellInv ER (Rd m) (K (recvCell c s)) (recvCell c s) ∗ cred (tallyAt (recvCell c s) () N) ∗ atPos ER (recvCell c s) 0 ∅ 0)
/-- and what it ends with: nothing, else the row at the gathered contents and the cell's round over. -/
def recvGot (c : Dev nD) (s : Fin 8) : sProp 𝕄 :=
  if s = c then iprop(emp) else iprop(rowPts (F := F) c s fullShare (Gbuf m) ∗ atPos ER (recvCell c s) 1 ∅ 0)

/-- The seven receive cells' resources listed by row. -/
theorem recvRes_intro (K : GSem nD τ sig → ℕ) (c : Dev nD) :
    iprop((bigSep Finset.univ fun j : Fin 7 => cellInv ER (Rd m) (K (recvCell c (peer c (off j)))) (recvCell c (peer c (off j))))
        ∗ (bigSep Finset.univ fun j : Fin 7 => cred (tallyAt (recvCell c (peer c (off j))) () N))
        ∗ (bigSep Finset.univ fun j : Fin 7 => atPos ER (recvCell c (peer c (off j))) 0 ∅ 0))
      ⊢ bigSep Finset.univ (fun s : Fin 8 => recvRes m K c s) := by
  refine BIBase.Entails.trans ?_ (rows_peers c (recvRes m K c)).2
  have hc : recvRes m K c c = iprop(emp) := by unfold recvRes; exact if_pos rfl
  have hp : ∀ j : Fin 7, recvRes m K c (peer c (off j))
      = iprop(cellInv ER (Rd m) (K (recvCell c (peer c (off j)))) (recvCell c (peer c (off j)))
          ∗ cred (tallyAt (recvCell c (peer c (off j))) () N) ∗ atPos ER (recvCell c (peer c (off j))) 0 ∅ 0) :=
    fun j => by unfold recvRes; exact if_neg (peer_ne c (off j) (off_ne j))
  rw [hc, bigSep_congr (fun j _ => hp j), bigSep_sep', bigSep_sep']
  exact BIClass.emp_sep.2

theorem recvGot_elim (c : Dev nD) :
    bigSep Finset.univ (fun s : Fin 8 => recvGot (F := F) m c s)
      ⊢ iprop((bigSep Finset.univ fun j : Fin 7 => rowPts (F := F) c (peer c (off j)) fullShare (Gbuf m))
          ∗ (bigSep Finset.univ fun j : Fin 7 => atPos ER (recvCell c (peer c (off j))) 1 ∅ 0)) := by
  refine BIBase.Entails.trans (rows_peers c (recvGot m c)).1 ?_
  have hc : recvGot m c c = iprop(emp) := by unfold recvGot; exact if_pos rfl
  have hp : ∀ j : Fin 7, recvGot m c (peer c (off j))
      = iprop(rowPts (F := F) c (peer c (off j)) fullShare (Gbuf m) ∗ atPos ER (recvCell c (peer c (off j))) 1 ∅ 0) :=
    fun j => by unfold recvGot; exact if_neg (peer_ne c (off j) (off_ne j))
  rw [hc, bigSep_congr (fun j _ => hp j), bigSep_sep']
  exact BIClass.emp_sep.1

end Cert.KernelIdeal.Proto

end
-- ==== Proof.Steps.lean ====
/-
  The exchange's steps on one device, each as the rule the body proof applies: a signal to a peer's barrier
  handing it a row, the barrier wait that brings the device its row on every peer, a copy of the device's
  statistics row into a peer, the wait for a row to land (taken only for another device's row), the wait for a
  copy to have left, and a finished cell closed.
-/
import proofs.«900777_g7700000000000778_dist_diff_noisepred_hshard_i_b2_h64_w64_c64_v7x_i8_f32_1_alg».proof.Proof.Shares
import proofs.«900777_g7700000000000778_dist_diff_noisepred_hshard_i_b2_h64_w64_c64_v7x_i8_f32_1_alg».proof.Proof.Rows

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

variable (K : GSem nD τ sig → ℕ)

/-- Signal `j`: one unit to `peer c (off j)`'s barrier cell, duty `c`, handing over that peer's row of `c`'s buffer. -/
theorem step_signal (c n : Dev nD) (j : Fin 7) (hn : n = peer c (off j)) {α : Type} {Q : α → sProp 𝕄}
    {k : PUnit → Prog (TpuEff nD τ sig (Elt F) Λ₀ .tc) α} (O : CellTallies nD τ sig Unit) (W : Waits sig Unit) :
    iprop(cellInv ER (Rd m) (K (barCell (peer c (off j)))) (barCell (peer c (off j)))
        ∗ owes (c : Thread nD τ) (O + tallyAt (barCell (peer c (off j))) () 1) W
        ∗ dutyTok ER (barCell (peer c (off j))) 0 c
        ∗ rowAny (F := F) c (peer c (off j))
        ∗ reached ER (barCell (peer c (off j))) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32).toNat) k) Q) := by
  subst hn
  exact Rounds.wp_signal 𝒱₀ ER (Rd m) (c : Thread nD τ) none (dst := (peer c (off j) : Thread nD τ)) (sem := barS)
    (κ := K (barCell (peer c (off j)))) (r := 0) (d := c)
    (by rw [duties_bar]; exact Finset.mem_erase.mpr ⟨(peer_ne c (off j) (off_ne j)).symm, Finset.mem_univ _⟩)
    ((amount_bar m (peer c (off j)) c).trans (by decide)) () O rfl

/-- The barrier wait for seven units, owing the row credits: the device's row on every peer comes with it. -/
theorem step_barwait (c : Dev nD) {α : Type} {Q : α → sProp 𝕄}
    {k : PUnit → Prog (TpuEff nD τ sig (Elt F) Λ₀ .tc) α} (W : Waits sig Unit) :
    iprop(cellInv ER (Rd m) (K (barCell c)) (barCell c) ∗ cred (tallyAt (barCell c) () 7)
        ∗ owes (c : Thread nD τ) (recvTail c 0) W ∗ levAts L lv ∗ atPos ER (barCell c) 0 ∅ 0)
      ⊢ iprop(((owes (c : Thread nD τ) (recvTail c 0) (insert (SemLoc.reg barS, ()) W)
              ∗ bigSep Finset.univ (fun j : Fin 7 => rowAny (F := F) (peer c (off j)) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  iintro ⟨#HI, Hc, HO, #Hlev, Hat⟩ Hk
  iapply (Rounds.wp_wait_rest_token 𝒱₀ ER (Rd m) (c : Thread nD τ) none (κ := K (barCell c))
      (wpE_semWait_eq 𝒱₀ (c : Thread nD τ) none Set.univ) (Set.mem_univ _) () (O := recvTail c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  iapply Hk
  isplitl [HO]; · iexact HO
  iapply (rest_bar m c).1
  iexact Hpay

/-- Copy `j`: the device's row at the gathered contents, on its lent share, into its row on `peer c (off j)`. -/
theorem step_send (c n : Dev nD) (j : Fin 7) (hn : n = peer c (off j))
    {hsc : (rowM c : Memref sig (Dev.tc n : Thread nD τ).2.kind .vmem S1x4x64 .f32).view.ref.isScScratch = false}
    {hsrc : (rowM c : Memref sig .tc .vmem S1x4x64 .f32).view.WordExact} {hdst : (rowM c : Memref sig .tc .vmem S1x4x64 .f32).view.WordExact}
    {hsem : DmaTarget.Typed .vmem (.dma (recvSem c)) (.remote (Dev.tc n : Thread nD τ) (rowM c : Memref sig .tc .vmem S1x4x64 .f32) (.dma (sendSem (off j))) hsc)}
    {α : Type} {Q : α → sProp 𝕄} {k : PUnit → Prog (TpuEff nD τ sig (Elt F) Λ₀ .tc) α}
    (O : CellTallies nD τ sig Unit) (W : Waits sig Unit) :
    iprop(cellInv ER (Rd m) (K (sendCell c (off j))) (sendCell c (off j))
        ∗ cellInv ER (Rd m) (K (recvCell (peer c (off j)) c)) (recvCell (peer c (off j)) c)
        ∗ rowPts (F := F) c c (sendSh (off j)) (Gbuf m) ∗ rowAny (F := F) (peer c (off j)) c
        ∗ owes (c : Thread nD τ) (O + tallyAt (recvCell (peer c (off j)) c) () N) W
        ∗ dutyTok ER (sendCell c (off j)) 0 (0 : Fin 8) ∗ reached ER (sendCell c (off j)) 0
        ∗ dutyTok ER (recvCell (peer c (off j)) c) 0 (0 : Fin 8) ∗ reached ER (recvCell (peer c (off j)) c) 0)
      ⊢ iprop(((cred (tallyAt (sendCell c (off j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sendSem (off j))) hsc) (.dma (recvSem c)) hsrc hdst hsem) k) Q) := by
  subst hn
  unfold rowAny
  iintro ⟨#HI1, #HI2, Hsrc, ⟨%fd, Hdst⟩, HO, Ht1, #Hr1, Ht2, #Hr2⟩
  unfold rowPts
  iapply (Rounds.wp_send_pointsTo 𝒱₀ ER (Rd m) (c : Thread nD τ) none (c' := (peer c (off j) : Thread nD τ))
      (src := rowM c) (dst := rowM c) (q := sendSh (off j)) (fs := Gbuf m) (fd := fd)
      (κ₁ := K (sendCell c (off j))) (κ₂ := K (recvCell (peer c (off j)) c)) (r₁ := 0) (r₂ := 0) (d₁ := 0) (d₂ := 0)
      (by rw [duties_send m c (off j) (off_ne j)]; exact Finset.mem_singleton_self _)
      (by rw [duties_recv m (peer c (off j)) c (peer_ne c (off j) (off_ne j)).symm]; exact Finset.mem_singleton_self _)
      () () N (row_amount c (recvSem c)) (amount_send m c (off j) 0) (amount_recv m (peer c (off j)) c 0) O rfl (W := W)
      (by rw [payload_send m c (off j) (off_ne j)]; exact (rowHas_canon m c c (sendSh (off j))).2)
      (by
        rw [payload_recv, pointsTo_congr (row_agree_of_read c (landing_read c fd (Gbuf m)))]
        exact (rowHas_canon m (peer c (off j)) c fullShare).2)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2

/-- The wait for row `s` to land, taken when `s` is another device's row (`b` is the printed condition). -/
theorem step_recv_cond (c : Dev nD) (s : Fin 8) (b : BitVec 1) (hb : b = 1#1 ↔ s ≠ c)
    {hsrc : (rowM s : Memref sig .tc .vmem S1x4x64 .f32).view.WordExact} {hdst : (rowM s : Memref sig .tc .vmem S1x4x64 .f32).view.WordExact}
    {α : Type} {Q : α → sProp 𝕄} (R : Prog (TpuEff nD τ sig (Elt F) Λ₀ .tc) α) :
    iprop(recvRes m K c s ∗ ∃ W, owes (c : Thread nD τ) 0 W)
      ⊢ iprop(((recvGot (F := F) m c s ∗ ∃ W, owes (c : Thread nD τ) 0 W)
            -∗ wp frame (wpE (defs₀ (F := F)) 𝒱₀ (c : Thread nD τ) none) Set.univ R Q)
          -∗ wp frame (wpE (defs₀ (F := F)) 𝒱₀ (c : Thread nD τ) none) Set.univ
              (if h : b = 1#1 then .op (.waitDma2 (recvSem s) (rowM s) (rowM s) hsrc hdst) (fun _ => R) else R) Q) := by
  by_cases hs : s = c
  · rw [dif_neg (fun h => (hb.mp h) hs)]
    unfold recvRes recvGot; rw [if_pos hs, if_pos hs]
    iintro ⟨-, HO⟩ Hk
    iapply Hk
    isplitr; · iempintro
    iexact HO
  · rw [dif_pos (hb.mpr hs)]
    unfold recvRes recvGot; rw [if_neg hs, if_neg hs, ← row_credit s]
    iintro ⟨⟨#HI, Hc, Hat⟩, ⟨%W, HO⟩⟩ Hk
    iapply (Rounds.wp_wait_rest_token 𝒱₀ ER (Rd m) (c : Thread nD τ) none (κ := K (recvCell c s))
        (wpE_waitDma2_eq 𝒱₀ (c : Thread nD τ) none Set.univ) (Set.mem_univ _) () (O := 0) (W := W) (R := 0) (m := 0) (T := ∅)
        (by rw [Nat.zero_add, expect_recv m c s hs])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv m c s hs)) $$ Hpay
    ihave Hq := (rowHas_canon m c s fullShare).1 $$ Hp
    iapply Hk
    isplitr [HO]
    · isplitl [Hq]; · iexact Hq
      iexact Hat
    · iexists _; iexact HO

/-- The wait for copy `j` to have left: the lent share of the row comes back. -/
theorem step_sendwait (c : Dev nD) (j : Fin 7)
    {hsrc : (rowM c : Memref sig .tc .vmem S1x4x64 .f32).view.WordExact} {hdst : (rowM c : Memref sig .tc .vmem S1x4x64 .f32).view.WordExact}
    {α : Type} {Q : α → sProp 𝕄} {k : PUnit → Prog (TpuEff nD τ sig (Elt F) Λ₀ .tc) α} :
    iprop(cellInv ER (Rd m) (K (sendCell c (off j))) (sendCell c (off j)) ∗ cred (tallyAt (sendCell c (off j)) () N)
        ∗ (∃ W, owes (c : Thread nD τ) 0 W) ∗ atPos ER (sendCell c (off j)) 0 ∅ 0)
      ⊢ iprop((((∃ W, owes (c : Thread nD τ) 0 W) ∗ atPos ER (sendCell c (off j)) 1 ∅ 0 ∗ rowPts (F := F) c c (sendSh (off j)) (Gbuf m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem (off j)) (rowM c) (rowM c) hsrc hdst) k) Q) := by
  rw [← row_credit c]
  iintro ⟨#HI, Hc, ⟨%W, HO⟩, Hat⟩ Hk
  iapply (Rounds.wp_wait_rest_token 𝒱₀ ER (Rd m) (c : Thread nD τ) none (κ := K (sendCell c (off j)))
      (wpE_waitDma2_eq 𝒱₀ (c : Thread nD τ) none Set.univ) (Set.mem_univ _) () (O := 0) (W := W) (R := 0) (m := 0) (T := ∅)
      (by rw [Nat.zero_add, expect_send m c (off j) (off_ne j)])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c (off j) (off_ne j))) $$ Hpay
  ihave Hq := (rowHas_canon m c c (sendSh (off j))).1 $$ Hp
  iapply Hk
  isplitl [HO]; · iexists _; iexact HO
  isplitl [Hat]; · iexact Hat
  iexact Hq

/-- A send or receive cell whose one round is over closes: its counter at zero is the device's again. -/
theorem close_send (c : Dev nD) (j : Fin 7) :
    iprop(cellInv ER (Rd m) (K (sendCell c (off j))) (sendCell c (off j)) ∗ atPos ER (sendCell c (off j)) 1 ∅ 0)
      ⊢ iprop(|={Set.univ}=> semVal (sendCell c (off j)) 0) :=
  Rounds.cell_close ER (Rd m) (Set.mem_univ (K (sendCell c (off j)))) (fun h => h) (R := 1) (duties_later m (sendCell c (off j)))
theorem close_recv (c : Dev nD) (j : Fin 7) :
    iprop(cellInv ER (Rd m) (K (recvCell c (peer c (off j)))) (recvCell c (peer c (off j))) ∗ atPos ER (recvCell c (peer c (off j))) 1 ∅ 0)
      ⊢ iprop(|={Set.univ}=> semVal (recvCell c (peer c (off j))) 0) :=
  Rounds.cell_close ER (Rd m) (Set.mem_univ (K (recvCell c (peer c (off j))))) (fun h => h) (R := 1)
    (duties_later m (recvCell c (peer c (off j))))

end Cert.KernelIdeal.Proto

end
-- ==== Proof.Joins.lean ====
/-
  The statistics buffer put together for the read of all eight rows at the share a device keeps of its own, and
  put together whole again at the end; and the sixteen own semaphores listed.
-/
import proofs.«900777_g7700000000000778_dist_diff_noisepred_hshard_i_b2_h64_w64_c64_v7x_i8_f32_1_alg».proof.Proof.Shares

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The device's own row at its kept share and the seven other rows held whole are the whole buffer at the kept
    share and what is left of the seven other rows. -/
theorem keep_all (c : Dev nD) :
    iprop(rowPts (F := F) c c keepSh (Gbuf m) ∗ bigSep Finset.univ (fun j : Fin 7 => rowPts (F := F) c (peer c (off j)) fullShare (Gbuf m)))
      ⊣⊢ iprop(((((c : Thread nD τ).loc cc0_scratch0) ↦{keepSh} (Gbuf m)) : sProp 𝕄)
          ∗ bigSep Finset.univ (fun j : Fin 7 => rowPts (F := F) c (peer c (off j)) (restSh 0) (Gbuf m))) := by
  have hk : ∀ j : Fin 7, rowPts (F := F) c (peer c (off j)) fullShare (Gbuf m)
      = iprop(rowPts (F := F) c (peer c (off j)) keepSh (Gbuf m) ∗ rowPts (F := F) c (peer c (off j)) (restSh 0) (Gbuf m)) :=
    fun j => (keep_rest c (peer c (off j)) (Gbuf m)).1.antisymm (keep_rest c (peer c (off j)) (Gbuf m)).2
  have hR := (rows_peers c (fun s => rowPts (F := F) c s keepSh (Gbuf m))).1.antisymm
    (rows_peers c (fun s => rowPts (F := F) c s keepSh (Gbuf m))).2
  have hC := (comm_rows c keepSh (Gbuf m)).1.antisymm (comm_rows c keepSh (Gbuf m)).2
  rw [bigSep_congr (fun j _ => hk j), bigSep_sep', hC, hR]
  exact ⟨Laws.sep_assoc.2, Laws.sep_assoc.1⟩

/-- Every share of every row back: the buffer whole. -/
theorem comm_restore (c : Dev nD) :
    iprop(rowPts (F := F) c c keepSh (Gbuf m) ∗ bigSep Finset.univ (fun j : Fin 7 => rowPts (F := F) c c (sendSh (off j)) (Gbuf m))
        ∗ bigSep Finset.univ (fun j : Fin 7 => rowPts (F := F) c (peer c (off j)) fullShare (Gbuf m)))
      ⊢ iprop(∃ f, commPts (F := F) c f) := by
  have hS := (row_shares c c (Gbuf m)).1.antisymm (row_shares c c (Gbuf m)).2
  have hR := (rows_peers c (fun s => rowPts (F := F) c s fullShare (Gbuf m))).1.antisymm
    (rows_peers c (fun s => rowPts (F := F) c s fullShare (Gbuf m))).2
  have hC := (comm_rows c fullShare (Gbuf m)).1.antisymm (comm_rows c fullShare (Gbuf m)).2
  refine BIBase.Entails.trans Laws.sep_assoc.2 ?_
  rw [← hS, ← hR, ← hC]
  iintro H
  iexists (Gbuf m)
  unfold commPts
  iexact H

omit [FloatOps F] in
/-- The eight send semaphores at zero: the unused one and the seven closed cells'. -/
theorem sems_all_send (c : Dev nD) :
    iprop(semVal (sendCell c 0) 0 ∗ bigSep Finset.univ (fun j : Fin 7 => semVal (sendCell c (off j)) 0))
      ⊢ (bigSep Finset.univ (fun k : Fin 8 => semVal (sendCell c k) 0) : sProp 𝕄) := by
  rw [bigSep_fin8, bigSep_fin7]
  exact .rfl

/-- The eight receive semaphores at zero: the unused one (the device's own row's) and the seven closed cells'. -/
theorem sems_all_recv (c : Dev nD) :
    iprop(semVal (recvCell c c) 0 ∗ bigSep Finset.univ (fun j : Fin 7 => semVal (recvCell c (peer c (off j))) 0))
      ⊢ (bigSep Finset.univ (fun s : Fin 8 => semVal (recvCell c s) 0) : sProp 𝕄) :=
  (rows_peers c (fun s => semVal (recvCell c s) 0)).2

end Cert.KernelIdeal.Proto

end
-- ==== Proof.Body.lean ====
/-
  One device's body, stepped from what the launch hands it to what it hands back: the seven signals, the block's
  statistics written into the device's own row, the barrier wait, the seven copies of that row, the waits for the
  seven other rows, the whole buffer read at the gathered statistics, the result stored, the copies awaited, the
  cells closed and the buffer put together again.
-/
import proofs.«900777_g7700000000000778_dist_diff_noisepred_hshard_i_b2_h64_w64_c64_v7x_i8_f32_1_alg».proof.Proof.Steps
import proofs.«900777_g7700000000000778_dist_diff_noisepred_hshard_i_b2_h64_w64_c64_v7x_i8_f32_1_alg».proof.Proof.Rows
import proofs.«900777_g7700000000000778_dist_diff_noisepred_hshard_i_b2_h64_w64_c64_v7x_i8_f32_1_alg».proof.Proof.Joins

noncomputable section

namespace Cert.KernelIdeal.Proto

open Cert.KernelIdeal Cert.KernelIdeal.Gen Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

variable (K : GSem nD τ sig → ℕ)

omit [FloatOps F] in
theorem fam_elim (Φ : Fin 7 → sProp 𝕄) (j : Fin 7) : bigSep Finset.univ Φ ⊢ Φ j := bigSep_elim (Finset.mem_univ j)

/-! ## The persistent families, one member at a time -/

theorem invs_bar (c : Dev nD) : invs m K c ⊢ cellInv ER (Rd m) (K (barCell c)) (barCell c) := by
  unfold invs; iintro ⟨H0, -⟩; iexact H0
theorem invs_send (c : Dev nD) (j : Fin 7) : invs m K c ⊢ cellInv ER (Rd m) (K (sendCell c (off j))) (sendCell c (off j)) := by
  unfold invs; iintro ⟨-, H, -⟩; iapply (fam_elim (F := F) (fun j : Fin 7 => cellInv ER (Rd m) (K (sendCell c (off j))) (sendCell c (off j))) j); iexact H
theorem invs_recv (c : Dev nD) (j : Fin 7) :
    invs m K c ⊢ cellInv ER (Rd m) (K (recvCell c (peer c (off j)))) (recvCell c (peer c (off j))) := by
  unfold invs; iintro ⟨-, -, H, -⟩; iapply (fam_elim (F := F) (fun j : Fin 7 => cellInv ER (Rd m) (K (recvCell c (peer c (off j)))) (recvCell c (peer c (off j)))) j); iexact H
theorem invs_recv_all (c : Dev nD) :
    invs m K c ⊢ bigSep Finset.univ fun j : Fin 7 => cellInv ER (Rd m) (K (recvCell c (peer c (off j)))) (recvCell c (peer c (off j))) := by
  unfold invs; iintro ⟨-, -, H, -⟩; iexact H
theorem invs_pbar (c : Dev nD) (j : Fin 7) :
    invs m K c ⊢ cellInv ER (Rd m) (K (barCell (peer c (off j)))) (barCell (peer c (off j))) := by
  unfold invs; iintro ⟨-, -, -, H, -⟩; iapply (fam_elim (F := F) (fun j : Fin 7 => cellInv ER (Rd m) (K (barCell (peer c (off j)))) (barCell (peer c (off j)))) j); iexact H
theorem invs_precv (c : Dev nD) (j : Fin 7) :
    invs m K c ⊢ cellInv ER (Rd m) (K (recvCell (peer c (off j)) c)) (recvCell (peer c (off j)) c) := by
  unfold invs; iintro ⟨-, -, -, -, H⟩; iapply (fam_elim (F := F) (fun j : Fin 7 => cellInv ER (Rd m) (K (recvCell (peer c (off j)) c)) (recvCell (peer c (off j)) c)) j); iexact H

omit [FloatOps F] in
theorem reacheds_send (c : Dev nD) (j : Fin 7) : reacheds (F := F) c ⊢ reached ER (sendCell c (off j)) 0 := by
  unfold reacheds; iintro ⟨-, H, -⟩; iapply (fam_elim (F := F) (fun j : Fin 7 => reached ER (sendCell c (off j)) 0) j); iexact H
omit [FloatOps F] in
theorem reacheds_pbar (c : Dev nD) (j : Fin 7) : reacheds (F := F) c ⊢ reached ER (barCell (peer c (off j))) 0 := by
  unfold reacheds; iintro ⟨-, -, -, H, -⟩; iapply (fam_elim (F := F) (fun j : Fin 7 => reached ER (barCell (peer c (off j))) 0) j); iexact H
omit [FloatOps F] in
theorem reacheds_precv (c : Dev nD) (j : Fin 7) : reacheds (F := F) c ⊢ reached ER (recvCell (peer c (off j)) c) 0 := by
  unfold reacheds; iintro ⟨-, -, -, -, H⟩; iapply (fam_elim (F := F) (fun j : Fin 7 => reached ER (recvCell (peer c (off j)) c) 0) j); iexact H

omit [FloatOps F] in
theorem hz4 : (![0, 0, 0, 0] : Fin 4 → Nat) = fun _ => 0 := funext fun a => by fin_cases a <;> rfl
omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- A whole buffer read through its whole rectangle is its contents, and stored through it becomes what is stored. -/
theorem read_x (f : (cc0_stg0_0 : Ref sig .tc).ty.Contents (Elt F)) :
    (Memref.whole cc0_stg0_0 : Memref sig .tc .vmem S2x64x64x64 .f32).view.readAt (Elt F)
      (Rect.unit (s := S2x64x64x64) ![0, 0, 0, 0] S2x64x64x64.size inb_S2x64x64x64_S2x64x64x64_0_0_0_0).toLoadRect f = f :=
  Memref.readAt_unit_zero (Elt F) cc0_stg0_0 hz4 _ f
theorem read_w (f : (cc0_stg1_0 : Ref sig .tc).ty.Contents (Elt F)) :
    (Memref.whole cc0_stg1_0 : Memref sig .tc .vmem S64x128 .f32).view.readAt (Elt F)
      (Rect.unit (s := S64x128) ![0, 0] S64x128.size inb_S64x128_S64x128_0_0).toLoadRect f = f :=
  Memref.readAt_unit_zero (Elt F) cc0_stg1_0 hz2 _ f
theorem read_comm (f : (cc0_scratch0 : Ref sig .tc).ty.Contents (Elt F)) :
    (Memref.whole cc0_scratch0 : Memref sig .tc .vmem S8x4x64 .f32).view.readAt (Elt F)
      (Rect.unit (s := S8x4x64) ![0, 0, 0] S8x4x64.size inb_S8x4x64_S8x4x64_0_0_0).toLoadRect f = f :=
  Memref.readAt_unit_zero (Elt F) cc0_scratch0 hz3 _ f
theorem write_out (f w : (cc0_stg2_0 : Ref sig .tc).ty.Contents (Elt F)) :
    ((Memref.whole cc0_stg2_0 : Memref sig .tc .vmem S2x64x64x128 .f32).access
        (Rect.unit (s := S2x64x64x128) ![0, 0, 0, 0] S2x64x64x128.size inb_S2x64x64x128_S2x64x64x128_0_0_0_0) : View sig .tc _ _ _).write (Elt F) f w Finset.univ = w :=
  Memref.write_access_unit_zero_univ (Elt F) cc0_stg2_0 hz4 _ f w

omit [FloatOps F] in
/-- A row's points-to, at the buffer's own location. -/
theorem rowPts_loc (c : Dev nD) (s : Fin 8) (q : PosShare TreeShare) (f : CommBuf F) :
    rowPts (F := F) c s q f = ((((c : Thread nD τ).loc cc0_scratch0) ↦[(rowM s).view.set]{q} f) : sProp 𝕄) := rfl

/-- The device's own row, once its statistics are stored in it, is that row at the gathered contents. -/
theorem own_canon (c : Dev nD) (f : CommBuf F) (h : (rowM c).view.read (Elt F) f = statRow (Xc m c)) :
    ((((c : Thread nD τ).loc cc0_scratch0) ↦[(rowM c).view.set]{fullShare} f) : sProp 𝕄) ⊢ rowPts (F := F) c c fullShare (Gbuf m) := by
  rw [rowPts_loc]
  exact Entails.of_eq (pointsTo_congr (row_agree_of_read (F := F) c (h.trans (read_Gbuf m c).symm)))

omit [FloatOps F] in
theorem owes_any (c : Dev nD) (W : Waits sig Unit) :
    (owes (c : Thread nD τ) 0 W : sProp 𝕄) ⊢ iprop(∃ W', owes (c : Thread nD τ) 0 W') := by
  iintro H; iexists W; iexact H

/-- The printed condition of the wait for row `s`: the device is not `s`. -/
theorem cond_iff (c : Dev nD) (s : Fin 8) :
    Scalar.cmpi CmpIPredicate.ne (Scalar.extui (Scalar.cmpi CmpIPredicate.ne (Scalar.remsi (Scalar.divsi (Dev.word c) 1#32) 8#32) (BitVec.ofNat 32 s.val))) 0#32 = 1#1
      ↔ s ≠ c := by
  revert c s; decide

theorem owes_bar_step (c : Dev nD) (j : Fin 7) :
    recvTail c 0 + barTail c j.val = (recvTail c 0 + barTail c (j.val + 1)) + tallyAt (barCell (peer c (off j))) () 1 := by
  rw [barTail_step c j, add_assoc]
theorem owes_recv_step (c : Dev nD) (j : Fin 7) :
    recvTail c j.val = recvTail c (j.val + 1) + tallyAt (recvCell (peer c (off j)) c) () N := recvTail_step c j

set_option maxRecDepth 65536 in
set_option maxHeartbeats 3200000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  simp only [row_slice c, row_slice_lit0, row_slice_lit1, row_slice_lit2, row_slice_lit3, row_slice_lit4, row_slice_lit5, row_slice_lit6, row_slice_lit7,
    send_sem1, send_sem2, send_sem3, send_sem4, send_sem5, send_sem6, send_sem7,
    recv_sem0, recv_sem1, recv_sem2, recv_sem3, recv_sem4, recv_sem5, recv_sem6, recv_sem7, recv_sem c]
  unfold bodyPre ghost
  iintro ⟨⟨⟨⟨#HI, #HR, HaB, HaS, HaR, HtB, HtR, HtS⟩, HcB, HcR, #Hlev, Hz0, Hzc, ⟨%f0, Hcomm⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t₀)]; rfl
  have hw : g1 = wstg m c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  unfold O₀
  ihave HaS' := (Entails.of_eq (bigSep_fin7 _)) $$ HaS
  icases HaS' with ⟨As1, As2, As3, As4, As5, As6, As7⟩
  ihave HtB' := (Entails.of_eq (bigSep_fin7 _)) $$ HtB
  icases HtB' with ⟨Tb1, Tb2, Tb3, Tb4, Tb5, Tb6, Tb7⟩
  ihave HtR' := (Entails.of_eq (bigSep_fin7 _)) $$ HtR
  icases HtR' with ⟨Tr1, Tr2, Tr3, Tr4, Tr5, Tr6, Tr7⟩
  ihave HtS' := (Entails.of_eq (bigSep_fin7 _)) $$ HtS
  icases HtS' with ⟨Ts1, Ts2, Ts3, Ts4, Ts5, Ts6, Ts7⟩
  -- the buffer cut into its rows: the device's own, and the seven it hands to the peers
  unfold commPts
  ihave Hrows := (comm_rows (F := F) c fullShare f0).1 $$ Hcomm
  ihave Hrows' := (rows_peers (F := F) c (fun s => rowPts (F := F) c s fullShare f0)).1 $$ Hrows
  icases Hrows' with ⟨Hown, Hpeers⟩
  ihave Hpeers' := (Entails.of_eq (bigSep_fin7 _)) $$ Hpeers
  icases Hpeers' with ⟨Rp1, Rp2, Rp3, Rp4, Rp5, Rp6, Rp7⟩
  -- signal 1: one unit to `peer c (off 0)`'s barrier, handing it its row of this buffer
  have hb0 : recvTail c 0 + barTail c 0 = (recvTail c 0 + barTail c 1) + tallyAt (barCell (peer c (off 0))) () 1 := owes_bar_step c (0 : Fin 7)
  ihave HO := (Entails.of_eq (congrArg (fun O => owes (c : Thread nD τ) O W) hb0)) $$ HO
  ihave Hrow := (rowAny_intro (F := F) c (peer c (off 0)) f0) $$ Rp1
  iapply (step_signal m K c _ (0 : Fin 7) (dev1_eq c) (recvTail c 0 + barTail c 1) W) $$ [HO Tb1 Hrow]
  · isplitr; · iapply (invs_pbar m K c (0 : Fin 7)); iexact HI
    isplitl [HO]; · iexact HO
    isplitl [Tb1]; · iexact Tb1
    isplitl [Hrow]; · iexact Hrow
    iapply (reacheds_pbar (F := F) c (0 : Fin 7)); iexact HR
  iintro HO
  -- signal 2: one unit to `peer c (off 1)`'s barrier, handing it its row of this buffer
  have hb1 : recvTail c 0 + barTail c 1 = (recvTail c 0 + barTail c 2) + tallyAt (barCell (peer c (off 1))) () 1 := owes_bar_step c (1 : Fin 7)
  ihave HO := (Entails.of_eq (congrArg (fun O => owes (c : Thread nD τ) O W) hb1)) $$ HO
  ihave Hrow := (rowAny_intro (F := F) c (peer c (off 1)) f0) $$ Rp2
  iapply (step_signal m K c _ (1 : Fin 7) (dev2_eq c) (recvTail c 0 + barTail c 2) W) $$ [HO Tb2 Hrow]
  · isplitr; · iapply (invs_pbar m K c (1 : Fin 7)); iexact HI
    isplitl [HO]; · iexact HO
    isplitl [Tb2]; · iexact Tb2
    isplitl [Hrow]; · iexact Hrow
    iapply (reacheds_pbar (F := F) c (1 : Fin 7)); iexact HR
  iintro HO
  -- signal 3: one unit to `peer c (off 2)`'s barrier, handing it its row of this buffer
  have hb2 : recvTail c 0 + barTail c 2 = (recvTail c 0 + barTail c 3) + tallyAt (barCell (peer c (off 2))) () 1 := owes_bar_step c (2 : Fin 7)
  ihave HO := (Entails.of_eq (congrArg (fun O => owes (c : Thread nD τ) O W) hb2)) $$ HO
  ihave Hrow := (rowAny_intro (F := F) c (peer c (off 2)) f0) $$ Rp3
  iapply (step_signal m K c _ (2 : Fin 7) (dev3_eq c) (recvTail c 0 + barTail c 3) W) $$ [HO Tb3 Hrow]
  · isplitr; · iapply (invs_pbar m K c (2 : Fin 7)); iexact HI
    isplitl [HO]; · iexact HO
    isplitl [Tb3]; · iexact Tb3
    isplitl [Hrow]; · iexact Hrow
    iapply (reacheds_pbar (F := F) c (2 : Fin 7)); iexact HR
  iintro HO
  -- signal 4: one unit to `peer c (off 3)`'s barrier, handing it its row of this buffer
  have hb3 : recvTail c 0 + barTail c 3 = (recvTail c 0 + barTail c 4) + tallyAt (barCell (peer c (off 3))) () 1 := owes_bar_step c (3 : Fin 7)
  ihave HO := (Entails.of_eq (congrArg (fun O => owes (c : Thread nD τ) O W) hb3)) $$ HO
  ihave Hrow := (rowAny_intro (F := F) c (peer c (off 3)) f0) $$ Rp4
  iapply (step_signal m K c _ (3 : Fin 7) (dev4_eq c) (recvTail c 0 + barTail c 4) W) $$ [HO Tb4 Hrow]
  · isplitr; · iapply (invs_pbar m K c (3 : Fin 7)); iexact HI
    isplitl [HO]; · iexact HO
    isplitl [Tb4]; · iexact Tb4
    isplitl [Hrow]; · iexact Hrow
    iapply (reacheds_pbar (F := F) c (3 : Fin 7)); iexact HR
  iintro HO
  -- signal 5: one unit to `peer c (off 4)`'s barrier, handing it its row of this buffer
  have hb4 : recvTail c 0 + barTail c 4 = (recvTail c 0 + barTail c 5) + tallyAt (barCell (peer c (off 4))) () 1 := owes_bar_step c (4 : Fin 7)
  ihave HO := (Entails.of_eq (congrArg (fun O => owes (c : Thread nD τ) O W) hb4)) $$ HO
  ihave Hrow := (rowAny_intro (F := F) c (peer c (off 4)) f0) $$ Rp5
  iapply (step_signal m K c _ (4 : Fin 7) (dev5_eq c) (recvTail c 0 + barTail c 5) W) $$ [HO Tb5 Hrow]
  · isplitr; · iapply (invs_pbar m K c (4 : Fin 7)); iexact HI
    isplitl [HO]; · iexact HO
    isplitl [Tb5]; · iexact Tb5
    isplitl [Hrow]; · iexact Hrow
    iapply (reacheds_pbar (F := F) c (4 : Fin 7)); iexact HR
  iintro HO
  -- signal 6: one unit to `peer c (off 5)`'s barrier, handing it its row of this buffer
  have hb5 : recvTail c 0 + barTail c 5 = (recvTail c 0 + barTail c 6) + tallyAt (barCell (peer c (off 5))) () 1 := owes_bar_step c (5 : Fin 7)
  ihave HO := (Entails.of_eq (congrArg (fun O => owes (c : Thread nD τ) O W) hb5)) $$ HO
  ihave Hrow := (rowAny_intro (F := F) c (peer c (off 5)) f0) $$ Rp6
  iapply (step_signal m K c _ (5 : Fin 7) (dev6_eq c) (recvTail c 0 + barTail c 6) W) $$ [HO Tb6 Hrow]
  · isplitr; · iapply (invs_pbar m K c (5 : Fin 7)); iexact HI
    isplitl [HO]; · iexact HO
    isplitl [Tb6]; · iexact Tb6
    isplitl [Hrow]; · iexact Hrow
    iapply (reacheds_pbar (F := F) c (5 : Fin 7)); iexact HR
  iintro HO
  -- signal 7: one unit to `peer c (off 6)`'s barrier, handing it its row of this buffer
  have hb6 : recvTail c 0 + barTail c 6 = (recvTail c 0 + barTail c 7) + tallyAt (barCell (peer c (off 6))) () 1 := owes_bar_step c (6 : Fin 7)
  ihave HO := (Entails.of_eq (congrArg (fun O => owes (c : Thread nD τ) O W) hb6)) $$ HO
  ihave Hrow := (rowAny_intro (F := F) c (peer c (off 6)) f0) $$ Rp7
  iapply (step_signal m K c _ (6 : Fin 7) (dev7_eq c) (recvTail c 0 + barTail c 7) W) $$ [HO Tb7 Hrow]
  · isplitr; · iapply (invs_pbar m K c (6 : Fin 7)); iexact HI
    isplitl [HO]; · iexact HO
    isplitl [Tb7]; · iexact Tb7
    isplitl [Hrow]; · iexact Hrow
    iapply (reacheds_pbar (F := F) c (6 : Fin 7)); iexact HR
  iintro HO
  -- the staged block read
  iapply (wp_load 𝒱₀ (c : Thread nD τ) none Set.univ (m := (Memref.whole cc0_stg0_0 : Memref sig .tc .vmem S2x64x64x64 .f32)) (Finset.subset_univ _)) $$ Hx; iintro Hx
  rw [read_x]
  -- the two reads of the device's own row that nothing uses, and the two stores of its statistics into it
  ihave Hown := (Entails.of_eq (rowPts_loc (F := F) c c fullShare f0)) $$ Hown
  iapply (wp_load 𝒱₀ (c : Thread nD τ) none Set.univ (m := commM) (load1_subset c)) $$ Hown; iintro Hown
  iapply (wp_store 𝒱₀ (c : Thread nD τ) none Set.univ (m := commM) (r := Rect.unit (s := S8x4x64) (k0_off1 c) S1x2x64.size (k0_off1_inb c)) (Mk := Finset.univ) (store1_subset c)) $$ Hown; iintro Hown
  iapply (wp_load 𝒱₀ (c : Thread nD τ) none Set.univ (m := commM) (load2_subset c)) $$ Hown; iintro Hown
  iapply (wp_store 𝒱₀ (c : Thread nD τ) none Set.univ (m := commM) (r := Rect.unit (s := S8x4x64) (k0_off2 c) S1x2x64.size (k0_off2_inb c)) (Mk := Finset.univ) (store2_subset c)) $$ Hown; iintro Hown
  -- on its own row's elements the buffer now agrees with the gathered statistics
  ihave Hown := (own_canon m c _ ((stores_row (F := F) c f0 (xstg m c)).trans (congrArg statRow (xstg_eq m c)))) $$ Hown
  -- the barrier wait: seven units, owing the seven row credits; this device's row on every peer comes with it
  have hb7 : recvTail c 0 + barTail c 7 = recvTail c 0 := by rw [barTail_end, add_zero]
  ihave HO := (Entails.of_eq (congrArg (fun O => owes (c : Thread nD τ) O W) hb7)) $$ HO
  iapply (step_barwait m K c W) $$ [HcB HO HaB]
  · isplitr; · iapply (invs_bar m K c); iexact HI
    isplitl [HcB]; · iexact HcB
    isplitl [HO]; · iexact HO
    isplitr; · iexact Hlev
    iexact HaB
  iintro ⟨HO, Hmine⟩
  ihave Hmine' := (Entails.of_eq (bigSep_fin7 _)) $$ Hmine
  icases Hmine' with ⟨Rm1, Rm2, Rm3, Rm4, Rm5, Rm6, Rm7⟩
  -- the own row's share cut into the kept one and the seven lent to the copies
  ihave Hsh := (row_shares (F := F) c c (Gbuf m)).1 $$ Hown
  icases Hsh with ⟨Hkeep, Hlent⟩
  ihave Hlent' := (Entails.of_eq (bigSep_fin7 _)) $$ Hlent
  icases Hlent' with ⟨Sh1, Sh2, Sh3, Sh4, Sh5, Sh6, Sh7⟩
  -- copy 1: the row, on its lent share, into this device's row on `peer c (off 0)`
  have hr0 : recvTail c 0 = recvTail c 1 + tallyAt (recvCell (peer c (off 0)) c) () N := owes_recv_step c (0 : Fin 7)
  ihave HO := (Entails.of_eq (congrArg (fun O => owes (c : Thread nD τ) O (insert (SemLoc.reg barS, ()) W)) hr0)) $$ HO
  iapply (step_send m K c _ (0 : Fin 7) (dev8_eq c) (recvTail c 1) (insert (SemLoc.reg barS, ()) W)) $$ [Sh1 Rm1 HO Ts1 Tr1]
  · isplitr; · iapply (invs_send m K c (0 : Fin 7)); iexact HI
    isplitr; · iapply (invs_precv m K c (0 : Fin 7)); iexact HI
    isplitl [Sh1]; · iexact Sh1
    isplitl [Rm1]; · iexact Rm1
    isplitl [HO]; · iexact HO
    isplitl [Ts1]; · iexact Ts1
    isplitr; · iapply (reacheds_send (F := F) c (0 : Fin 7)); iexact HR
    isplitl [Tr1]; · iexact Tr1
    iapply (reacheds_precv (F := F) c (0 : Fin 7)); iexact HR
  iintro ⟨Cs1, HO⟩
  -- copy 2: the row, on its lent share, into this device's row on `peer c (off 1)`
  have hr1 : recvTail c 1 = recvTail c 2 + tallyAt (recvCell (peer c (off 1)) c) () N := owes_recv_step c (1 : Fin 7)
  ihave HO := (Entails.of_eq (congrArg (fun O => owes (c : Thread nD τ) O (insert (SemLoc.reg barS, ()) W)) hr1)) $$ HO
  iapply (step_send m K c _ (1 : Fin 7) (dev9_eq c) (recvTail c 2) (insert (SemLoc.reg barS, ()) W)) $$ [Sh2 Rm2 HO Ts2 Tr2]
  · isplitr; · iapply (invs_send m K c (1 : Fin 7)); iexact HI
    isplitr; · iapply (invs_precv m K c (1 : Fin 7)); iexact HI
    isplitl [Sh2]; · iexact Sh2
    isplitl [Rm2]; · iexact Rm2
    isplitl [HO]; · iexact HO
    isplitl [Ts2]; · iexact Ts2
    isplitr; · iapply (reacheds_send (F := F) c (1 : Fin 7)); iexact HR
    isplitl [Tr2]; · iexact Tr2
    iapply (reacheds_precv (F := F) c (1 : Fin 7)); iexact HR
  iintro ⟨Cs2, HO⟩
  -- copy 3: the row, on its lent share, into this device's row on `peer c (off 2)`
  have hr2 : recvTail c 2 = recvTail c 3 + tallyAt (recvCell (peer c (off 2)) c) () N := owes_recv_step c (2 : Fin 7)
  ihave HO := (Entails.of_eq (congrArg (fun O => owes (c : Thread nD τ) O (insert (SemLoc.reg barS, ()) W)) hr2)) $$ HO
  iapply (step_send m K c _ (2 : Fin 7) (dev10_eq c) (recvTail c 3) (insert (SemLoc.reg barS, ()) W)) $$ [Sh3 Rm3 HO Ts3 Tr3]
  · isplitr; · iapply (invs_send m K c (2 : Fin 7)); iexact HI
    isplitr; · iapply (invs_precv m K c (2 : Fin 7)); iexact HI
    isplitl [Sh3]; · iexact Sh3
    isplitl [Rm3]; · iexact Rm3
    isplitl [HO]; · iexact HO
    isplitl [Ts3]; · iexact Ts3
    isplitr; · iapply (reacheds_send (F := F) c (2 : Fin 7)); iexact HR
    isplitl [Tr3]; · iexact Tr3
    iapply (reacheds_precv (F := F) c (2 : Fin 7)); iexact HR
  iintro ⟨Cs3, HO⟩
  -- copy 4: the row, on its lent share, into this device's row on `peer c (off 3)`
  have hr3 : recvTail c 3 = recvTail c 4 + tallyAt (recvCell (peer c (off 3)) c) () N := owes_recv_step c (3 : Fin 7)
  ihave HO := (Entails.of_eq (congrArg (fun O => owes (c : Thread nD τ) O (insert (SemLoc.reg barS, ()) W)) hr3)) $$ HO
  iapply (step_send m K c _ (3 : Fin 7) (dev11_eq c) (recvTail c 4) (insert (SemLoc.reg barS, ()) W)) $$ [Sh4 Rm4 HO Ts4 Tr4]
  · isplitr; · iapply (invs_send m K c (3 : Fin 7)); iexact HI
    isplitr; · iapply (invs_precv m K c (3 : Fin 7)); iexact HI
    isplitl [Sh4]; · iexact Sh4
    isplitl [Rm4]; · iexact Rm4
    isplitl [HO]; · iexact HO
    isplitl [Ts4]; · iexact Ts4
    isplitr; · iapply (reacheds_send (F := F) c (3 : Fin 7)); iexact HR
    isplitl [Tr4]; · iexact Tr4
    iapply (reacheds_precv (F := F) c (3 : Fin 7)); iexact HR
  iintro ⟨Cs4, HO⟩
  -- copy 5: the row, on its lent share, into this device's row on `peer c (off 4)`
  have hr4 : recvTail c 4 = recvTail c 5 + tallyAt (recvCell (peer c (off 4)) c) () N := owes_recv_step c (4 : Fin 7)
  ihave HO := (Entails.of_eq (congrArg (fun O => owes (c : Thread nD τ) O (insert (SemLoc.reg barS, ()) W)) hr4)) $$ HO
  iapply (step_send m K c _ (4 : Fin 7) (dev12_eq c) (recvTail c 5) (insert (SemLoc.reg barS, ()) W)) $$ [Sh5 Rm5 HO Ts5 Tr5]
  · isplitr; · iapply (invs_send m K c (4 : Fin 7)); iexact HI
    isplitr; · iapply (invs_precv m K c (4 : Fin 7)); iexact HI
    isplitl [Sh5]; · iexact Sh5
    isplitl [Rm5]; · iexact Rm5
    isplitl [HO]; · iexact HO
    isplitl [Ts5]; · iexact Ts5
    isplitr; · iapply (reacheds_send (F := F) c (4 : Fin 7)); iexact HR
    isplitl [Tr5]; · iexact Tr5
    iapply (reacheds_precv (F := F) c (4 : Fin 7)); iexact HR
  iintro ⟨Cs5, HO⟩
  -- copy 6: the row, on its lent share, into this device's row on `peer c (off 5)`
  have hr5 : recvTail c 5 = recvTail c 6 + tallyAt (recvCell (peer c (off 5)) c) () N := owes_recv_step c (5 : Fin 7)
  ihave HO := (Entails.of_eq (congrArg (fun O => owes (c : Thread nD τ) O (insert (SemLoc.reg barS, ()) W)) hr5)) $$ HO
  iapply (step_send m K c _ (5 : Fin 7) (dev13_eq c) (recvTail c 6) (insert (SemLoc.reg barS, ()) W)) $$ [Sh6 Rm6 HO Ts6 Tr6]
  · isplitr; · iapply (invs_send m K c (5 : Fin 7)); iexact HI
    isplitr; · iapply (invs_precv m K c (5 : Fin 7)); iexact HI
    isplitl [Sh6]; · iexact Sh6
    isplitl [Rm6]; · iexact Rm6
    isplitl [HO]; · iexact HO
    isplitl [Ts6]; · iexact Ts6
    isplitr; · iapply (reacheds_send (F := F) c (5 : Fin 7)); iexact HR
    isplitl [Tr6]; · iexact Tr6
    iapply (reacheds_precv (F := F) c (5 : Fin 7)); iexact HR
  iintro ⟨Cs6, HO⟩
  -- copy 7: the row, on its lent share, into this device's row on `peer c (off 6)`
  have hr6 : recvTail c 6 = recvTail c 7 + tallyAt (recvCell (peer c (off 6)) c) () N := owes_recv_step c (6 : Fin 7)
  ihave HO := (Entails.of_eq (congrArg (fun O => owes (c : Thread nD τ) O (insert (SemLoc.reg barS, ()) W)) hr6)) $$ HO
  iapply (step_send m K c _ (6 : Fin 7) (dev14_eq c) (recvTail c 7) (insert (SemLoc.reg barS, ()) W)) $$ [Sh7 Rm7 HO Ts7 Tr7]
  · isplitr; · iapply (invs_send m K c (6 : Fin 7)); iexact HI
    isplitr; · iapply (invs_precv m K c (6 : Fin 7)); iexact HI
    isplitl [Sh7]; · iexact Sh7
    isplitl [Rm7]; · iexact Rm7
    isplitl [HO]; · iexact HO
    isplitl [Ts7]; · iexact Ts7
    isplitr; · iapply (reacheds_send (F := F) c (6 : Fin 7)); iexact HR
    isplitl [Tr7]; · iexact Tr7
    iapply (reacheds_precv (F := F) c (6 : Fin 7)); iexact HR
  iintro ⟨Cs7, HO⟩
  -- everything owed is paid
  have hr7 : recvTail c 7 = 0 := recvTail_end c
  ihave HO := (Entails.of_eq (congrArg (fun O => owes (c : Thread nD τ) O (insert (SemLoc.reg barS, ()) W)) hr7)) $$ HO
  ihave HOe := (owes_any (F := F) c _) $$ HO
  -- the seven receive cells' resources, listed by row
  ihave HIr := (invs_recv_all m K c) $$ HI
  ihave Hres := (recvRes_intro m K c) $$ [HIr HcR HaR]
  · isplitl [HIr]; · iexact HIr
    isplitl [HcR]; · iexact HcR
    iexact HaR
  ihave Hres' := (Entails.of_eq (bigSep_fin8 _)) $$ Hres
  icases Hres' with ⟨Q0, Q1, Q2, Q3, Q4, Q5, Q6, Q7⟩
  rw [wp_bind]
  -- the wait for row 0 to land (taken unless this device is device 0)
  iapply (step_recv_cond m K c (0 : Fin 8) _ (cond_iff c (0 : Fin 8)) _) $$ [Q0 HOe]
  · isplitl [Q0]; · iexact Q0
    iexact HOe
  iintro ⟨G0, HOe⟩
  -- the wait for row 1 to land (taken unless this device is device 1)
  iapply (step_recv_cond m K c (1 : Fin 8) _ (cond_iff c (1 : Fin 8)) _) $$ [Q1 HOe]
  · isplitl [Q1]; · iexact Q1
    iexact HOe
  iintro ⟨G1, HOe⟩
  -- the wait for row 2 to land (taken unless this device is device 2)
  iapply (step_recv_cond m K c (2 : Fin 8) _ (cond_iff c (2 : Fin 8)) _) $$ [Q2 HOe]
  · isplitl [Q2]; · iexact Q2
    iexact HOe
  iintro ⟨G2, HOe⟩
  -- the wait for row 3 to land (taken unless this device is device 3)
  iapply (step_recv_cond m K c (3 : Fin 8) _ (cond_iff c (3 : Fin 8)) _) $$ [Q3 HOe]
  · isplitl [Q3]; · iexact Q3
    iexact HOe
  iintro ⟨G3, HOe⟩
  -- the wait for row 4 to land (taken unless this device is device 4)
  iapply (step_recv_cond m K c (4 : Fin 8) _ (cond_iff c (4 : Fin 8)) _) $$ [Q4 HOe]
  · isplitl [Q4]; · iexact Q4
    iexact HOe
  iintro ⟨G4, HOe⟩
  -- the wait for row 5 to land (taken unless this device is device 5)
  iapply (step_recv_cond m K c (5 : Fin 8) _ (cond_iff c (5 : Fin 8)) _) $$ [Q5 HOe]
  · isplitl [Q5]; · iexact Q5
    iexact HOe
  iintro ⟨G5, HOe⟩
  -- the wait for row 6 to land (taken unless this device is device 6)
  iapply (step_recv_cond m K c (6 : Fin 8) _ (cond_iff c (6 : Fin 8)) _) $$ [Q6 HOe]
  · isplitl [Q6]; · iexact Q6
    iexact HOe
  iintro ⟨G6, HOe⟩
  -- the wait for row 7 to land (taken unless this device is device 7)
  iapply (step_recv_cond m K c (7 : Fin 8) _ (cond_iff c (7 : Fin 8)) _) $$ [Q7 HOe]
  · isplitl [Q7]; · iexact Q7
    iexact HOe
  iintro ⟨G7, HOe⟩
  -- the seven other rows, at the gathered contents
  ihave Hgot := (Entails.of_eq (bigSep_fin8 (fun s : Fin 8 => recvGot (F := F) m c s)).symm) $$ [G0 G1 G2 G3 G4 G5 G6 G7]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  ihave Hgot' := (recvGot_elim (F := F) m c) $$ Hgot
  icases Hgot' with ⟨Hrows, HaR1⟩
  -- all eight rows at the kept share: the whole buffer, read at the gathered statistics
  ihave Hall := (keep_all (F := F) m c).1 $$ [Hkeep Hrows]
  · isplitl [Hkeep]; · iexact Hkeep
    iexact Hrows
  icases Hall with ⟨Hbuf, Hrest⟩
  iapply (wp_load 𝒱₀ (c : Thread nD τ) none Set.univ (m := commM) (Finset.subset_univ _)) $$ Hbuf; iintro Hbuf
  rw [read_comm, wp_ret]; imodintro
  ihave Hall := (keep_all (F := F) m c).2 $$ [Hbuf Hrest]
  · isplitl [Hbuf]; · iexact Hbuf
    iexact Hrest
  icases Hall with ⟨Hkeep, Hrows⟩
  -- the matrix read, the result stored
  iapply (wp_load 𝒱₀ (c : Thread nD τ) none Set.univ (m := (Memref.whole cc0_stg1_0 : Memref sig .tc .vmem S64x128 .f32)) (Finset.subset_univ _)) $$ Hw; iintro Hw
  rw [read_w]
  iapply (wp_load 𝒱₀ (c : Thread nD τ) none Set.univ (m := (Memref.whole cc0_stg2_0 : Memref sig .tc .vmem S2x64x64x128 .f32)) (Finset.subset_univ _)) $$ Hout; iintro Hout
  iapply (wp_store 𝒱₀ (c : Thread nD τ) none Set.univ (m := (Memref.whole cc0_stg2_0 : Memref sig .tc .vmem S2x64x64x128 .f32))
    (r := Rect.unit (s := S2x64x64x128) ![0, 0, 0, 0] S2x64x64x128.size inb_S2x64x64x128_S2x64x64x128_0_0_0_0) (Mk := Finset.univ) (Finset.subset_univ _)) $$ Hout; iintro Hout
  rw [write_out]
  -- the wait for copy 1 to have left: its lent share of the row comes back
  iapply (step_sendwait m K c (0 : Fin 7)) $$ [Cs1 HOe As1]
  · isplitr; · iapply (invs_send m K c (0 : Fin 7)); iexact HI
    isplitl [Cs1]; · iexact Cs1
    isplitl [HOe]; · iexact HOe
    iexact As1
  iintro ⟨HOe, As1, Sh1⟩
  -- the wait for copy 2 to have left: its lent share of the row comes back
  iapply (step_sendwait m K c (1 : Fin 7)) $$ [Cs2 HOe As2]
  · isplitr; · iapply (invs_send m K c (1 : Fin 7)); iexact HI
    isplitl [Cs2]; · iexact Cs2
    isplitl [HOe]; · iexact HOe
    iexact As2
  iintro ⟨HOe, As2, Sh2⟩
  -- the wait for copy 3 to have left: its lent share of the row comes back
  iapply (step_sendwait m K c (2 : Fin 7)) $$ [Cs3 HOe As3]
  · isplitr; · iapply (invs_send m K c (2 : Fin 7)); iexact HI
    isplitl [Cs3]; · iexact Cs3
    isplitl [HOe]; · iexact HOe
    iexact As3
  iintro ⟨HOe, As3, Sh3⟩
  -- the wait for copy 4 to have left: its lent share of the row comes back
  iapply (step_sendwait m K c (3 : Fin 7)) $$ [Cs4 HOe As4]
  · isplitr; · iapply (invs_send m K c (3 : Fin 7)); iexact HI
    isplitl [Cs4]; · iexact Cs4
    isplitl [HOe]; · iexact HOe
    iexact As4
  iintro ⟨HOe, As4, Sh4⟩
  -- the wait for copy 5 to have left: its lent share of the row comes back
  iapply (step_sendwait m K c (4 : Fin 7)) $$ [Cs5 HOe As5]
  · isplitr; · iapply (invs_send m K c (4 : Fin 7)); iexact HI
    isplitl [Cs5]; · iexact Cs5
    isplitl [HOe]; · iexact HOe
    iexact As5
  iintro ⟨HOe, As5, Sh5⟩
  -- the wait for copy 6 to have left: its lent share of the row comes back
  iapply (step_sendwait m K c (5 : Fin 7)) $$ [Cs6 HOe As6]
  · isplitr; · iapply (invs_send m K c (5 : Fin 7)); iexact HI
    isplitl [Cs6]; · iexact Cs6
    isplitl [HOe]; · iexact HOe
    iexact As6
  iintro ⟨HOe, As6, Sh6⟩
  -- the wait for copy 7 to have left: its lent share of the row comes back
  iapply (step_sendwait m K c (6 : Fin 7)) $$ [Cs7 HOe As7]
  · isplitr; · iapply (invs_send m K c (6 : Fin 7)); iexact HI
    isplitl [Cs7]; · iexact Cs7
    isplitl [HOe]; · iexact HOe
    iexact As7
  iintro ⟨HOe, As7, Sh7⟩
  rw [wp_ret]
  -- the fourteen cells closed: their counters at zero are the device's again
  imod (close_send m K c (0 : Fin 7)) $$ [As1] with Zs1
  · isplitr; · iapply (invs_send m K c (0 : Fin 7)); iexact HI
    iexact As1
  imod (close_send m K c (1 : Fin 7)) $$ [As2] with Zs2
  · isplitr; · iapply (invs_send m K c (1 : Fin 7)); iexact HI
    iexact As2
  imod (close_send m K c (2 : Fin 7)) $$ [As3] with Zs3
  · isplitr; · iapply (invs_send m K c (2 : Fin 7)); iexact HI
    iexact As3
  imod (close_send m K c (3 : Fin 7)) $$ [As4] with Zs4
  · isplitr; · iapply (invs_send m K c (3 : Fin 7)); iexact HI
    iexact As4
  imod (close_send m K c (4 : Fin 7)) $$ [As5] with Zs5
  · isplitr; · iapply (invs_send m K c (4 : Fin 7)); iexact HI
    iexact As5
  imod (close_send m K c (5 : Fin 7)) $$ [As6] with Zs6
  · isplitr; · iapply (invs_send m K c (5 : Fin 7)); iexact HI
    iexact As6
  imod (close_send m K c (6 : Fin 7)) $$ [As7] with Zs7
  · isplitr; · iapply (invs_send m K c (6 : Fin 7)); iexact HI
    iexact As7
  ihave HaR1' := (Entails.of_eq (bigSep_fin7 _)) $$ HaR1
  icases HaR1' with ⟨Ar1, Ar2, Ar3, Ar4, Ar5, Ar6, Ar7⟩
  imod (close_recv m K c (0 : Fin 7)) $$ [Ar1] with Zr1
  · isplitr; · iapply (invs_recv m K c (0 : Fin 7)); iexact HI
    iexact Ar1
  imod (close_recv m K c (1 : Fin 7)) $$ [Ar2] with Zr2
  · isplitr; · iapply (invs_recv m K c (1 : Fin 7)); iexact HI
    iexact Ar2
  imod (close_recv m K c (2 : Fin 7)) $$ [Ar3] with Zr3
  · isplitr; · iapply (invs_recv m K c (2 : Fin 7)); iexact HI
    iexact Ar3
  imod (close_recv m K c (3 : Fin 7)) $$ [Ar4] with Zr4
  · isplitr; · iapply (invs_recv m K c (3 : Fin 7)); iexact HI
    iexact Ar4
  imod (close_recv m K c (4 : Fin 7)) $$ [Ar5] with Zr5
  · isplitr; · iapply (invs_recv m K c (4 : Fin 7)); iexact HI
    iexact Ar5
  imod (close_recv m K c (5 : Fin 7)) $$ [Ar6] with Zr6
  · isplitr; · iapply (invs_recv m K c (5 : Fin 7)); iexact HI
    iexact Ar6
  imod (close_recv m K c (6 : Fin 7)) $$ [Ar7] with Zr7
  · isplitr; · iapply (invs_recv m K c (6 : Fin 7)); iexact HI
    iexact Ar7
  imodintro
  -- what the body hands back
  iapply Hk
  unfold bodyPost Φ₁ Dat.owesAt Pipeline.owesWithin
  rw [show (dats m ρ 0 c).owed t₀.succ = 0 from rfl]
  isplitl [Hkeep Sh1 Sh2 Sh3 Sh4 Sh5 Sh6 Sh7 Hrows Hz0 Zs1 Zs2 Zs3 Zs4 Zs5 Zs6 Zs7 Hzc Zr1 Zr2 Zr3 Zr4 Zr5 Zr6 Zr7]
  · isplitl [Hkeep Sh1 Sh2 Sh3 Sh4 Sh5 Sh6 Sh7 Hrows]
    · iapply (comm_restore (F := F) m c)
      isplitl [Hkeep]; · iexact Hkeep
      isplitl [Sh1 Sh2 Sh3 Sh4 Sh5 Sh6 Sh7]
      · iapply (Entails.of_eq (bigSep_fin7 (fun j : Fin 7 => rowPts (F := F) c c (sendSh (off j)) (Gbuf m))).symm)
        isplitl [Sh1]; · iexact Sh1
        isplitl [Sh2]; · iexact Sh2
        isplitl [Sh3]; · iexact Sh3
        isplitl [Sh4]; · iexact Sh4
        isplitl [Sh5]; · iexact Sh5
        isplitl [Sh6]; · iexact Sh6
        iexact Sh7
      iexact Hrows
    isplitl [Hz0 Zs1 Zs2 Zs3 Zs4 Zs5 Zs6 Zs7]
    · iapply (sems_all_send (F := F) c)
      isplitl [Hz0]; · iexact Hz0
      iapply (Entails.of_eq (bigSep_fin7 (fun j : Fin 7 => (semVal (sendCell c (off j)) 0 : sProp 𝕄))).symm)
      isplitl [Zs1]; · iexact Zs1
      isplitl [Zs2]; · iexact Zs2
      isplitl [Zs3]; · iexact Zs3
      isplitl [Zs4]; · iexact Zs4
      isplitl [Zs5]; · iexact Zs5
      isplitl [Zs6]; · iexact Zs6
      iexact Zs7
    iapply (sems_all_recv (F := F) c)
    isplitl [Hzc]; · iexact Hzc
    iapply (Entails.of_eq (bigSep_fin7 (fun j : Fin 7 => (semVal (recvCell c (peer c (off j))) 0 : sProp 𝕄))).symm)
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    iexact Zr7
  isplitl [HOe]
  · icases HOe with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists (k0_pay4 (k0_pay1 (xstg m c)) (Gbuf m) (wstg m c)); isplitr
  · ipureintro
    show k0_pay4 (k0_pay1 (xstg m c)) (gathered (Xc m)) (wstg m c) = outAt m c
    unfold outAt
    rw [show (fun d : Dev nD => xstg m d) = Xc m from funext fun d => xstg_eq m d]
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The body obligation of device `c`, in the launch theorem's form. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hw, Hout⟩
  iapply (sound_body m ρ K c fun _ => bodyPost m ρ c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx]; · iexact Hx
    isplitl [Hw] <;> iassumption
  · iintro H; iexact H

end Cert.KernelIdeal.Proto

end
-- ==== Proof.RefTerm.lean ====
/-
  The reference's result as ONE term of its two argument arrays, operation by operation as @main and the two
  functions it calls compute it: the per-channel mean over rows and columns (a sum divided by 32768), the
  variance as the mean squared deviation (divided by 32768 − 0 and kept where that divisor is positive),
  the normalised value `(x − mean) / √(var + ε)`, the unit `y / (1 + e^{−y})`, and the projection by the
  matrix of the array reshaped to 65536 rows.
-/
import proofs.«900777_g7700000000000778_dist_diff_noisepred_hshard_i_b2_h64_w64_c64_v7x_i8_f32_1_alg».proof.Proof.Gen.ReferenceIdeal

noncomputable section

namespace Cert.ReferenceIdeal.Hand

open Cert.ReferenceIdeal Cert.ReferenceIdeal.Gen
open Idealize.ShloMosaic Idealize.SL.Sem

variable {F : FTy → Type} [FloatOps F]

/-- The per-channel mean, one entry per (batch entry, channel): the sum over rows and columns over 32768. -/
def refMean (x : FVec F S2x512x64x64 .f32) : FVec F S2x1x1x64 .f32 :=
  Host.divf
    (broadcastInDim S2x1x1x64 ![0, 3] bcast_S2x64_S2x1x1x64_0_3
      (Host.reduceAdd x (constant S_ .f32 0x00000000#32) reducesTo_S2x512x64x64_S2x64_d1_2 h_S_))
    (broadcastInDim S2x1x1x64 ![] bcast_S_S2x1x1x64 (constant S_ .f32 0x47000000#32))

/-- The divisor of the variance: 32768 minus the zero degrees of freedom, a rank-zero tensor. -/
def refCount : FVec F S_ .f32 :=
  subf (constant S_ .f32 0x47000000#32) (sitofp .f32 (constantI S_ 32 0#32))

/-- The squared deviations from the mean. -/
def refSq (x : FVec F S2x512x64x64 .f32) : FVec F S2x512x64x64 .f32 :=
  mulf (subf x (broadcastInDim S2x512x64x64 ![0, 1, 2, 3] bcast_S2x1x1x64_S2x512x64x64_0_1_2_3 (refMean x)))
    (subf x (broadcastInDim S2x512x64x64 ![0, 1, 2, 3] bcast_S2x1x1x64_S2x512x64x64_0_1_2_3 (refMean x)))

/-- The per-channel variance: the summed squared deviations over the divisor where the divisor is positive,
    else the not-a-number constant. -/
def refVar (x : FVec F S2x512x64x64 .f32) : FVec F S2x1x1x64 .f32 :=
  select (broadcastInDim S2x1x1x64 ![] bcast_S_S2x1x1x64 (cmpf .ogt (refCount (F := F)) (constant S_ .f32 0x00000000#32)))
    (Host.divf
      (broadcastInDim S2x1x1x64 ![0, 3] bcast_S2x64_S2x1x1x64_0_3
        (Host.reduceAdd (refSq x) (constant S_ .f32 0x00000000#32) reducesTo_S2x512x64x64_S2x64_d1_2 h_S_))
      (broadcastInDim S2x1x1x64 ![] bcast_S_S2x1x1x64 (refCount (F := F))))
    (broadcastInDim S2x1x1x64 ![] bcast_S_S2x1x1x64 (id (constant S_ .f32 0x7FC00000#32)))

/-- The normalised array. -/
def refHid (x : FVec F S2x512x64x64 .f32) : FVec F S2x512x64x64 .f32 :=
  Host.divf
    (subf x (broadcastInDim S2x512x64x64 ![0, 1, 2, 3] bcast_S2x1x1x64_S2x512x64x64_0_1_2_3 (refMean x)))
    (broadcastInDim S2x512x64x64 ![0, 1, 2, 3] bcast_S2x1x1x64_S2x512x64x64_0_1_2_3
      (Host.sqrt (addf (refVar x) (broadcastInDim S2x1x1x64 ![] bcast_S_S2x1x1x64 (constant S_ .f32 0x3727C5AC#32)))))

/-- The sigmoid-weighted unit of the normalised array. -/
def refAct (x : FVec F S2x512x64x64 .f32) : FVec F S2x512x64x64 .f32 :=
  Host.divf (refHid x)
    (addf (broadcastInDim S2x512x64x64 ![] bcast_S_S2x512x64x64 (constant S_ .f32 0x3F800000#32)) (Host.exp (Host.negf (refHid x))))

/-- The reference's result. -/
def refOut (x : FVec F S2x512x64x64 .f32) (w : FVec F S64x128 .f32) : FVec F S2x512x64x128 .f32 :=
  shapeCast S2x512x64x128
    (Host.dotGeneral dot_S65536x64_S64x128_S65536x128_1_0_0_1_n_n none
      (shapeCast S65536x64 (refAct x) shapeCasts_S2x512x64x64_S65536x64) w)
    shapeCasts_S65536x128_S2x512x64x128

end Cert.ReferenceIdeal.Hand

end
-- ==== Proof.RefRun.lean ====
/-
  The reference's run: every weakly fair execution of its @main ends with the result array at `refOut` of the
  two argument arrays, which end as they began.
-/
import proofs.«900777_g7700000000000778_dist_diff_noisepred_hshard_i_b2_h64_w64_c64_v7x_i8_f32_1_alg».proof.Proof.RefTerm
import proofs.«900777_g7700000000000778_dist_diff_noisepred_hshard_i_b2_h64_w64_c64_v7x_i8_f32_1_alg».proof.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- @main's forty-seven operations in order, the two calls unfolded at their sites. The first six are the mean
    (the sum over rows and columns, broadcast, over 32768); then the zero degrees of freedom; then the variance
    function's twenty into its own buffers (the mean again, the squared deviations, their sum over the divisor
    32768 − 0, the test that the divisor is positive, the not-a-number constant) and inside it the selecting
    function's three (the constant kept at its own type, broadcast, the select), whose result is @main's fourth
    value; then @main's remaining seventeen: the deviation, √(var + ε), the quotient, the unit
    y / (1 + e^{−y}), the reshape to 65536 rows, the product with the matrix, the reshape back. -/
abbrev ops : List (HloOp τ sig (Elt F)) :=
  [ nullary main_cst (constant S_ .f32 0x00000000#32),
    binary main_arg0 main_cst main_v0 ((fun x v => Host.reduceAdd x v reducesTo_S2x512x64x64_S2x64_d1_2 h_S_) : (⟨S2x512x64x64, .f32⟩ : BufTy).Contents (Elt F) → (⟨S_, .f32⟩ : BufTy).Contents (Elt F) → (⟨S2x64, .f32⟩ : BufTy).Contents (Elt F)),
    unary main_v0 main_v1 (broadcastInDim S2x1x1x64 ![0, 3] bcast_S2x64_S2x1x1x64_0_3 : (⟨S2x64, .f32⟩ : BufTy).Contents (Elt F) → (⟨S2x1x1x64, .f32⟩ : BufTy).Contents (Elt F)),
    nullary main_cst_0 (constant S_ .f32 0x47000000#32),
    unary main_cst_0 main_v2 (broadcastInDim S2x1x1x64 ![] bcast_S_S2x1x1x64 : (⟨S_, .f32⟩ : BufTy).Contents (Elt F) → (⟨S2x1x1x64, .f32⟩ : BufTy).Contents (Elt F)),
    binary main_v1 main_v2 main_v3 (Host.divf : (⟨S2x1x1x64, .f32⟩ : BufTy).Contents (Elt F) → (⟨S2x1x1x64, .f32⟩ : BufTy).Contents (Elt F) → (⟨S2x1x1x64, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x512x64x64_S2x64_d1_2 h_S_),
    TRef.unary main_call0.v0 main_call0.v1 (broadcastInDim S2x1x1x64 ![0, 3] bcast_S2x64_S2x1x1x64_0_3),
    TRef.nullary main_call0.cst_0 (constant S_ .f32 0x47000000#32),
    TRef.unary main_call0.cst_0 main_call0.v2 (broadcastInDim S2x1x1x64 ![] bcast_S_S2x1x1x64),
    TRef.binary main_call0.v1 main_call0.v2 main_call0.v3 Host.divf,
    TRef.unary main_call0.v3 main_call0.v4 (broadcastInDim S2x512x64x64 ![0, 1, 2, 3] bcast_S2x1x1x64_S2x512x64x64_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x47000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x512x64x64_S2x64_d1_2 h_S_),
    TRef.unary main_call0.v9 main_call0.v10 (broadcastInDim S2x1x1x64 ![0, 3] bcast_S2x64_S2x1x1x64_0_3),
    TRef.unary main_call0.v8 main_call0.v11 (broadcastInDim S2x1x1x64 ![] bcast_S_S2x1x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x1x1x64 ![] bcast_S_S2x1x1x64),
    TRef.ternary main_call0.v13 main_call0.v12 main_call0.call0.v1 main_call0.call0.v2 (fun p a b => select (broadcastInDim S2x1x1x64 ![] bcast_S_S2x1x1x64 p) a b),
    unary main_v3 main_v5 (broadcastInDim S2x512x64x64 ![0, 1, 2, 3] bcast_S2x1x1x64_S2x512x64x64_0_1_2_3 : (⟨S2x1x1x64, .f32⟩ : BufTy).Contents (Elt F) → (⟨S2x512x64x64, .f32⟩ : BufTy).Contents (Elt F)),
    binary main_arg0 main_v5 main_v6 (subf : (⟨S2x512x64x64, .f32⟩ : BufTy).Contents (Elt F) → (⟨S2x512x64x64, .f32⟩ : BufTy).Contents (Elt F) → (⟨S2x512x64x64, .f32⟩ : BufTy).Contents (Elt F)),
    nullary main_cst_1 (constant S_ .f32 0x3727C5AC#32),
    unary main_cst_1 main_v7 (broadcastInDim S2x1x1x64 ![] bcast_S_S2x1x1x64 : (⟨S_, .f32⟩ : BufTy).Contents (Elt F) → (⟨S2x1x1x64, .f32⟩ : BufTy).Contents (Elt F)),
    binary main_v4 main_v7 main_v8 (addf : (⟨S2x1x1x64, .f32⟩ : BufTy).Contents (Elt F) → (⟨S2x1x1x64, .f32⟩ : BufTy).Contents (Elt F) → (⟨S2x1x1x64, .f32⟩ : BufTy).Contents (Elt F)),
    unary main_v8 main_v9 (Host.sqrt : (⟨S2x1x1x64, .f32⟩ : BufTy).Contents (Elt F) → (⟨S2x1x1x64, .f32⟩ : BufTy).Contents (Elt F)),
    unary main_v9 main_v10 (broadcastInDim S2x512x64x64 ![0, 1, 2, 3] bcast_S2x1x1x64_S2x512x64x64_0_1_2_3 : (⟨S2x1x1x64, .f32⟩ : BufTy).Contents (Elt F) → (⟨S2x512x64x64, .f32⟩ : BufTy).Contents (Elt F)),
    binary main_v6 main_v10 main_v11 (Host.divf : (⟨S2x512x64x64, .f32⟩ : BufTy).Contents (Elt F) → (⟨S2x512x64x64, .f32⟩ : BufTy).Contents (Elt F) → (⟨S2x512x64x64, .f32⟩ : BufTy).Contents (Elt F)),
    unary main_v11 main_v12 (Host.negf : (⟨S2x512x64x64, .f32⟩ : BufTy).Contents (Elt F) → (⟨S2x512x64x64, .f32⟩ : BufTy).Contents (Elt F)),
    unary main_v12 main_v13 (Host.exp : (⟨S2x512x64x64, .f32⟩ : BufTy).Contents (Elt F) → (⟨S2x512x64x64, .f32⟩ : BufTy).Contents (Elt F)),
    nullary main_cst_2 (constant S_ .f32 0x3F800000#32),
    unary main_cst_2 main_v14 (broadcastInDim S2x512x64x64 ![] bcast_S_S2x512x64x64 : (⟨S_, .f32⟩ : BufTy).Contents (Elt F) → (⟨S2x512x64x64, .f32⟩ : BufTy).Contents (Elt F)),
    binary main_v14 main_v13 main_v15 (addf : (⟨S2x512x64x64, .f32⟩ : BufTy).Contents (Elt F) → (⟨S2x512x64x64, .f32⟩ : BufTy).Contents (Elt F) → (⟨S2x512x64x64, .f32⟩ : BufTy).Contents (Elt F)),
    binary main_v11 main_v15 main_v16 (Host.divf : (⟨S2x512x64x64, .f32⟩ : BufTy).Contents (Elt F) → (⟨S2x512x64x64, .f32⟩ : BufTy).Contents (Elt F) → (⟨S2x512x64x64, .f32⟩ : BufTy).Contents (Elt F)),
    reshape main_v16 main_v17 rfl shapeCasts_S2x512x64x64_S65536x64,
    binary main_v17 main_arg1 main_v18 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    reshape main_v18 main_v19 rfl shapeCasts_S65536x128_S2x512x64x128 ]

-- forty-seven sequenced steps, one level of depth per step
set_option maxRecDepth 1024 in
/-- @main is that straight line: the two functions' definitions unfolded at their calls and the records at their
    fields, both sides are one chain of steps once sequencing is reassociated. -/
theorem main_eq (c : Dev nD) : main (F := F) c = seq ops := by
  simp only [main, fn_var.body, fn_where.body, seq, bind_assoc, pure_bind]

attribute [local irreducible] Host.reduceAdd in
set_option maxRecDepth 8192 in
set_option maxHeartbeats 400000 in
/-- The fold at the result buffer is `refOut` by computation: the fold unrolled, each operation's result decides
    whether the buffer read is the one it writes, and the typed references' casts are the identity at these
    literal references. The sums and the matrix product are kept folded meanwhile: the equation never looks
    inside them. -/
theorem out_eq (V : Valuation τ sig (Elt F)) :
    after ops V (main_v19 : DevRef τ sig) = refOut (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., binary_bufs_sub .., reshape_bufs_sub .., binary_bufs_sub .., reshape_bufs_sub ..⟩

/-- From any memory with zero counters, every weakly fair execution of @main terminates, and in every final state
    the first device's result buffer holds `refOut` of its two argument buffers' launch contents, which are
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r =>
      r.2.mem (((0 : Dev nD).tc : Thread nD τ).loc main_v19)
          = refOut (m (((0 : Dev nD).tc : Thread nD τ).loc main_arg0)) (m (((0 : Dev nD).tc : Thread nD τ).loc main_arg1))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1)) :=
  (θ_run (defs (F := F)) _ _).mono (fun _ h =>
      ⟨(h 0 main_v19).trans (out_eq _), (h 0 main_arg0).trans (arg0_eq _), (h 0 main_arg1).trans (arg1_eq _)⟩)
    (run_seq scopedRefs_eq scopedSems_eq defs main (fun _ => ops) main_eq (fun _ => ops_sub) m ρ)

end Cert.ReferenceIdeal.Hand

end
-- ==== Proof.KerStats.lean ====
/-
  The gathered statistics summed over the eight devices are the whole array's sums: device `d`'s row holds the sums
  over its 64 rows (4096 positions), and position `p` of a block is row `p / 64`, column `p % 64` of it.
-/
import proofs.«900777_g7700000000000778_dist_diff_noisepred_hshard_i_b2_h64_w64_c64_v7x_i8_f32_1_alg».proof.Proof.KerTerm
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

noncomputable section

namespace Cert.KernelIdeal.Hand

open Cert.KernelIdeal Cert.KernelIdeal.Gen
open Idealize.ShloMosaic Idealize.ShloMosaic.ValueIdx Idealize.SL.Sem

namespace Stats

/-! ## Sums regrouped -/

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The 512 rows are the 8 blocks of 64 rows: a sum over blocks and rows within a block is the sum over all rows. -/
theorem sum_rows {M : Type} [AddCommMonoid M] (f : Fin 512 → M) :
    ∑ d : Fin 8, ∑ h' : Fin 64, f (Cert.Spec.rowOf d h') = ∑ h : Fin 512, f h := by
  refine (Fintype.sum_prod_type' (fun d h' => f (Cert.Spec.rowOf d h'))).symm.trans ?_
  refine Fintype.sum_equiv (finProdFinEquiv (m := 8) (n := 64)) _ _ (fun x => ?_)
  refine congrArg f (Fin.ext ?_)
  show x.1.val * 64 + x.2.val = x.2.val + 64 * x.1.val
  omega

/-- The 4096 positions of a block are its 64 rows of 64 columns: position `p` is row `p / 64`, column `p % 64`. -/
theorem sum_positions {M : Type} [AddCommMonoid M] (g : Fin 64 → Fin 64 → M) :
    ∑ p : Fin 4096, g ⟨p.val / 64, by have := p.isLt; omega⟩ ⟨p.val % 64, Nat.mod_lt _ (by decide)⟩
      = ∑ h' : Fin 64, ∑ v : Fin 64, g h' v := by
  refine Eq.trans ?_ (Fintype.sum_prod_type' g)
  symm
  refine Fintype.sum_equiv (finProdFinEquiv (m := 64) (n := 64)) _ _ (fun x => ?_)
  have h1 : (x.2.val + 64 * x.1.val) / 64 = x.1.val := by have := x.2.isLt; omega
  have h2 : (x.2.val + 64 * x.1.val) % 64 = x.2.val := by have := x.2.isLt; omega
  show g x.1 x.2 = g ⟨(x.2.val + 64 * x.1.val) / 64, _⟩ ⟨(x.2.val + 64 * x.1.val) % 64, _⟩
  congr 1
  · exact Fin.ext h1.symm
  · exact Fin.ext h2.symm

/-! ## One device's row -/

/-- A block reshaped to 2 × 4096 × 64 reads, at position `p`, the block at row `p / 64`, column `p % 64`
    (the reshape keeps the row-major order). -/
theorem pay1_apply (X : Vec Ideal S2x64x64x64 .f32) (b : Fin 2) (p : Fin 4096) (ch : Fin 64) :
    k0_pay1 X (ix3 b p ch)
      = X (ix4 b (⟨p.val / 64, by have := p.isLt; omega⟩ : Fin 64) (⟨p.val % 64, Nat.mod_lt _ (by decide)⟩ : Fin 64) ch) := by
  unfold k0_pay1
  show shapeCast S2x4096x64 (shapeCast S2x64x64x64 X shapeCasts_S2x64x64x64_S2x64x64x64) shapeCasts_S2x64x64x64_S2x4096x64 (ix3 b p ch) = _
  rw [shapeCast_self]
  refine shapeCast_apply X _ _ _ ?_
  rw [Shape.rowMajor_val_four, Shape.rowMajor_val_three]
  show ((b.val * 64 + p.val / 64) * 64 + p.val % 64) * 64 + ch.val = (b.val * 4096 + p.val) * 64 + ch.val
  omega

/-- The index a sum over positions inserts its coordinate into. -/
theorem lift_pos (b : Fin 2) (p : Fin 4096) (ch : Fin 64) :
    reduces_S2x4096x64_S2x64.lift (ix2 b ch) p = ix3 b p ch := by
  funext c
  match c with
  | ⟨0, _⟩ => rfl
  | ⟨1, _⟩ => rfl
  | ⟨2, _⟩ => rfl

/-- The index the sum over devices inserts its coordinate into. -/
theorem lift_dev (r : Fin 4) (d : Fin 8) (ch : Fin 64) :
    reduces_S8x4x64_S4x64.lift (ix2 r ch) d = ix3 d r ch := by
  funext c
  match c with
  | ⟨0, _⟩ => rfl
  | ⟨1, _⟩ => rfl
  | ⟨2, _⟩ => rfl

/-- Rows 0–1 of a device's row: the sum of its block over the 4096 positions. -/
theorem pay2_apply (X : Vec Ideal S2x64x64x64 .f32) (b : Fin 2) (ch : Fin 64) :
    k0_pay2 X (ix3 (0 : Fin 1) b ch) = ∑ p : Fin 4096, k0_pay1 X (ix3 b p ch) := by
  unfold k0_pay2
  show shapeCast S1x2x64 (shapeCast S1x2x64 (multiReduction (F := Ideal) .add [1] S2x64 (k0_pay1 X) 0x00000000#32 reduces_S2x4096x64_S2x64 (.inl rfl) rfl) shapeCasts_S2x64_S1x2x64) shapeCasts_S1x2x64_S1x2x64 (ix3 (0 : Fin 1) b ch) = _
  rw [shapeCast_self]
  refine (shapeCast_ab_1ab_apply _ _ (0 : Fin 1) b ch).trans ?_
  refine (Ideal.multiReduction_add_single (k0_pay1 X) 0x00000000#32 reduces_S2x4096x64_S2x64 (.inl rfl) rfl (ix2 b ch)).trans ?_
  show ∑ p : Fin 4096, k0_pay1 X (reduces_S2x4096x64_S2x64.lift (ix2 b ch) p) = _
  exact Finset.sum_congr rfl (fun p _ => congrArg (k0_pay1 X) (lift_pos b p ch))

/-- Rows 2–3 of a device's row: the sum of the squares of its block over the 4096 positions. -/
theorem pay3_apply (X : Vec Ideal S2x64x64x64 .f32) (b : Fin 2) (ch : Fin 64) :
    k0_pay3 X (ix3 (0 : Fin 1) b ch) = ∑ p : Fin 4096, k0_pay1 X (ix3 b p ch) * k0_pay1 X (ix3 b p ch) := by
  unfold k0_pay3
  show shapeCast S1x2x64 (shapeCast S1x2x64 (multiReduction (F := Ideal) .add [1] S2x64 (mulf (k0_pay1 X) (k0_pay1 X)) 0x00000000#32 reduces_S2x4096x64_S2x64 (.inl rfl) rfl) shapeCasts_S2x64_S1x2x64) shapeCasts_S1x2x64_S1x2x64 (ix3 (0 : Fin 1) b ch) = _
  rw [shapeCast_self]
  refine (shapeCast_ab_1ab_apply _ _ (0 : Fin 1) b ch).trans ?_
  refine (Ideal.multiReduction_add_single (mulf (k0_pay1 X) (k0_pay1 X)) 0x00000000#32 reduces_S2x4096x64_S2x64 (.inl rfl) rfl (ix2 b ch)).trans ?_
  show ∑ p : Fin 4096, mulf (k0_pay1 X) (k0_pay1 X) (reduces_S2x4096x64_S2x64.lift (ix2 b ch) p) = _
  refine Finset.sum_congr rfl (fun p _ => ?_)
  rw [lift_pos b p ch]
  rfl

/-- Row `b` of a device's statistics row is the sum, -/
theorem statRow_lo (X : Vec Ideal S2x64x64x64 .f32) (b : Fin 2) (ch : Fin 64) :
    statRow X (ix3 (0 : Fin 1) (loRow b) ch) = k0_pay2 X (ix3 (0 : Fin 1) b ch) := by
  unfold statRow
  exact dif_pos (show ((ix3 (0 : Fin 1) (loRow b) ch) 1).val < 2 from b.isLt)

/-- row `b + 2` the sum of squares. -/
theorem statRow_hi (X : Vec Ideal S2x64x64x64 .f32) (b : Fin 2) (ch : Fin 64) :
    statRow X (ix3 (0 : Fin 1) (hiRow b) ch) = k0_pay3 X (ix3 (0 : Fin 1) b ch) := by
  unfold statRow
  rw [dif_neg (show ¬ ((ix3 (0 : Fin 1) (hiRow b) ch) 1).val < 2 from by show ¬ (b.val + 2 < 2); omega)]
  refine congrArg (k0_pay3 X) (funext fun a => ?_)
  match a with
  | ⟨0, _⟩ => rfl
  | ⟨1, _⟩ => exact Fin.ext (show b.val + 2 - 2 = b.val by omega)
  | ⟨2, _⟩ => rfl

/-- Row `d` of the gathered buffer is device `d`'s row. -/
theorem gathered_apply (X : Dev nD → Vec Ideal S2x64x64x64 .f32) (d : Fin 8) (r : Fin 4) (ch : Fin 64) :
    gathered X (ix3 d r ch) = statRow (X d) (ix3 (0 : Fin 1) r ch) := rfl

end Stats

open Stats

/-! ## The eight rows summed -/

/-- Summed over the devices, rows 0–1 of the statistics are the whole array's per-channel sums; -/
theorem total_sum1 (x : Cert.Spec.Arr) (X : Dev nD → Vec Ideal S2x64x64x64 .f32) (hX : HoldsBlocks X x) (b : Fin 2) (ch : Fin 64) :
    multiReduction (F := Ideal) .add [0] S4x64 (gathered X) 0x00000000#32 reduces_S8x4x64_S4x64 (.inl rfl) rfl (ix2 (loRow b) ch)
      = ((Cert.Spec.sum1 x b ch : ℝ) : EReal) := by
  refine (Ideal.multiReduction_add_single (gathered X) 0x00000000#32 reduces_S8x4x64_S4x64 (.inl rfl) rfl (ix2 (loRow b) ch)).trans ?_
  show ∑ d : Fin 8, gathered X (reduces_S8x4x64_S4x64.lift (ix2 (loRow b) ch) d) = _
  -- each device's term: the sum over its 64 rows and the 64 columns
  have hd : ∀ d : Fin 8, gathered X (reduces_S8x4x64_S4x64.lift (ix2 (loRow b) ch) d)
      = ∑ h' : Fin 64, ∑ v : Fin 64, ((x b (Cert.Spec.rowOf d h') v ch : ℝ) : EReal) := by
    intro d
    rw [lift_dev, gathered_apply, statRow_lo, pay2_apply]
    refine Eq.trans (Finset.sum_congr rfl (fun p _ => ?_))
      (sum_positions (fun h' v => ((x b (Cert.Spec.rowOf d h') v ch : ℝ) : EReal)))
    rw [pay1_apply]
    exact hX d b _ _ ch
  rw [Finset.sum_congr rfl (fun d _ => hd d)]
  rw [sum_rows (fun h => ∑ v : Fin 64, ((x b h v ch : ℝ) : EReal))]
  unfold Cert.Spec.sum1
  rw [coe_sum]
  exact Finset.sum_congr rfl (fun h _ => (coe_sum _ _).symm)

/-- rows 2–3 the sums of squares. -/
theorem total_sum2 (x : Cert.Spec.Arr) (X : Dev nD → Vec Ideal S2x64x64x64 .f32) (hX : HoldsBlocks X x) (b : Fin 2) (ch : Fin 64) :
    multiReduction (F := Ideal) .add [0] S4x64 (gathered X) 0x00000000#32 reduces_S8x4x64_S4x64 (.inl rfl) rfl (ix2 (hiRow b) ch)
      = ((Cert.Spec.sum2 x b ch : ℝ) : EReal) := by
  refine (Ideal.multiReduction_add_single (gathered X) 0x00000000#32 reduces_S8x4x64_S4x64 (.inl rfl) rfl (ix2 (hiRow b) ch)).trans ?_
  show ∑ d : Fin 8, gathered X (reduces_S8x4x64_S4x64.lift (ix2 (hiRow b) ch) d) = _
  -- each device's term: the sum of the squares over its 64 rows and the 64 columns
  have hd : ∀ d : Fin 8, gathered X (reduces_S8x4x64_S4x64.lift (ix2 (hiRow b) ch) d)
      = ∑ h' : Fin 64, ∑ v : Fin 64,
          ((x b (Cert.Spec.rowOf d h') v ch * x b (Cert.Spec.rowOf d h') v ch : ℝ) : EReal) := by
    intro d
    rw [lift_dev, gathered_apply, statRow_hi, pay3_apply]
    refine Eq.trans (Finset.sum_congr rfl (fun p _ => ?_))
      (sum_positions (fun h' v =>
        ((x b (Cert.Spec.rowOf d h') v ch * x b (Cert.Spec.rowOf d h') v ch : ℝ) : EReal)))
    rw [pay1_apply, hX d b _ _ ch]
    exact (EReal.coe_mul _ _).symm
  rw [Finset.sum_congr rfl (fun d _ => hd d)]
  rw [sum_rows (fun h => ∑ v : Fin 64, ((x b h v ch * x b h v ch : ℝ) : EReal))]
  unfold Cert.Spec.sum2
  rw [coe_sum]
  exact Finset.sum_congr rfl (fun h _ => (coe_sum _ _).symm)

end Cert.KernelIdeal.Hand

end
-- ==== Proof.SpecAlg.lean ====
/-
  The two arrangements of the statistics agree over the reals: the mean squared deviation is the mean of the
  squares minus the squared mean; a variance is not negative; and the unit written with a reciprocal square
  root and a reciprocal of `1 + e^{0 − y}` is the unit written with two quotients.
-/
import proofs.«900777_g7700000000000778_dist_diff_noisepred_hshard_i_b2_h64_w64_c64_v7x_i8_f32_1_alg».proof.Proof.Spec

noncomputable section

namespace Cert.Spec

theorem mean_eq_sum1 (x : Arr) (b : Fin 2) (ch : Fin 64) : mean x b ch = sum1 x b ch / 32768 := rfl

/-- The sum of squared deviations from any constant `μ`, expanded: `(x − μ)² = x² − 2μx + μ²` summed over the
    512 · 64 = 32768 positions. -/
theorem sum_sq_dev (x : Arr) (b : Fin 2) (ch : Fin 64) (μ : ℝ) :
    (∑ h : Fin 512, ∑ v : Fin 64, (x b h v ch - μ) * (x b h v ch - μ))
      = sum2 x b ch - 2 * μ * sum1 x b ch + 32768 * (μ * μ) := by
  unfold sum1 sum2
  have hrow : ∀ h : Fin 512, ∑ v : Fin 64, (x b h v ch - μ) * (x b h v ch - μ)
      = (∑ v : Fin 64, x b h v ch * x b h v ch) - 2 * μ * (∑ v : Fin 64, x b h v ch) + 64 * (μ * μ) := by
    intro h
    have hc : (64 : ℝ) * (μ * μ) = ∑ _v : Fin 64, μ * μ := by
      rw [Finset.sum_const, Finset.card_univ, Fintype.card_fin, nsmul_eq_mul]; norm_num
    rw [Finset.mul_sum, ← Finset.sum_sub_distrib, hc, ← Finset.sum_add_distrib]
    exact Finset.sum_congr rfl fun v _ => by ring
  have hc : ∑ _h : Fin 512, (64 : ℝ) * (μ * μ) = 32768 * (μ * μ) := by
    rw [Finset.sum_const, Finset.card_univ, Fintype.card_fin, nsmul_eq_mul]; norm_num; ring
  rw [Finset.sum_congr rfl fun h _ => hrow h, Finset.sum_add_distrib, Finset.sum_sub_distrib,
    ← Finset.mul_sum, hc]

theorem var_eq_sums (x : Arr) (b : Fin 2) (ch : Fin 64) :
    var x b ch = sum2 x b ch / 32768 - sum1 x b ch / 32768 * (sum1 x b ch / 32768) := by
  unfold var
  rw [sum_sq_dev, mean_eq_sum1]
  field_simp
  ring

theorem var_nonneg (x : Arr) (b : Fin 2) (ch : Fin 64) : 0 ≤ var x b ch := by
  unfold var
  exact div_nonneg (Finset.sum_nonneg fun h _ => Finset.sum_nonneg fun v _ => mul_self_nonneg _) (by norm_num)

/-- The kernel's arrangement of the unit is `act`. -/
theorem act_eq (ε : ℝ) (hε : 0 < ε) (x : Arr) (b : Fin 2) (h : Fin 512) (v : Fin 64) (ch : Fin 64) :
    ((x b h v ch - sum1 x b ch / 32768)
        * (Real.sqrt (sum2 x b ch / 32768 - sum1 x b ch / 32768 * (sum1 x b ch / 32768) + ε))⁻¹)
      * (1 / (1 + Real.exp (0 - (x b h v ch - sum1 x b ch / 32768)
          * (Real.sqrt (sum2 x b ch / 32768 - sum1 x b ch / 32768 * (sum1 x b ch / 32768) + ε))⁻¹)))
      = act ε x b h v ch := by
  rw [← var_eq_sums, ← mean_eq_sum1]
  unfold act hid
  rw [← div_eq_mul_inv, zero_sub, mul_one_div]

end Cert.Spec

end
-- ==== Proof.Consts.lean ====
/-
  The float constants the two programs spell, as the extended reals their patterns denote: the count 32768 of
  positions one mean runs over, the small positive number added to the variance under the square root, and the
  two infinite patterns.
-/
import Idealize.ShloMosaic.PureOps.Ideal

noncomputable section

namespace Cert.Consts

open Idealize.ShloMosaic

/-- The pattern `0x47000000` denotes the real 32768 = 2¹⁵. -/
theorem ofBits_32768 : Ideal.ofBits .f32 0x47000000#32 = ((32768 : ℝ) : EReal) := by
  simp [Ideal.ofBits, Ideal.ieee, -EReal.coe_mul]; norm_num

/-- The pattern `0x3727C5AC` denotes the real 10995116 · 2⁻⁴⁰ (about 10⁻⁵): sign clear, exponent field 110,
    significand 2²³ + 2606508. -/
theorem ofBits_eps : Ideal.ofBits .f32 0x3727C5AC#32 = (((10995116 : ℝ) / 1099511627776 : ℝ) : EReal) := by
  simp [Ideal.ofBits, Ideal.ieee, -EReal.coe_mul]; norm_num

/-- That pattern denotes a positive real. -/
theorem eps_real : ∃ ε : ℝ, 0 < ε ∧ Ideal.ofBits .f32 0x3727C5AC#32 = ((ε : ℝ) : EReal) :=
  ⟨(10995116 : ℝ) / 1099511627776, by norm_num, ofBits_eps⟩

/-- The pattern `0x7F800000` (exponent field all ones, significand zero, sign clear) denotes `⊤`. -/
theorem ofBits_inf : Ideal.ofBits .f32 0x7F800000#32 = ⊤ := by
  simp [Ideal.ofBits, Ideal.ieee]

/-- The pattern `0xFF800000` (the same with the sign set) denotes `⊥`. -/
theorem ofBits_neg_inf : Ideal.ofBits .f32 0xFF800000#32 = ⊥ := by
  simp [Ideal.ofBits, Ideal.ieee]

end Cert.Consts

end
-- ==== Proof.KerValue.lean ====
/-
  The body's stored value read at an index: from the block, the summed statistics and the matrix it is the
  projection of the sigmoid-weighted units of the normalised block — `Cert.Spec.out` at the block's rows.
-/
import proofs.«900777_g7700000000000778_dist_diff_noisepred_hshard_i_b2_h64_w64_c64_v7x_i8_f32_1_alg».proof.Proof.KerStats
import proofs.«900777_g7700000000000778_dist_diff_noisepred_hshard_i_b2_h64_w64_c64_v7x_i8_f32_1_alg».proof.Proof.SpecAlg
import proofs.«900777_g7700000000000778_dist_diff_noisepred_hshard_i_b2_h64_w64_c64_v7x_i8_f32_1_alg».proof.Proof.Consts
import Idealize.ShloMosaic.Lib.IdealHost

noncomputable section

namespace Cert.KernelIdeal.Hand

open Cert.KernelIdeal Cert.KernelIdeal.Gen
open Idealize.ShloMosaic Idealize.ShloMosaic.ValueIdx Idealize.SL.Sem

/-! ## The layout operations of the body read at an index -/

section Layout
variable {α : Type}

/-- Rows 0–1 of a 4 × 64 array: row `b` of the slice at offset 0 is row `b`. -/
theorem slice_lo_apply (T : S4x64.Idx → α) (h : S4x64.Slices ![0, 0] S2x64) (b : Fin 2) (ch : Fin 64) :
    extractStridedSlice S2x64 ![0, 0] T h (ix2 b ch) = T (ix2 (loRow b) ch) :=
  extractStridedSlice_apply _ T h _ _ fun a => match a with
    | ⟨0, _⟩ => by show b.val = 0 + b.val; omega
    | ⟨1, _⟩ => by show ch.val = 0 + ch.val; omega

/-- Rows 2–3 of a 4 × 64 array: row `b` of the slice at offset 2 is row `b + 2`. -/
theorem slice_hi_apply (T : S4x64.Idx → α) (h : S4x64.Slices ![2, 0] S2x64) (b : Fin 2) (ch : Fin 64) :
    extractStridedSlice S2x64 ![2, 0] T h (ix2 b ch) = T (ix2 (hiRow b) ch) :=
  extractStridedSlice_apply _ T h _ _ fun a => match a with
    | ⟨0, _⟩ => by show b.val + 2 = 2 + b.val; omega
    | ⟨1, _⟩ => by show ch.val = 0 + ch.val; omega

/-- A 2 × 64 array viewed 2 × 1 × 64 reads `(b, ch)` at `(b, 0, ch)`. -/
theorem keep_cast_apply (x : S2x64.Idx → α) (h : S2x64.ShapeCasts S2x1x64) (b : Fin 2) (u : Fin 1) (ch : Fin 64) :
    shapeCast S2x1x64 x h (ix3 b u ch) = x (ix2 b ch) :=
  shapeCast_apply x h _ _ (by
    have hu : u.val = 0 := by omega
    rw [Shape.rowMajor_val_three, Shape.rowMajor_val_two]
    show b.val * 64 + ch.val = (b.val * 1 + u.val) * 64 + ch.val
    rw [hu]; omega)

/-- A 2 × 1 × 64 array broadcast over 4096 positions reads its one row at every position. -/
theorem keep_bcast_apply (x : S2x1x64.Idx → α) (h : S2x1x64.Broadcasts S2x4096x64) (b : Fin 2) (p : Fin 4096) (ch : Fin 64) :
    broadcastTo S2x4096x64 x h (ix3 b p ch) = x (ix3 b (0 : Fin 1) ch) := by
  refine broadcastTo_apply x h _ _ fun a => ?_
  match a with
  | ⟨0, _⟩ => rfl
  | ⟨1, _⟩ => rfl
  | ⟨2, _⟩ => rfl

/-- The block 2 × 64 × 64 × 64 viewed 2 × 4096 × 64: position `p = 64 · h' + v` is row `h'`, column `v`. -/
theorem block_cast_apply (x : S2x64x64x64.Idx → α) (h : S2x64x64x64.ShapeCasts S2x4096x64) (b : Fin 2) (h' v ch : Fin 64)
    (p : Fin 4096) (hp : p.val = h'.val * 64 + v.val) :
    shapeCast S2x4096x64 x h (ix3 b p ch) = x (ix4 b h' v ch) :=
  shapeCast_apply x h _ _ (by
    rw [Shape.rowMajor_val_four, Shape.rowMajor_val_three]
    show ((b.val * 64 + h'.val) * 64 + v.val) * 64 + ch.val = (b.val * 4096 + p.val) * 64 + ch.val
    rw [hp]; omega)

/-- 2 × 4096 × 64 viewed 8192 × 64: row `r = 4096 · b + p` is position `p` of batch entry `b`. -/
theorem flat_cast_apply (x : S2x4096x64.Idx → α) (h : S2x4096x64.ShapeCasts S8192x64) (b : Fin 2) (p : Fin 4096) (ch : Fin 64)
    (r : Fin 8192) (hr : r.val = b.val * 4096 + p.val) :
    shapeCast S8192x64 x h (ix2 r ch) = x (ix3 b p ch) :=
  shapeCast_apply x h _ _ (by
    rw [Shape.rowMajor_val_three, Shape.rowMajor_val_two]
    show (b.val * 4096 + p.val) * 64 + ch.val = r.val * 64 + ch.val
    rw [hr])

/-- 8192 × 128 viewed 2 × 64 × 64 × 128: `(b, h', v)` is row `(64 · b + h') · 64 + v`. -/
theorem out_cast_apply (x : S8192x128.Idx → α) (h : S8192x128.ShapeCasts S2x64x64x128) (b : Fin 2) (h' v : Fin 64) (j : Fin 128)
    (r : Fin 8192) (hr : r.val = (b.val * 64 + h'.val) * 64 + v.val) :
    shapeCast S2x64x64x128 x h (ix4 b h' v j) = x (ix2 r j) :=
  shapeCast_apply x h _ _ (by
    rw [Shape.rowMajor_val_two, Shape.rowMajor_val_four]
    show r.val * 128 + j.val = ((b.val * 64 + h'.val) * 64 + v.val) * 128 + j.val
    rw [hr])

end Layout

/-- The block as the body reads it, 2 × 4096 × 64, at position `p = 64 · h' + v`. -/
theorem pay1_apply (X : Vec Ideal S2x64x64x64 .f32) (b : Fin 2) (h' v ch : Fin 64) (p : Fin 4096)
    (hp : p.val = h'.val * 64 + v.val) : k0_pay1 (F := Ideal) X (ix3 b p ch) = X (ix4 b h' v ch) := by
  unfold k0_pay1
  refine (block_cast_apply _ _ b h' v ch p hp).trans ?_
  exact congrFun (shapeCast_self X _) _

/-! ## The projection as a sum over the channels -/

theorem lhs_proj_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide),
    dif_pos (show (0 : Fin S8192x64.rank) ∈ dot_S8192x64_S64x128_S8192x128_1_0_0_1_n_n.lhsNonContracting by decide)]
  rfl

theorem lhs_proj_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q

theorem rhs_proj_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q

theorem rhs_proj_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide),
    dif_pos (show (1 : Fin S64x128.rank) ∈ dot_S8192x64_S64x128_S8192x128_1_0_0_1_n_n.rhsNonContracting by decide)]
  rfl

/-- The matrix product into a zero accumulator, read at `(r, j)`: the sum over the 64 channels of row `r` of the left
    operand against column `j` of the right. -/
theorem proj_apply (A : FVec Ideal S8192x64 .f32) (B : FVec Ideal S64x128 .f32) (r : Fin 8192) (j : Fin 128) :
    matmul dot_S8192x64_S64x128_S8192x128_1_0_0_1_n_n none A B (constant (F := Ideal) S8192x128 .f32 0x00000000#32) (ix2 r j)
      = ∑ k : Fin 64, A (ix2 r k) * B (ix2 k j) := by
  refine (Ideal.matmul_constant_zero_apply dot_S8192x64_S64x128_S8192x128_1_0_0_1_n_n none A B (ix2 r j)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 r j)
      ((contrEquiv1 dot_S8192x64_S64x128_S8192x128_1_0_0_1_n_n 64 rfl rfl).symm k) = ix2 r k := funext fun a => Fin.ext (by
    match a with
    | ⟨0, _⟩ => exact lhs_proj_0 _ _
    | ⟨1, _⟩ => exact (lhs_proj_1 _ _).trans hk)
  have er : dot_S8192x64_S64x128_S8192x128_1_0_0_1_n_n.rhsIdx (ix2 r j)
      ((contrEquiv1 dot_S8192x64_S64x128_S8192x128_1_0_0_1_n_n 64 rfl rfl).symm k) = ix2 k j := funext fun a => Fin.ext (by
    match a with
    | ⟨0, _⟩ => exact (rhs_proj_0 _ _).trans hk
    | ⟨1, _⟩ => exact rhs_proj_1 _ _)
  rw [el, er]

/-! ## The body's value in stages -/

/-- The kernel's mean row: rows 0–1 of the summed statistics divided by the 32768 positions. -/
def meanRow (T : FVec Ideal S4x64 .f32) : FVec Ideal S2x64 .f32 :=
  divf (extractStridedSlice S2x64 ![0, 0] T slices_S4x64_o0_0_S2x64) (broadcast S2x64 (Scalar.ofBits (F := Ideal) .f32 0x47000000#32))

/-- The kernel's reciprocal standard deviation row: the reciprocal square root of `E[x²] − mean² + ε`. -/
def rstdRow (T : FVec Ideal S4x64 .f32) : FVec Ideal S2x64 .f32 :=
  rsqrt (addf (subf (divf (extractStridedSlice S2x64 ![2, 0] T slices_S4x64_o2_0_S2x64)
        (broadcast S2x64 (Scalar.ofBits (F := Ideal) .f32 0x47000000#32)))
      (mulf (meanRow T) (meanRow T))) (broadcast S2x64 (Scalar.ofBits (F := Ideal) .f32 0x3727C5AC#32)))

/-- The normalised block: `(x − mean) · rstd`, the two rows spread over the 4096 positions. -/
def hidArr (A : FVec Ideal S2x4096x64 .f32) (T : FVec Ideal S4x64 .f32) : FVec Ideal S2x4096x64 .f32 :=
  mulf (subf A (broadcastTo S2x4096x64 (shapeCast S2x1x64 (meanRow T) shapeCasts_S2x64_S2x1x64) broadcasts_S2x1x64_S2x4096x64))
    (broadcastTo S2x4096x64 (shapeCast S2x1x64 (rstdRow T) shapeCasts_S2x64_S2x1x64) broadcasts_S2x1x64_S2x4096x64)

/-- The units: `y · (1 / (1 + e^{0 − y}))` of the normalised block `y`. -/
def actArr (A : FVec Ideal S2x4096x64 .f32) (T : FVec Ideal S4x64 .f32) : FVec Ideal S2x4096x64 .f32 :=
  mulf (hidArr A T) (divf (broadcast S2x4096x64 (Scalar.ofBits (F := Ideal) .f32 0x3F800000#32))
    (addf (broadcast S2x4096x64 (Scalar.ofBits (F := Ideal) .f32 0x3F800000#32))
      (exp (subf (broadcast S2x4096x64 (Scalar.ofBits (F := Ideal) .f32 0x00000000#32)) (hidArr A T)))))

/-- The body's stored value is the projection of the units, reshaped. -/
theorem pay4_eq (A : FVec Ideal S2x4096x64 .f32) (C : Vec Ideal S8x4x64 .f32) (W : Vec Ideal S64x128 .f32) :
    k0_pay4 (F := Ideal) A C W
      = shapeCast S2x64x64x128 (matmul (φ₁ := .f32) (φ₂ := .f32) dot_S8192x64_S64x128_S8192x128_1_0_0_1_n_n none
          (shapeCast S8192x64 (actArr A (multiReduction (F := Ideal) .add [0] S4x64 C 0x00000000#32 reduces_S8x4x64_S4x64 (.inl rfl) rfl))
            shapeCasts_S2x4096x64_S8192x64)
          (shapeCast S64x128 (W : FVec Ideal S64x128 .f32) shapeCasts_S64x128_S64x128) (constant (F := Ideal) S8192x128 .f32 0x00000000#32))
        shapeCasts_S8192x128_S2x64x64x128 := rfl

/-- The mean row holds `sum1 / 32768`. -/
theorem meanRow_apply (T : FVec Ideal S4x64 .f32) (s1 : ℝ) (b : Fin 2) (ch : Fin 64)
    (h1 : T (ix2 (loRow b) ch) = ((s1 : ℝ) : EReal)) : meanRow T (ix2 b ch) = ((s1 / 32768 : ℝ) : EReal) := by
  have h32 : (32768 : ℝ) ≠ 0 := by norm_num
  show Ideal.div (extractStridedSlice S2x64 ![0, 0] T slices_S4x64_o0_0_S2x64 (ix2 b ch)) (Ideal.ofBits .f32 0x47000000#32) = _
  rw [slice_lo_apply, h1, Cert.Consts.ofBits_32768, Ideal.div_coe h32, ← EReal.coe_mul, mul_one_div]

/-- The reciprocal standard deviation row holds `1 / √(sum2 / 32768 − (sum1 / 32768)² + ε)` where that is positive. -/
theorem rstdRow_apply (ε : ℝ) (hε : Ideal.ofBits .f32 0x3727C5AC#32 = ((ε : ℝ) : EReal)) (T : FVec Ideal S4x64 .f32)
    (s1 s2 : ℝ) (b : Fin 2) (ch : Fin 64) (h1 : T (ix2 (loRow b) ch) = ((s1 : ℝ) : EReal))
    (h2 : T (ix2 (hiRow b) ch) = ((s2 : ℝ) : EReal)) (hpos : 0 < s2 / 32768 - s1 / 32768 * (s1 / 32768) + ε) :
    rstdRow T (ix2 b ch) = (((Real.sqrt (s2 / 32768 - s1 / 32768 * (s1 / 32768) + ε))⁻¹ : ℝ) : EReal) := by
  have h32 : (32768 : ℝ) ≠ 0 := by norm_num
  show Ideal.rsqrt (Ideal.div (extractStridedSlice S2x64 ![2, 0] T slices_S4x64_o2_0_S2x64 (ix2 b ch)) (Ideal.ofBits .f32 0x47000000#32)
      - meanRow T (ix2 b ch) * meanRow T (ix2 b ch) + Ideal.ofBits .f32 0x3727C5AC#32) = _
  rw [slice_hi_apply, h2, meanRow_apply T s1 b ch h1, Cert.Consts.ofBits_32768, Ideal.div_coe h32, hε, ← EReal.coe_mul,
    ← EReal.coe_mul, ← EReal.coe_sub, ← EReal.coe_add, mul_one_div, Ideal.rsqrt_coe, if_neg (not_lt.2 hpos.le), if_neg hpos.ne']

/-- The normalised block at a position, from the block's value and the two rows. -/
theorem hidArr_apply (A : FVec Ideal S2x4096x64 .f32) (T : FVec Ideal S4x64 .f32) (xv m rs : ℝ) (b : Fin 2) (p : Fin 4096)
    (ch : Fin 64) (hA : A (ix3 b p ch) = ((xv : ℝ) : EReal)) (hm : meanRow T (ix2 b ch) = ((m : ℝ) : EReal))
    (hr : rstdRow T (ix2 b ch) = ((rs : ℝ) : EReal)) : hidArr A T (ix3 b p ch) = (((xv - m) * rs : ℝ) : EReal) := by
  show (A (ix3 b p ch)
      - broadcastTo S2x4096x64 (shapeCast S2x1x64 (meanRow T) shapeCasts_S2x64_S2x1x64) broadcasts_S2x1x64_S2x4096x64 (ix3 b p ch))
    * broadcastTo S2x4096x64 (shapeCast S2x1x64 (rstdRow T) shapeCasts_S2x64_S2x1x64) broadcasts_S2x1x64_S2x4096x64 (ix3 b p ch) = _
  rw [keep_bcast_apply, keep_bcast_apply, keep_cast_apply, keep_cast_apply, hA, hm, hr, ← EReal.coe_sub, ← EReal.coe_mul]

/-- The unit at a position where the normalised block is the real `y`. -/
theorem actArr_apply (A : FVec Ideal S2x4096x64 .f32) (T : FVec Ideal S4x64 .f32) (y : ℝ) (i : S2x4096x64.Idx)
    (hy : hidArr A T i = ((y : ℝ) : EReal)) : actArr A T i = ((y * (1 / (1 + Real.exp (0 - y))) : ℝ) : EReal) := by
  have hpos : (1 + Real.exp (0 - y)) ≠ 0 := by positivity
  show hidArr A T i * Ideal.div (Ideal.ofBits .f32 0x3F800000#32)
      (Ideal.ofBits .f32 0x3F800000#32 + Ideal.exp (Ideal.ofBits .f32 0x00000000#32 - hidArr A T i)) = _
  rw [hy, Ideal.ofBits_one_f32, Ideal.ofBits_zero_f32, ← EReal.coe_zero, ← EReal.coe_one, ← EReal.coe_sub, Ideal.exp_coe,
    ← EReal.coe_add, Ideal.div_coe hpos, ← EReal.coe_mul, ← EReal.coe_mul, one_mul]

/-- A finite sum of reals, coerced, is the sum of the coerced terms. -/
theorem coe_sum_finset {ι : Type} (s : Finset ι) (f : ι → ℝ) : ((∑ k ∈ s, f k : ℝ) : EReal) = ∑ k ∈ s, ((f k : ℝ) : EReal) := by
  classical
  refine Finset.induction_on s (by simp) fun a s ha ih => ?_
  rw [Finset.sum_insert ha, Finset.sum_insert ha, EReal.coe_add, ih]

/-- The projection of the units at an index, from what the block, the summed statistics and the matrix hold. -/
theorem stored_apply (ε : ℝ) (hεpos : 0 < ε) (hε : Ideal.ofBits .f32 0x3727C5AC#32 = ((ε : ℝ) : EReal))
    (x : Cert.Spec.Arr) (w : Cert.Spec.Mat) (c : Dev nD)
    (A : FVec Ideal S2x4096x64 .f32) (T : FVec Ideal S4x64 .f32) (W : FVec Ideal S64x128 .f32)
    (hA : ∀ (b : Fin 2) (h' v ch : Fin 64) (p : Fin 4096), p.val = h'.val * 64 + v.val →
      A (ix3 b p ch) = ((x b (Cert.Spec.rowOf c h') v ch : ℝ) : EReal))
    (hW : Cert.Spec.HoldsMat W w)
    (hT1 : ∀ (b : Fin 2) (ch : Fin 64), T (ix2 (loRow b) ch) = ((Cert.Spec.sum1 x b ch : ℝ) : EReal))
    (hT2 : ∀ (b : Fin 2) (ch : Fin 64), T (ix2 (hiRow b) ch) = ((Cert.Spec.sum2 x b ch : ℝ) : EReal))
    (b : Fin 2) (h' : Fin 64) (v : Fin 64) (j : Fin 128) :
    shapeCast S2x64x64x128 (matmul dot_S8192x64_S64x128_S8192x128_1_0_0_1_n_n none
        (shapeCast S8192x64 (actArr A T) shapeCasts_S2x4096x64_S8192x64)
        (shapeCast S64x128 W shapeCasts_S64x128_S64x128) (constant (F := Ideal) S8192x128 .f32 0x00000000#32))
      shapeCasts_S8192x128_S2x64x64x128 (ix4 b h' v j)
      = ((Cert.Spec.out ε x w b (Cert.Spec.rowOf c h') v j : ℝ) : EReal) := by
  have hb := b.isLt
  have hh := h'.isLt
  have hv := v.isLt
  have hpv : h'.val * 64 + v.val < 4096 := by omega
  have hrv : (b.val * 64 + h'.val) * 64 + v.val < 8192 := by omega
  refine (out_cast_apply _ _ b h' v j ⟨_, hrv⟩ rfl).trans ?_
  refine (proj_apply _ _ _ j).trans ?_
  unfold Cert.Spec.out
  rw [coe_sum_finset]
  refine Finset.sum_congr rfl fun ch _ => ?_
  rw [EReal.coe_mul, shapeCast_self W, hW ch j]
  refine congrArg (· * _) ?_
  refine (flat_cast_apply _ _ b ⟨_, hpv⟩ ch _ (by show (b.val * 64 + h'.val) * 64 + v.val = b.val * 4096 + (h'.val * 64 + v.val); omega)).trans ?_
  have hpos : 0 < Cert.Spec.sum2 x b ch / 32768 - Cert.Spec.sum1 x b ch / 32768 * (Cert.Spec.sum1 x b ch / 32768) + ε := by
    have hv0 := Cert.Spec.var_nonneg x b ch
    rw [Cert.Spec.var_eq_sums] at hv0
    linarith
  rw [actArr_apply A T _ _ (hidArr_apply A T _ _ _ b _ ch (hA b h' v ch _ rfl) (meanRow_apply T _ b ch (hT1 b ch))
    (rstdRow_apply ε hε T _ _ b ch (hT1 b ch) (hT2 b ch) hpos))]
  exact congrArg _ (Cert.Spec.act_eq ε hεpos x b (Cert.Spec.rowOf c h') v ch)

/-- The stored value of ONE device at an index, from what its statistics buffer sums to. -/
theorem pay4_apply (ε : ℝ) (hεpos : 0 < ε) (hε : Ideal.ofBits .f32 0x3727C5AC#32 = ((ε : ℝ) : EReal))
    (x : Cert.Spec.Arr) (w : Cert.Spec.Mat) (c : Dev nD)
    (Xc : Vec Ideal S2x64x64x64 .f32) (C : Vec Ideal S8x4x64 .f32) (W : Vec Ideal S64x128 .f32)
    (hXc : ∀ (b : Fin 2) (h' : Fin 64) (v : Fin 64) (ch : Fin 64), Xc (ix4 b h' v ch) = ((x b (Cert.Spec.rowOf c h') v ch : ℝ) : EReal))
    (hW : Cert.Spec.HoldsMat W w)
    (hT1 : ∀ (b : Fin 2) (ch : Fin 64),
      multiReduction (F := Ideal) .add [0] S4x64 C 0x00000000#32 reduces_S8x4x64_S4x64 (.inl rfl) rfl (ix2 (loRow b) ch)
        = ((Cert.Spec.sum1 x b ch : ℝ) : EReal))
    (hT2 : ∀ (b : Fin 2) (ch : Fin 64),
      multiReduction (F := Ideal) .add [0] S4x64 C 0x00000000#32 reduces_S8x4x64_S4x64 (.inl rfl) rfl (ix2 (hiRow b) ch)
        = ((Cert.Spec.sum2 x b ch : ℝ) : EReal))
    (b : Fin 2) (h' : Fin 64) (v : Fin 64) (j : Fin 128) :
    k0_pay4 (F := Ideal) (k0_pay1 Xc) C W (ix4 b h' v j) = ((Cert.Spec.out ε x w b (Cert.Spec.rowOf c h') v j : ℝ) : EReal) :=
  (congrFun (pay4_eq (k0_pay1 Xc) C W) (ix4 b h' v j)).trans
    (stored_apply ε hεpos hε x w c (k0_pay1 Xc) _ W
      (fun b h' v ch p hp => (pay1_apply Xc b h' v ch p hp).trans (hXc b h' v ch)) hW hT1 hT2 b h' v j)

/-- A device's result at an index. -/
theorem result_apply (ε : ℝ) (hεpos : 0 < ε) (hε : Ideal.ofBits .f32 0x3727C5AC#32 = ((ε : ℝ) : EReal))
    (x : Cert.Spec.Arr) (w : Cert.Spec.Mat) (X : Dev nD → Vec Ideal S2x64x64x64 .f32) (W : Vec Ideal S64x128 .f32)
    (hX : HoldsBlocks X x) (hW : Cert.Spec.HoldsMat W w) (c : Dev nD) (b : Fin 2) (h' : Fin 64) (v : Fin 64) (j : Fin 128) :
    result (F := Ideal) X W c (ix4 b h' v j) = ((Cert.Spec.out ε x w b (Cert.Spec.rowOf c h') v j : ℝ) : EReal) :=
  pay4_apply ε hεpos hε x w c (X c) (gathered X) W (hX c) hW (total_sum1 x X hX) (total_sum2 x X hX) b h' v j

end Cert.KernelIdeal.Hand

end
-- ==== Proof.RefRead.lean ====
/-
  The reference's result read at an index: `Cert.Spec.out` of the reals the arrays hold. Stage by stage: the sum over
  rows and columns as a double sum over the two coordinates, the mean, the squared deviations and their mean (the
  divisor 32768 − 0 is positive, so the quotient is kept), the normalised value (the square root is of a positive real),
  the unit (one plus an exponential is positive), and the projection, whose row (b · 512 + h) · 64 + v of the 65536 is
  the position (b, h, v).
-/
import proofs.«900777_g7700000000000778_dist_diff_noisepred_hshard_i_b2_h64_w64_c64_v7x_i8_f32_1_alg».proof.Proof.RefTerm
import proofs.«900777_g7700000000000778_dist_diff_noisepred_hshard_i_b2_h64_w64_c64_v7x_i8_f32_1_alg».proof.Proof.Spec
import proofs.«900777_g7700000000000778_dist_diff_noisepred_hshard_i_b2_h64_w64_c64_v7x_i8_f32_1_alg».proof.Proof.Consts
import Idealize.ShloMosaic.PureOps.Ideal.Laws
import Idealize.ShloMosaic.Lib.Pipeline.Value
import Idealize.ShloMosaic.Lib.IdealHost

noncomputable section

namespace Cert.ReferenceIdeal.Hand

open Cert.ReferenceIdeal Cert.ReferenceIdeal.Gen
open Idealize.ShloMosaic Idealize.ShloMosaic.ValueIdx Idealize.SL.Sem
open scoped BigOperators

/-- The sum over rows and columns: the host sum over axes 1 and 2 from zero, read at (b, ch). -/
theorem hostSum12 (X : FVec Ideal S2x512x64x64 .f32) (b : Fin 2) (ch : Fin 64) :
    Ideal.hostReduceAdd reducesTo_S2x512x64x64_S2x64_d1_2 X 0 (ix2 b ch)
      = ∑ h : Fin 512, ∑ v : Fin 64, X (ix4 b h v ch) := by
  unfold Ideal.hostReduceAdd
  rw [zero_add, ← Fintype.sum_prod_type' (f := fun (h : Fin 512) (v : Fin 64) => X (ix4 b h v ch))]
  refine Finset.sum_nbij' (fun i => (i 1, i 2)) (fun p => ix4 b p.1 p.2 ch) ?_ ?_ ?_ ?_ ?_
  · intro i _; exact Finset.mem_univ _
  · intro p _
    rw [Finset.mem_filter]
    refine ⟨Finset.mem_univ _, ?_⟩
    funext a
    match a with
    | ⟨0, _⟩ => exact Fin.ext (reducesTo_S2x512x64x64_S2x64_d1_2.drop_apply_val_of_eq _ 0 0)
    | ⟨1, _⟩ => exact Fin.ext (reducesTo_S2x512x64x64_S2x64_d1_2.drop_apply_val_of_eq _ 1 3)
  · intro i hi
    rw [Finset.mem_filter] at hi
    have h0 := congrArg (fun q => (q 0).val) hi.2
    have h1 := congrArg (fun q => (q 1).val) hi.2
    simp only at h0 h1
    rw [reducesTo_S2x512x64x64_S2x64_d1_2.drop_apply_val_of_eq i 0 0] at h0
    rw [reducesTo_S2x512x64x64_S2x64_d1_2.drop_apply_val_of_eq i 1 3] at h1
    funext a
    match a with
    | ⟨0, _⟩ => exact Fin.ext h0.symm
    | ⟨1, _⟩ => rfl
    | ⟨2, _⟩ => rfl
    | ⟨3, _⟩ => exact Fin.ext h1.symm
  · intro p _; rfl
  · intro i hi
    rw [Finset.mem_filter] at hi
    have h0 := congrArg (fun q => (q 0).val) hi.2
    have h1 := congrArg (fun q => (q 1).val) hi.2
    simp only at h0 h1
    rw [reducesTo_S2x512x64x64_S2x64_d1_2.drop_apply_val_of_eq i 0 0] at h0
    rw [reducesTo_S2x512x64x64_S2x64_d1_2.drop_apply_val_of_eq i 1 3] at h1
    refine congrArg X ?_
    funext a
    match a with
    | ⟨0, _⟩ => exact Fin.ext h0
    | ⟨1, _⟩ => rfl
    | ⟨2, _⟩ => rfl
    | ⟨3, _⟩ => exact Fin.ext h1

/-- A sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a divisor that is not zero is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

/-- The mean at (b, ·, ·, ch): the sum over rows and columns over 32768. -/
theorem refMean_apply (x : Cert.Spec.Arr) (xe : FVec Ideal S2x512x64x64 .f32) (hx : Cert.Spec.HoldsArr xe x)
    (b : Fin 2) (u u' : Fin 1) (ch : Fin 64) :
    refMean (F := Ideal) xe (ix4 b u u' ch) = ((Cert.Spec.mean x b ch : ℝ) : EReal) := by
  unfold refMean
  rw [hostDivf_apply, broadcastInDim_scalar_apply, constant_apply, Cert.Consts.ofBits_32768,
    broadcastInDim_apply _ _ _ _ (ix2 b ch) (fun a => match a with | ⟨0, _⟩ => rfl | ⟨1, _⟩ => rfl),
    hostReduceAdd_apply, constant_apply, Ideal.ofBits_zero_f32, hostSum12]
  simp only [hx b]
  simp only [coe_sum]
  rw [div_coe_coe _ (by norm_num)]
  rfl

/-- The variance's divisor is 32768: the zero word converts to zero. -/
theorem refCount_apply : refCount (F := Ideal) ix0 = ((32768 : ℝ) : EReal) := by
  show Ideal.ofBits .f32 0x47000000#32 - (((0#32 : BitVec 32).toInt : ℝ) : EReal) = _
  rw [Cert.Consts.ofBits_32768]; simp

/-- The squared deviation at a position. -/
theorem refSq_apply (x : Cert.Spec.Arr) (xe : FVec Ideal S2x512x64x64 .f32) (hx : Cert.Spec.HoldsArr xe x)
    (b : Fin 2) (h : Fin 512) (v : Fin 64) (ch : Fin 64) :
    refSq (F := Ideal) xe (ix4 b h v ch)
      = (((x b h v ch - Cert.Spec.mean x b ch) * (x b h v ch - Cert.Spec.mean x b ch) : ℝ) : EReal) := by
  unfold refSq
  rw [mulf_apply, subf_apply,
    broadcastInDim_apply _ _ _ _ (ix4 b 0 0 ch)
      (fun a => match a with | ⟨0, _⟩ => rfl | ⟨1, _⟩ => rfl | ⟨2, _⟩ => rfl | ⟨3, _⟩ => rfl),
    refMean_apply x xe hx, hx, ← EReal.coe_sub, ← EReal.coe_mul]

/-- The variance at (b, ·, ·, ch): the divisor is positive, so the select keeps the quotient. -/
theorem refVar_apply (x : Cert.Spec.Arr) (xe : FVec Ideal S2x512x64x64 .f32) (hx : Cert.Spec.HoldsArr xe x)
    (b : Fin 2) (u u' : Fin 1) (ch : Fin 64) :
    refVar (F := Ideal) xe (ix4 b u u' ch) = ((Cert.Spec.var x b ch : ℝ) : EReal) := by
  unfold refVar
  rw [select_apply, broadcastInDim_scalar_apply, cmpf_apply, refCount_apply, constant_apply, Ideal.ofBits_zero_f32]
  have hc : FloatOps.cmpf (F := Ideal) (φ := .f32) .ogt ((32768 : ℝ) : EReal) 0 = 1#1 := by
    show BitVec.ofBool (decide ((0 : EReal) < ((32768 : ℝ) : EReal))) = 1#1
    rw [decide_eq_true (by exact_mod_cast (by norm_num : (0 : ℝ) < 32768))]; rfl
  rw [hc, select_one, hostDivf_apply, broadcastInDim_scalar_apply, refCount_apply,
    broadcastInDim_apply _ _ _ _ (ix2 b ch) (fun a => match a with | ⟨0, _⟩ => rfl | ⟨1, _⟩ => rfl),
    hostReduceAdd_apply, constant_apply, Ideal.ofBits_zero_f32, hostSum12]
  simp only [refSq_apply x xe hx]
  simp only [coe_sum]
  rw [div_coe_coe _ (by norm_num)]
  rfl

/-- A mean of squares is not negative. -/
theorem var_nonneg (x : Cert.Spec.Arr) (b : Fin 2) (ch : Fin 64) : 0 ≤ Cert.Spec.var x b ch := by
  unfold Cert.Spec.var
  exact div_nonneg (Finset.sum_nonneg fun h _ => Finset.sum_nonneg fun v _ => mul_self_nonneg _) (by norm_num)

/-- The normalised value at a position: the square root is of a positive real, so it is the real one and not zero. -/
theorem refHid_apply (ε : ℝ) (hεpos : 0 < ε) (hε : Ideal.ofBits .f32 0x3727C5AC#32 = ((ε : ℝ) : EReal))
    (x : Cert.Spec.Arr) (xe : FVec Ideal S2x512x64x64 .f32) (hx : Cert.Spec.HoldsArr xe x)
    (b : Fin 2) (h : Fin 512) (v : Fin 64) (ch : Fin 64) :
    refHid (F := Ideal) xe (ix4 b h v ch) = ((Cert.Spec.hid ε x b h v ch : ℝ) : EReal) := by
  have hpos : 0 < Cert.Spec.var x b ch + ε := add_pos_of_nonneg_of_pos (var_nonneg x b ch) hεpos
  unfold refHid
  rw [hostDivf_apply, subf_apply,
    broadcastInDim_apply _ _ _ _ (ix4 b 0 0 ch)
      (fun a => match a with | ⟨0, _⟩ => rfl | ⟨1, _⟩ => rfl | ⟨2, _⟩ => rfl | ⟨3, _⟩ => rfl),
    broadcastInDim_apply _ _ _ _ (ix4 b 0 0 ch)
      (fun a => match a with | ⟨0, _⟩ => rfl | ⟨1, _⟩ => rfl | ⟨2, _⟩ => rfl | ⟨3, _⟩ => rfl),
    refMean_apply x xe hx, hx, ← EReal.coe_sub]
  show Ideal.div _ (Ideal.sqrt (refVar (F := Ideal) xe (ix4 b 0 0 ch)
    + broadcastInDim S2x1x1x64 ![] bcast_S_S2x1x1x64 (constant (F := Ideal) S_ .f32 0x3727C5AC#32) (ix4 b 0 0 ch))) = _
  rw [refVar_apply x xe hx, broadcastInDim_scalar_apply, constant_apply, hε, ← EReal.coe_add, Ideal.sqrt_coe,
    if_neg (not_lt.mpr hpos.le), div_coe_coe _ (Real.sqrt_pos.mpr hpos).ne']
  rfl

/-- The unit at a position: one plus an exponential is positive. -/
theorem refAct_apply (ε : ℝ) (hεpos : 0 < ε) (hε : Ideal.ofBits .f32 0x3727C5AC#32 = ((ε : ℝ) : EReal))
    (x : Cert.Spec.Arr) (xe : FVec Ideal S2x512x64x64 .f32) (hx : Cert.Spec.HoldsArr xe x)
    (b : Fin 2) (h : Fin 512) (v : Fin 64) (ch : Fin 64) :
    refAct (F := Ideal) xe (ix4 b h v ch) = ((Cert.Spec.act ε x b h v ch : ℝ) : EReal) := by
  unfold refAct
  rw [hostDivf_apply, addf_apply, broadcastInDim_scalar_apply, constant_apply, Ideal.ofBits_one_f32]
  show Ideal.div _ (1 + Ideal.exp (-(refHid (F := Ideal) xe (ix4 b h v ch)))) = _
  rw [refHid_apply ε hεpos hε x xe hx, ← EReal.coe_neg, Ideal.exp_coe, ← EReal.coe_one, ← EReal.coe_add,
    div_coe_coe _ (by positivity)]
  rfl

/-- The operand indices of the projection at result index (r, j) and contraction coordinate ch: (r, ch) and (ch, j). -/
theorem dot_lhs0 (r : Fin 65536) (j : Fin 128) (k : dot_S65536x64_S64x128_S65536x128_1_0_0_1_n_n.contr.Idx) :
    (dot_S65536x64_S64x128_S65536x128_1_0_0_1_n_n.lhsIdx (ix2 r j) k 0).val = r.val := rfl
theorem dot_rhs1 (r : Fin 65536) (j : Fin 128) (k : dot_S65536x64_S64x128_S65536x128_1_0_0_1_n_n.contr.Idx) :
    (dot_S65536x64_S64x128_S65536x128_1_0_0_1_n_n.rhsIdx (ix2 r j) k 1).val = j.val := rfl
theorem dot_lhs1 (r : Fin 65536) (j : Fin 128) (k : dot_S65536x64_S64x128_S65536x128_1_0_0_1_n_n.contr.Idx) :
    (dot_S65536x64_S64x128_S65536x128_1_0_0_1_n_n.lhsIdx (ix2 r j) k 1).val = (k ⟨0, by decide⟩).val :=
  dot_S65536x64_S64x128_S65536x128_1_0_0_1_n_n.lhsIdx_val_of_single rfl _ k
theorem dot_rhs0 (r : Fin 65536) (j : Fin 128) (k : dot_S65536x64_S64x128_S65536x128_1_0_0_1_n_n.contr.Idx) :
    (dot_S65536x64_S64x128_S65536x128_1_0_0_1_n_n.rhsIdx (ix2 r j) k 0).val = (k ⟨0, by decide⟩).val :=
  dot_S65536x64_S64x128_S65536x128_1_0_0_1_n_n.rhsIdx_val_of_single rfl _ k

theorem refOut_apply (ε : ℝ) (hεpos : 0 < ε) (hε : Ideal.ofBits .f32 0x3727C5AC#32 = ((ε : ℝ) : EReal))
    (x : Cert.Spec.Arr) (w : Cert.Spec.Mat) (xe : FVec Ideal S2x512x64x64 .f32) (we : FVec Ideal S64x128 .f32)
    (hx : Cert.Spec.HoldsArr xe x) (hw : Cert.Spec.HoldsMat we w) (b : Fin 2) (h : Fin 512) (v : Fin 64) (j : Fin 128) :
    refOut (F := Ideal) xe we (ix4 b h v j) = ((Cert.Spec.out ε x w b h v j : ℝ) : EReal) := by
  have hr : (b.val * 512 + h.val) * 64 + v.val < 65536 := by
    have := b.isLt; have := h.isLt; have := v.isLt; omega
  unfold refOut
  refine (shapeCast_apply _ _ (ix4 b h v j) (ix2 ⟨(b.val * 512 + h.val) * 64 + v.val, hr⟩ j) ?_).trans ?_
  · rw [Shape.rowMajor_val_two, Shape.rowMajor_val_four]; rfl
  refine (Ideal.dotGeneral_apply _ _ _ _ _ _).trans ?_
  rw [← Equiv.sum_comp (contrEquiv1 dot_S65536x64_S64x128_S65536x128_1_0_0_1_n_n 64 rfl rfl).symm]
  unfold Cert.Spec.out
  rw [← coe_sum]
  refine Finset.sum_congr rfl fun ch _ => ?_
  have hk : (((contrEquiv1 dot_S65536x64_S64x128_S65536x128_1_0_0_1_n_n 64 rfl rfl).symm ch) ⟨0, by decide⟩ : ℕ) = ch.val :=
    contrEquiv1_symm_val _ 64 rfl rfl ch
  rw [shapeCast_apply (refAct (F := Ideal) xe) shapeCasts_S2x512x64x64_S65536x64 _ (ix4 b h v ch)
      (by rw [Shape.rowMajor_val_two, Shape.rowMajor_val_four, dot_lhs0, dot_lhs1, hk]; rfl),
    (show dot_S65536x64_S64x128_S65536x128_1_0_0_1_n_n.rhsIdx (ix2 ⟨(b.val * 512 + h.val) * 64 + v.val, hr⟩ j)
        ((contrEquiv1 dot_S65536x64_S64x128_S65536x128_1_0_0_1_n_n 64 rfl rfl).symm ch) = ix2 ch j from
      funext fun a => match a with
        | ⟨0, _⟩ => Fin.ext ((dot_rhs0 _ _ _).trans hk)
        | ⟨1, _⟩ => Fin.ext (dot_rhs1 _ _ _)),
    refAct_apply ε hεpos hε x xe hx, hw, ← EReal.coe_mul]

end Cert.ReferenceIdeal.Hand

end
-- ==== Proof.Join.lean ====
/-
  From what the claim hands over to the values: every float input is finite on every device, and each device's
  buffers are its block of (or the whole of) the reference's arrays — so the whole arrays hold reals; and on those
  reals a device's result is its block of the reference's result, both being `Cert.Spec.out` at the block's rows.
-/
import proofs.«900777_g7700000000000778_dist_diff_noisepred_hshard_i_b2_h64_w64_c64_v7x_i8_f32_1_alg».proof.Defs
import proofs.«900777_g7700000000000778_dist_diff_noisepred_hshard_i_b2_h64_w64_c64_v7x_i8_f32_1_alg».proof.Proof.Gen.KernelIdeal
import proofs.«900777_g7700000000000778_dist_diff_noisepred_hshard_i_b2_h64_w64_c64_v7x_i8_f32_1_alg».proof.Proof.Gen.ReferenceIdeal
import proofs.«900777_g7700000000000778_dist_diff_noisepred_hshard_i_b2_h64_w64_c64_v7x_i8_f32_1_alg».proof.Proof.Gen.Pre_finite_inputs_Kernel
import proofs.«900777_g7700000000000778_dist_diff_noisepred_hshard_i_b2_h64_w64_c64_v7x_i8_f32_1_alg».proof.Proof.KerValue
import proofs.«900777_g7700000000000778_dist_diff_noisepred_hshard_i_b2_h64_w64_c64_v7x_i8_f32_1_alg».proof.Proof.RefRead
import proofs.«900777_g7700000000000778_dist_diff_noisepred_hshard_i_b2_h64_w64_c64_v7x_i8_f32_1_alg».proof.Proof.Consts
import Idealize.ShloMosaic.Lib.ReduceAll
import Idealize.ShloMosaic.Lib.Layout
import Idealize.ShloMosaic.Lib.KernelVsHost

noncomputable section

namespace Cert.Proof.Join

open Idealize.ShloMosaic Idealize.ShloMosaic.ValueIdx Idealize.SL.Sem

/-- The printed epsilon denotes a positive real. -/
theorem eps_real : ∃ ε : ℝ, 0 < ε ∧ Ideal.ofBits .f32 0x3727C5AC#32 = ((ε : ℝ) : EReal) :=
  Cert.Consts.eps_real

/-- The result of a reduction over all axes has one index. -/
instance : Subsingleton Cert.Pre_finite_inputs_Kernel.S_.Idx := ⟨fun a b => funext fun d => d.elim0⟩

/-- An extended real whose absolute value is below the pattern of `+∞` is a real: that comparison is the
    complement of "the value is an infinity". -/
theorem real_of_abs_lt_top (x : Ideal .f32)
    (h : FloatOps.cmpf .olt (FloatOps.hostAbsf x) (FloatOps.ofBits (F := Ideal) .f32 0x7F800000#32) = 1#1) :
    ∃ r : ℝ, x = ((r : ℝ) : EReal) := by
  rw [← Ideal.xori_weird_eq_hostAbsf_olt_inf] at h
  have h' : IntOp.xori (BitVec.ofBool (decide ((x : EReal) = ⊤ ∨ (x : EReal) = ⊥))) 1#1 = 1#1 := h
  by_cases hc : (x : EReal) = ⊤ ∨ (x : EReal) = ⊥
  · simp [hc, IntOp.xori] at h'
  · push Not at hc
    exact ⟨EReal.toReal x, (EReal.coe_toReal hc.1 hc.2).symm⟩

/-- One device's precondition: every entry of its two argument buffers is a real. -/
theorem reals_of_fn (X : FVec Ideal Cert.Pre_finite_inputs_Kernel.S2x64x64x64 .f32) (W : FVec Ideal Cert.Pre_finite_inputs_Kernel.S64x128 .f32)
    (h : Cert.Pre_finite_inputs_Kernel.fn (F := Ideal) X W = (fun _ => 1#1)) :
    (∀ i, ∃ r : ℝ, X i = ((r : ℝ) : EReal)) ∧ (∀ i, ∃ r : ℝ, W i = ((r : ℝ) : EReal)) := by
  have h0 := congrFun h ValueIdx.ix0
  dsimp only [Cert.Pre_finite_inputs_Kernel.fn] at h0
  obtain ⟨h1, h2⟩ := IntOp.andi_eq_one.1 h0
  refine ⟨fun i => ?_, fun i => ?_⟩
  · exact real_of_abs_lt_top (X i) (Host.reduce_andi_all _ _ _ _ _ h1 i)
  · exact real_of_abs_lt_top (W i) (Host.reduce_andi_all _ _ _ _ _ h2 i)

/-- Where a block's entry lies in the whole array: row `h'` of block `c` is row `64 · c + h'`, the other three
    coordinates unchanged. -/
theorem idx_block {n : Nat} (T : Layout.Tiles ⟨4, ![2, 64, 64, n]⟩ ⟨4, ![2, 512, 64, n]⟩ 1 8) (c : Fin 8)
    (b : Fin 2) (h' : Fin 64) (v : Fin 64) (j : Fin n) :
    T.idx c (ix4 b h' v j) = ix4 b (Cert.Spec.rowOf c h') v j := by
  funext a
  match a with
  | ⟨0, _⟩ => exact Fin.ext rfl
  | ⟨1, _⟩ => exact Fin.ext rfl
  | ⟨2, _⟩ => exact Fin.ext rfl
  | ⟨3, _⟩ => exact Fin.ext rfl

/-- The block a row of the whole array lies in, -/
def devOf (h : Fin 512) : Fin 8 := ⟨h.val / 64, by have := h.isLt; omega⟩
/-- and the row's place in that block. -/
def rowIn (h : Fin 512) : Fin 64 := ⟨h.val % 64, Nat.mod_lt _ (by decide)⟩

/-- Every row of the whole array is a row of some block: row `h` is row `h % 64` of block `h / 64`. -/
theorem rowOf_devOf_rowIn (h : Fin 512) : Cert.Spec.rowOf (devOf h) (rowIn h) = h :=
  Fin.ext (by show h.val / 64 * 64 + h.val % 64 = h.val; omega)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A device's block entry is the whole array's entry at the block's row. -/
theorem block_entry
    (hagree : ∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 512, 64, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) (b : Fin 2) (h' : Fin 64) (v : Fin 64) (ch : Fin 64) :
    m ((c.tc : Thread Cert.KernelIdeal.nD Cert.KernelIdeal.τ).loc Cert.KernelIdeal.main_arg0) (ix4 b h' v ch)
      = m' (((0 : Dev Cert.ReferenceIdeal.nD).tc : Thread Cert.ReferenceIdeal.nD Cert.ReferenceIdeal.τ).loc Cert.ReferenceIdeal.main_arg0) (ix4 b (Cert.Spec.rowOf c h') v ch) := by
  rw [(hagree c).1, Layout.block_apply, idx_block]

/-- The whole arrays hold reals: every row of the whole input lies in some device's block. -/
theorem reals_of_pre (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 512, 64, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (x : Cert.Spec.Arr) (w : Cert.Spec.Mat),
      Cert.Spec.HoldsArr (m' (((0 : Dev Cert.ReferenceIdeal.nD).tc : Thread Cert.ReferenceIdeal.nD Cert.ReferenceIdeal.τ).loc Cert.ReferenceIdeal.main_arg0)) x
      ∧ Cert.Spec.HoldsMat (m' (((0 : Dev Cert.ReferenceIdeal.nD).tc : Thread Cert.ReferenceIdeal.nD Cert.ReferenceIdeal.τ).loc Cert.ReferenceIdeal.main_arg1)) w := by
  have hx : ∀ (b : Fin 2) (h : Fin 512) (v : Fin 64) (ch : Fin 64), ∃ r : ℝ,
      m' (((0 : Dev Cert.ReferenceIdeal.nD).tc : Thread Cert.ReferenceIdeal.nD Cert.ReferenceIdeal.τ).loc Cert.ReferenceIdeal.main_arg0) (ix4 b h v ch) = ((r : ℝ) : EReal) := by
    intro b h v ch
    obtain ⟨r, hr⟩ := (reals_of_fn _ _ (hpre (devOf h))).1 (ix4 b (rowIn h) v ch)
    rw [block_entry m m' hagree, rowOf_devOf_rowIn] at hr
    exact ⟨r, hr⟩
  have hw : ∀ (ch : Fin 64) (j : Fin 128), ∃ r : ℝ,
      m' (((0 : Dev Cert.ReferenceIdeal.nD).tc : Thread Cert.ReferenceIdeal.nD Cert.ReferenceIdeal.τ).loc Cert.ReferenceIdeal.main_arg1) (ix2 ch j) = ((r : ℝ) : EReal) := by
    intro ch j
    obtain ⟨r, hr⟩ := (reals_of_fn _ _ (hpre 0)).2 (ix2 ch j)
    rw [(hagree 0).2] at hr
    exact ⟨r, hr⟩
  choose x hx using hx
  choose w hw using hw
  exact ⟨x, w, hx, hw⟩

/-- A device's result is its block of the reference's result. -/
theorem block_value (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 512, 64, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdeal.Hand.result (F := Ideal)
        (fun d : Dev Cert.KernelIdeal.nD => m ((d.tc : Thread Cert.KernelIdeal.nD Cert.KernelIdeal.τ).loc Cert.KernelIdeal.main_arg0))
        (m ((c.tc : Thread Cert.KernelIdeal.nD Cert.KernelIdeal.τ).loc Cert.KernelIdeal.main_arg1)) c
      = Layout.block ⟨4, ![2, 64, 64, 128]⟩ ⟨4, ![2, 512, 64, 128]⟩ 1 8 c
          (Cert.ReferenceIdeal.Hand.refOut (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  obtain ⟨ε, hεpos, hε⟩ := eps_real
  obtain ⟨x, w, hx, hw⟩ := reals_of_pre m m' hpre hagree
  funext i
  obtain ⟨b, h', v, j, rfl⟩ : ∃ (b : Fin 2) (h' : Fin 64) (v : Fin 64) (j : Fin 128), i = ix4 b h' v j :=
    ⟨i 0, i 1, i 2, i 3, eq_ix4 i⟩
  have hX : Cert.KernelIdeal.Hand.HoldsBlocks
      (fun d : Dev Cert.KernelIdeal.nD => m ((d.tc : Thread Cert.KernelIdeal.nD Cert.KernelIdeal.τ).loc Cert.KernelIdeal.main_arg0)) x :=
    fun d b h' v ch => (block_entry m m' hagree d b h' v ch).trans (hx b (Cert.Spec.rowOf d h') v ch)
  have hW : Cert.Spec.HoldsMat (m ((c.tc : Thread Cert.KernelIdeal.nD Cert.KernelIdeal.τ).loc Cert.KernelIdeal.main_arg1)) w := by
    rw [(hagree c).2]; exact hw
  refine (Cert.KernelIdeal.Hand.result_apply ε hεpos hε x w _ _ hX hW c b h' v j).trans ?_
  rw [Layout.block_apply, idx_block]
  exact (Cert.ReferenceIdeal.Hand.refOut_apply ε hεpos hε x w _ _ hx hw b (Cert.Spec.rowOf c h') v j).symm

end Cert.Proof.Join

end
-- ==== Proof.lean ====
/-
  The five claims. Each program's frame claim is its run with the result's conjunct dropped: the eight-device
  kernel's run (word level and ideal, one proof over the float values) follows from every device's body
  obligation under the exchange's schedule, the reference's is its straight line of host operations. The ideal
  pass rewrote nothing. At the extended reals each device's result array is its block of rows of the reference's
  result: the kernel's run ends each device at its result term of what the eight devices were given, the
  reference's at its result term of the whole arrays, and the two terms agree block by block on finite inputs.
-/
import proofs.«900777_g7700000000000778_dist_diff_noisepred_hshard_i_b2_h64_w64_c64_v7x_i8_f32_1_alg».proof.Defs
import proofs.«900777_g7700000000000778_dist_diff_noisepred_hshard_i_b2_h64_w64_c64_v7x_i8_f32_1_alg».proof.Proof.Gen.Kernel
import proofs.«900777_g7700000000000778_dist_diff_noisepred_hshard_i_b2_h64_w64_c64_v7x_i8_f32_1_alg».proof.Proof.Gen.Kernel.Skeleton
import proofs.«900777_g7700000000000778_dist_diff_noisepred_hshard_i_b2_h64_w64_c64_v7x_i8_f32_1_alg».proof.Proof.Gen.Kernel.Launch
import proofs.«900777_g7700000000000778_dist_diff_noisepred_hshard_i_b2_h64_w64_c64_v7x_i8_f32_1_alg».proof.Proof.Gen.Kernel.Points
import proofs.«900777_g7700000000000778_dist_diff_noisepred_hshard_i_b2_h64_w64_c64_v7x_i8_f32_1_alg».proof.Proof.Gen.Kernel.Frame
import proofs.«900777_g7700000000000778_dist_diff_noisepred_hshard_i_b2_h64_w64_c64_v7x_i8_f32_1_alg».proof.Proof.Gen.KernelIdeal
import proofs.«900777_g7700000000000778_dist_diff_noisepred_hshard_i_b2_h64_w64_c64_v7x_i8_f32_1_alg».proof.Proof.Gen.KernelIdeal.Skeleton
import proofs.«900777_g7700000000000778_dist_diff_noisepred_hshard_i_b2_h64_w64_c64_v7x_i8_f32_1_alg».proof.Proof.Gen.KernelIdeal.Launch
import proofs.«900777_g7700000000000778_dist_diff_noisepred_hshard_i_b2_h64_w64_c64_v7x_i8_f32_1_alg».proof.Proof.Gen.KernelIdeal.Points
import proofs.«900777_g7700000000000778_dist_diff_noisepred_hshard_i_b2_h64_w64_c64_v7x_i8_f32_1_alg».proof.Proof.Gen.KernelIdeal.Frame
import proofs.«900777_g7700000000000778_dist_diff_noisepred_hshard_i_b2_h64_w64_c64_v7x_i8_f32_1_alg».proof.Proof.Gen.ReferenceIdeal
import proofs.«900777_g7700000000000778_dist_diff_noisepred_hshard_i_b2_h64_w64_c64_v7x_i8_f32_1_alg».proof.Proof.Gen.Pre_finite_inputs_Kernel
import proofs.«900777_g7700000000000778_dist_diff_noisepred_hshard_i_b2_h64_w64_c64_v7x_i8_f32_1_alg».proof.Proof.Gen.Pre_finite_inputs_ReferenceIdeal
import proofs.«900777_g7700000000000778_dist_diff_noisepred_hshard_i_b2_h64_w64_c64_v7x_i8_f32_1_alg».proof.Proof.Launch
import proofs.«900777_g7700000000000778_dist_diff_noisepred_hshard_i_b2_h64_w64_c64_v7x_i8_f32_1_alg».proof.Proof.Body
import proofs.«900777_g7700000000000778_dist_diff_noisepred_hshard_i_b2_h64_w64_c64_v7x_i8_f32_1_alg».proof.Proof.RefRun
import proofs.«900777_g7700000000000778_dist_diff_noisepred_hshard_i_b2_h64_w64_c64_v7x_i8_f32_1_alg».proof.Proof.Join
import proofs.«900777_g7700000000000778_dist_diff_noisepred_hshard_i_b2_h64_w64_c64_v7x_i8_f32_1_alg».proof.Proof.Word.Launch
import proofs.«900777_g7700000000000778_dist_diff_noisepred_hshard_i_b2_h64_w64_c64_v7x_i8_f32_1_alg».proof.Proof.Word.Body
import Idealize.ShloMosaic.Adequacy
import Idealize.ShloMosaic.Init

noncomputable section

namespace Cert.Proof

open Idealize.ShloMosaic Idealize.SL.Sem Cert.Kernel

/-- The word-level kernel runs and leaves its arguments as they were: its run, the result's conjunct dropped. -/
theorem frame_k : Cert.frame_Kernel := fun m ρ _ =>
  (θ_run Cert.Kernel.defs _ _).mono (fun _ h c => (h c).2)
    (Cert.Kernel.Proto.run_main (F := Bits) m ρ (fun c => Cert.Kernel.Proto.body_obligation m ρ c))

/-- The same of the kernel read over the extended reals. -/
theorem frame_ki : Cert.frame_KernelIdeal := fun m ρ _ =>
  (θ_run Cert.KernelIdeal.defs _ _).mono (fun _ h c => (h c).2)
    (Cert.KernelIdeal.Proto.run_main (F := Ideal) m ρ (fun c => Cert.KernelIdeal.Proto.body_obligation m ρ c))

/-- The reference runs on its one device and leaves its arguments as they were. -/
theorem frame_ri : Cert.frame_ReferenceIdeal := fun m ρ _ =>
  (θ_run Cert.ReferenceIdeal.defs _ _).mono
    (fun _ h c => by
      have hc : c = 0 := Fin.fin_one_eq_zero c
      subst hc
      exact ⟨h.2.1, h.2.2⟩)
    (Cert.ReferenceIdeal.Hand.run (F := Ideal) m ρ)

/-- Over the extended reals, from finite inputs of which each device holds its block of rows and a copy of the
    matrix: the reference's result array ends at its result term of the whole arrays, and each device's result
    array at its own result term, which is that device's block of rows of the reference's. -/
theorem algebraic : Cert.algebraic_KernelIdeal_ReferenceIdeal := by
  intro m ρ m' ρ' hpre hagree
  refine ⟨_, ?_, Cert.ReferenceIdeal.Hand.run (F := Ideal) m' ρ'⟩
  exact (θ_run Cert.KernelIdeal.defs _ _).mono
    (fun _ h c => ⟨(h c).1.trans (Cert.Proof.Join.block_value m m' hpre hagree c), (h c).2⟩)
    (Cert.KernelIdeal.Proto.run_main (F := Ideal) m ρ (fun c => Cert.KernelIdeal.Proto.body_obligation m ρ c))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  exact ⟨frame_k, frame_ki, frame_ri, trivial, algebraic⟩⟩

end Cert.Proof

end
